-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000 : Shape := ⟨1, ![20000]⟩
abbrev S64x100 : Shape := ⟨2, ![64, 100]⟩
abbrev S10000x10000 : Shape := ⟨2, ![10000, 10000]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S20000 : S_.BroadcastsInDim S20000 (![] : Fin 0 → Fin S20000.rank)
  reducesTo_S20000_S_d0 : S20000.ReducesTo [0] S_

variable [Facts]

def fn {F : FTy → Type} [FloatOps F] (main_arg0 : IVec S20000 32) (main_arg1 : IVec S64x100 32) (main_arg2 : FVec F S10000x10000 .f32) : IVec S_ 1 :=
  let main_v0 : FVec F S10000x10000 .f32 := Host.absf main_arg2
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_c_0 : IVec S_ 32 := constantI S_ 32 0#32
  let main_v4 : IVec S20000 32 := broadcastInDim S20000 ![] bcast_S_S20000 main_c_0
  let main_v5 : IVec S20000 1 := cmpi .sge main_arg0 main_v4
  let main_c_1 : IVec S_ 1 := constantI S_ 1 1#1
  let main_v6 : IVec S_ 1 := (fun x v => Host.reduce IntOp.andi x v reducesTo_S20000_S_d0 h_S_) main_v5 main_c_1
  let main_v7 : IVec S_ 1 := andi main_v3 main_v6
  main_v7
-- ==== Kernel.lean ====
abbrev S20000 : Shape := ⟨1, ![20000]⟩
abbrev S64x100 : Shape := ⟨2, ![64, 100]⟩
abbrev S10000x10000 : Shape := ⟨2, ![10000, 10000]⟩
abbrev S_ : Shape := ⟨0, ![]⟩
abbrev S64x100x1 : Shape := ⟨3, ![64, 100, 1]⟩
abbrev S64x100x10000 : Shape := ⟨3, ![64, 100, 10000]⟩
abbrev S1x100x10000 : Shape := ⟨3, ![1, 100, 10000]⟩
abbrev S100x10000 : Shape := ⟨2, ![100, 10000]⟩
abbrev S100 : Shape := ⟨1, ![100]⟩
abbrev S1x1 : Shape := ⟨2, ![1, 1]⟩
abbrev S1 : Shape := ⟨1, ![1]⟩
abbrev S1x10000 : Shape := ⟨2, ![1, 10000]⟩
abbrev S10000 : Shape := ⟨1, ![10000]⟩
abbrev S20x10000 : Shape := ⟨2, ![20, 10000]⟩
abbrev S1x20x10000 : Shape := ⟨3, ![1, 20, 10000]⟩

abbrev nBuf : Space → Nat
  | .hbm => 20
  | .vmem => 3
  | .smem => 1
  | _ => 0

abbrev bufTy : (tb : Table) → Fin (tcTables nBuf tb) → BufTy
  | .hbm, ⟨0, _⟩ => ⟨S20000, .i32⟩
  | .hbm, ⟨1, _⟩ => ⟨S64x100, .i32⟩
  | .hbm, ⟨2, _⟩ => ⟨S10000x10000, .f32⟩
  | .hbm, ⟨3, _⟩ => ⟨S_, .i32⟩
  | .hbm, ⟨4, _⟩ => ⟨S64x100, .i32⟩
  | .hbm, ⟨5, _⟩ => ⟨S64x100, .i1⟩
  | .hbm, ⟨6, _⟩ => ⟨S_, .i32⟩
  | .hbm, ⟨7, _⟩ => ⟨S64x100, .i32⟩
  | .hbm, ⟨8, _⟩ => ⟨S64x100, .i32⟩
  | .hbm, ⟨9, _⟩ => ⟨S64x100, .i32⟩
  | .hbm, ⟨10, _⟩ => ⟨S64x100x1, .i32⟩
  | .hbm, ⟨11, _⟩ => ⟨S64x100, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64x100, .i32⟩
  | .hbm, ⟨16, _⟩ => ⟨S64x100, .i32⟩
  | .hbm, ⟨17, _⟩ => ⟨S_, .i32⟩
  | .hbm, ⟨18, _⟩ => ⟨S64x100, .i32⟩
  | .hbm, ⟨19, _⟩ => ⟨S64x100x10000, .f32⟩
  | .local _ .vmem, ⟨0, _⟩ => ⟨S1x100x10000, .f32⟩
  | .local _ .vmem, ⟨1, _⟩ => ⟨S1x100x10000, .f32⟩
  | .local _ .vmem, ⟨2, _⟩ => ⟨S100x10000, .f32⟩
  | .local _ .smem, ⟨0, _⟩ => ⟨S64x100, .i32⟩
  | _, _ => ⟨S20000, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (v1 : BitVec 32) : Fin 2 → Nat :=
  let c0_i32_2 : BitVec 32 := 0#32
  ![v1.toNat, 0]

def k0_off3 (i : grid0.Coords) : Fin 2 → Nat :=
  let arg0 : BitVec 32 := BitVec.ofNat 32 (i 0).val
  let v8 : Index := Scalar.indexCast arg0
  let c1 : Index := 1#32
  ![v8.toNat, 1]
def k0_off4 (v9 : BitVec 32) : Fin 2 → Nat :=
  let c0_i32_5 : BitVec 32 := 0#32
  ![v9.toNat, 0]

def k0_off5 (i : grid0.Coords) : Fin 2 → Nat :=
  let arg0 : BitVec 32 := BitVec.ofNat 32 (i 0).val
  let v16 : Index := Scalar.indexCast arg0
  let c2 : Index := 2#32
  ![v16.toNat, 2]
def k0_off6 (v17 : BitVec 32) : Fin 2 → Nat :=
  let c0_i32_8 : BitVec 32 := 0#32
  ![v17.toNat, 0]

def k0_off7 (i : grid0.Coords) : Fin 2 → Nat :=
  let arg0 : BitVec 32 := BitVec.ofNat 32 (i 0).val
  let v24 : Index := Scalar.indexCast arg0
  let c3 : Index := 3#32
  ![v24.toNat, 3]
def k0_off8 (v25 : BitVec 32) : Fin 2 → Nat :=
  let c0_i32_11 : BitVec 32 := 0#32
  ![v25.toNat, 0]

def k0_off9 (i : grid0.Coords) : Fin 2 → Nat :=
  let arg0 : BitVec 32 := BitVec.ofNat 32 (i 0).val
  let v32 : Index := Scalar.indexCast arg0
  let c4 : Index := 4#32
  ![v32.toNat, 4]
def k0_off10 (v33 : BitVec 32) : Fin 2 → Nat :=
  let c0_i32_14 : BitVec 32 := 0#32
  ![v33.toNat, 0]

def k0_off11 (i : grid0.Coords) : Fin 2 → Nat :=
  let arg0 : BitVec 32 := BitVec.ofNat 32 (i 0).val
  let v40 : Index := Scalar.indexCast arg0
  let c5 : Index := 5#32
  ![v40.toNat, 5]
def k0_off12 (v41 : BitVec 32) : Fin 2 → Nat :=
  let c0_i32_17 : BitVec 32 := 0#32
  ![v41.toNat, 0]

def k0_off13 (i : grid0.Coords) : Fin 2 → Nat :=
  let arg0 : BitVec 32 := BitVec.ofNat 32 (i 0).val
  let v48 : Index := Scalar.indexCast arg0
  let c6 : Index := 6#32
  ![v48.toNat, 6]
def k0_off14 (v49 : BitVec 32) : Fin 2 → Nat :=
  let c0_i32_20 : BitVec 32 := 0#32
  ![v49.toNat, 0]

def k0_off15 (i : grid0.Coords) : Fin 2 → Nat :=
  let arg0 : BitVec 32 := BitVec.ofNat 32 (i 0).val
  let v56 : Index := Scalar.indexCast arg0
  let c7 : Index := 7#32
  ![v56.toNat, 7]
def k0_off16 (v57 : BitVec 32) : Fin 2 → Nat :=
  let c0_i32_23 : BitVec 32 := 0#32
  ![v57.toNat, 0]

def k0_off17 (i : grid0.Coords) : Fin 2 → Nat :=
  let arg0 : BitVec 32 := BitVec.ofNat 32 (i 0).val
  let v64 : Index := Scalar.indexCast arg0
  let c8 : Index := 8#32
  ![v64.toNat, 8]
def k0_off18 (v65 : BitVec 32) : Fin 2 → Nat :=
  let c0_i32_26 : BitVec 32 := 0#32
  ![v65.toNat, 0]

def k0_off19 (i : grid0.Coords) : Fin 2 → Nat :=
  let arg0 : BitVec 32 := BitVec.ofNat 32 (i 0).val
  let v72 : Index := Scalar.indexCast arg0
  let c9 : Index := 9#32
  ![v72.toNat, 9]
def k0_off20 (v73 : BitVec 32) : Fin 2 → Nat :=
  let c0_i32_29 : BitVec 32 := 0#32
  ![v73.toNat, 0]

def k0_off21 (i : grid0.Coords) : Fin 2 → Nat :=
  let arg0 : BitVec 32 := BitVec.ofNat 32 (i 0).val
  let v80 : Index := Scalar.indexCast arg0
  let c10 : Index := 10#32
  ![v80.toNat, 10]
def k0_off22 (v81 : BitVec 32) : Fin 2 → Nat :=
  let c0_i32_32 : BitVec 32 := 0#32
  ![v81.toNat, 0]

def k0_off23 (i : grid0.Coords) : Fin 2 → Nat :=
  let arg0 : BitVec 32 := BitVec.ofNat 32 (i 0).val
  let v88 : Index := Scalar.indexCast arg0
  let c11 : Index := 11#32
  ![v88.toNat, 11]
def k0_off24 (v89 : BitVec 32) : Fin 2 → Nat :=
  let c0_i32_35 : BitVec 32 := 0#32
  ![v89.toNat, 0]

def k0_off25 (i : grid0.Coords) : Fin 2 → Nat :=
  let arg0 : BitVec 32 := BitVec.ofNat 32 (i 0).val
  let v96 : Index := Scalar.indexCast arg0
  let c12 : Index := 12#32
  ![v96.toNat, 12]
def k0_off26 (v97 : BitVec 32) : Fin 2 → Nat :=
  let c0_i32_38 : BitVec 32 := 0#32
  ![v97.toNat, 0]

def k0_off27 (i : grid0.Coords) : Fin 2 → Nat :=
  let arg0 : BitVec 32 := BitVec.ofNat 32 (i 0).val
  let v104 : Index := Scalar.indexCast arg0
  let c13 : Index := 13#32
  ![v104.toNat, 13]
def k0_off28 (v105 : BitVec 32) : Fin 2 → Nat :=
  let c0_i32_41 : BitVec 32 := 0#32
  ![v105.toNat, 0]

def k0_off29 (i : grid0.Coords) : Fin 2 → Nat :=
  let arg0 : BitVec 32 := BitVec.ofNat 32 (i 0).val
  let v112 : Index := Scalar.indexCast arg0
  let c14 : Index := 14#32
  ![v112.toNat, 14]
def k0_off30 (v113 : BitVec 32) : Fin 2 → Nat :=
  let c0_i32_44 : BitVec 32 := 0#32
  ![v113.toNat, 0]

def k0_off31 (i : grid0.Coords) : Fin 2 → Nat :=
  let arg0 : BitVec 32 := BitVec.ofNat 32 (i 0).val
  let v120 : Index := Scalar.indexCast arg0
  let c15 : Index := 15#32
  ![v120.toNat, 15]
def k0_off32 (v121 : BitVec 32) : Fin 2 → Nat :=
  let c0_i32_47 : BitVec 32 := 0#32
  ![v121.toNat, 0]

def k0_off33 (i : grid0.Coords) : Fin 2 → Nat :=
  let arg0 : BitVec 32 := BitVec.ofNat 32 (i 0).val
  let v128 : Index := Scalar.indexCast arg0
  let c16 : Index := 16#32
  ![v128.toNat, 16]
def k0_off34 (v129 : BitVec 32) : Fin 2 → Nat :=
  let c0_i32_50 : BitVec 32 := 0#32
  ![v129.toNat, 0]

def k0_off35 (i : grid0.Coords) : Fin 2 → Nat :=
  let arg0 : BitVec 32 := BitVec.ofNat 32 (i 0).val
  let v136 : Index := Scalar.indexCast arg0
  let c17 : Index := 17#32
  ![v136.toNat, 17]
def k0_off36 (v137 : BitVec 32) : Fin 2 → Nat :=
  let c0_i32_53 : BitVec 32 := 0#32
  ![v137.toNat, 0]

def k0_off37 (i : grid0.Coords) : Fin 2 → Nat :=
  let arg0 : BitVec 32 := BitVec.ofNat 32 (i 0).val
  let v144 : Index := Scalar.indexCast arg0
  let c18 : Index := 18#32
  ![v144.toNat, 18]
def k0_off38 (v145 : BitVec 32) : Fin 2 → Nat :=
  let c0_i32_56 : BitVec 32 := 0#32
  ![v145.toNat, 0]

def k0_off39 (i : grid0.Coords) : Fin 2 → Nat :=
  let arg0 : BitVec 32 := BitVec.ofNat 32 (i 0).val
  let v152 : Index := Scalar.indexCast arg0
  let c19 : Index := 19#32
  ![v152.toNat, 19]
def k0_off40 (v153 : BitVec 32) : Fin 2 → Nat :=
  let c0_i32_59 : BitVec 32 := 0#32
  ![v153.toNat, 0]

def k0_off41 (i : grid0.Coords) : Fin 2 → Nat :=
  let arg0 : BitVec 32 := BitVec.ofNat 32 (i 0).val
  let v160 : Index := Scalar.indexCast arg0
  let c20 : Index := 20#32
  ![v160.toNat, 20]
def k0_off42 (v161 : BitVec 32) : Fin 2 → Nat :=
  let c0_i32_62 : BitVec 32 := 0#32
  ![v161.toNat, 0]

def k0_off43 (i : grid0.Coords) : Fin 2 → Nat :=
  let arg0 : BitVec 32 := BitVec.ofNat 32 (i 0).val
  let v168 : Index := Scalar.indexCast arg0
  let c21 : Index := 21#32
  ![v168.toNat, 21]
def k0_off44 (v169 : BitVec 32) : Fin 2 → Nat :=
  let c0_i32_65 : BitVec 32 := 0#32
  ![v169.toNat, 0]

def k0_off45 (i : grid0.Coords) : Fin 2 → Nat :=
  let arg0 : BitVec 32 := BitVec.ofNat 32 (i 0).val
  let v176 : Index := Scalar.indexCast arg0
  let c22 : Index := 22#32
  ![v176.toNat, 22]
def k0_off46 (v177 : BitVec 32) : Fin 2 → Nat :=
  let c0_i32_68 : BitVec 32 := 0#32
  ![v177.toNat, 0]

def k0_off47 (i : grid0.Coords) : Fin 2 → Nat :=
  let arg0 : BitVec 32 := BitVec.ofNat 32 (i 0).val
  let v184 : Index := Scalar.indexCast arg0
  let c23 : Index := 23#32
  ![v184.toNat, 23]
def k0_off48 (v185 : BitVec 32) : Fin 2 → Nat :=
  let c0_i32_71 : BitVec 32 := 0#32
  ![v185.toNat, 0]

def k0_off49 (i : grid0.Coords) : Fin 2 → Nat :=
  let arg0 : BitVec 32 := BitVec.ofNat 32 (i 0).val
  let v192 : Index := Scalar.indexCast arg0
  let c24 : Index := 24#32
  ![v192.toNat, 24]
def k0_off50 (v193 : BitVec 32) : Fin 2 → Nat :=
  let c0_i32_74 : BitVec 32 := 0#32
  ![v193.toNat, 0]

def k0_off51 (i : grid0.Coords) : Fin 2 → Nat :=
  let arg0 : BitVec 32 := BitVec.ofNat 32 (i 0).val
  let v200 : Index := Scalar.indexCast arg0
  let c25 : Index := 25#32
  ![v200.toNat, 25]
def k0_off52 (v201 : BitVec 32) : Fin 2 → Nat :=
  let c0_i32_77 : BitVec 32 := 0#32
  ![v201.toNat, 0]

def k0_off53 (i : grid0.Coords) : Fin 2 → Nat :=
  let arg0 : BitVec 32 := BitVec.ofNat 32 (i 0).val
  let v208 : Index := Scalar.indexCast arg0
  let c26 : Index := 26#32
  ![v208.toNat, 26]
def k0_off54 (v209 : BitVec 32) : Fin 2 → Nat :=
  let c0_i32_80 : BitVec 32 := 0#32
  ![v209.toNat, 0]

def k0_off55 (i : grid0.Coords) : Fin 2 → Nat :=
  let arg0 : BitVec 32 := BitVec.ofNat 32 (i 0).val
  let v216 : Index := Scalar.indexCast arg0
  let c27 : Index := 27#32
  ![v216.toNat, 27]
def k0_off56 (v217 : BitVec 32) : Fin 2 → Nat :=
  let c0_i32_83 : BitVec 32 := 0#32
  ![v217.toNat, 0]

def k0_off57 (i : grid0.Coords) : Fin 2 → Nat :=
  let arg0 : BitVec 32 := BitVec.ofNat 32 (i 0).val
  let v224 : Index := Scalar.indexCast arg0
  let c28 : Index := 28#32
  ![v224.toNat, 28]
def k0_off58 (v225 : BitVec 32) : Fin 2 → Nat :=
  let c0_i32_86 : BitVec 32 := 0#32
  ![v225.toNat, 0]

def k0_off59 (i : grid0.Coords) : Fin 2 → Nat :=
  let arg0 : BitVec 32 := BitVec.ofNat 32 (i 0).val
  let v232 : Index := Scalar.indexCast arg0
  let c29 : Index := 29#32
  ![v232.toNat, 29]
def k0_off60 (v233 : BitVec 32) : Fin 2 → Nat :=
  let c0_i32_89 : BitVec 32 := 0#32
  ![v233.toNat, 0]

def k0_off61 (i : grid0.Coords) : Fin 2 → Nat :=
  let arg0 : BitVec 32 := BitVec.ofNat 32 (i 0).val
  let v240 : Index := Scalar.indexCast arg0
  let c30 : Index := 30#32
  ![v240.toNat, 30]
def k0_off62 (v241 : BitVec 32) : Fin 2 → Nat :=
  let c0_i32_92 : BitVec 32 := 0#32
  ![v241.toNat, 0]

def k0_off63 (i : grid0.Coords) : Fin 2 → Nat :=
  let arg0 : BitVec 32 := BitVec.ofNat 32 (i 0).val
  let v248 : Index := Scalar.indexCast arg0
  let c31 : Index := 31#32
  ![v248.toNat, 31]
def k0_off64 (v249 : BitVec 32) : Fin 2 → Nat :=
  let c0_i32_95 : BitVec 32 := 0#32
  ![v249.toNat, 0]

def k0_off65 (i : grid0.Coords) : Fin 2 → Nat :=
  let arg0 : BitVec 32 := BitVec.ofNat 32 (i 0).val
  let v256 : Index := Scalar.indexCast arg0
  let c32 : Index := 32#32
  ![v256.toNat, 32]
def k0_off66 (v257 : BitVec 32) : Fin 2 → Nat :=
  let c0_i32_98 : BitVec 32 := 0#32
  ![v257.toNat, 0]

def k0_off67 (i : grid0.Coords) : Fin 2 → Nat :=
  let arg0 : BitVec 32 := BitVec.ofNat 32 (i 0).val
  let v264 : Index := Scalar.indexCast arg0
  let c33 : Index := 33#32
  ![v264.toNat, 33]
def k0_off68 (v265 : BitVec 32) : Fin 2 → Nat :=
  let c0_i32_101 : BitVec 32 := 0#32
  ![v265.toNat, 0]

def k0_off69 (i : grid0.Coords) : Fin 2 → Nat :=
  let arg0 : BitVec 32 := BitVec.ofNat 32 (i 0).val
  let v272 : Index := Scalar.indexCast arg0
  let c34 : Index := 34#32
  ![v272.toNat, 34]
def k0_off70 (v273 : BitVec 32) : Fin 2 → Nat :=
  let c0_i32_104 : BitVec 32 := 0#32
  ![v273.toNat, 0]

def k0_off71 (i : grid0.Coords) : Fin 2 → Nat :=
  let arg0 : BitVec 32 := BitVec.ofNat 32 (i 0).val
  let v280 : Index := Scalar.indexCast arg0
  let c35 : Index := 35#32
  ![v280.toNat, 35]
def k0_off72 (v281 : BitVec 32) : Fin 2 → Nat :=
  let c0_i32_107 : BitVec 32 := 0#32
  ![v281.toNat, 0]

def k0_off73 (i : grid0.Coords) : Fin 2 → Nat :=
  let arg0 : BitVec 32 := BitVec.ofNat 32 (i 0).val
  let v288 : Index := Scalar.indexCast arg0
  let c36 : Index := 36#32
  ![v288.toNat, 36]
def k0_off74 (v289 : BitVec 32) : Fin 2 → Nat :=
  let c0_i32_110 : BitVec 32 := 0#32
  ![v289.toNat, 0]

def k0_off75 (i : grid0.Coords) : Fin 2 → Nat :=
  let arg0 : BitVec 32 := BitVec.ofNat 32 (i 0).val
  let v296 : Index := Scalar.indexCast arg0
  let c37 : Index := 37#32
  ![v296.toNat, 37]
def k0_off76 (v297 : BitVec 32) : Fin 2 → Nat :=
  let c0_i32_113 : BitVec 32 := 0#32
  ![v297.toNat, 0]

def k0_off77 (i : grid0.Coords) : Fin 2 → Nat :=
  let arg0 : BitVec 32 := BitVec.ofNat 32 (i 0).val
  let v304 : Index := Scalar.indexCast arg0
  let c38 : Index := 38#32
  ![v304.toNat, 38]
def k0_off78 (v305 : BitVec 32) : Fin 2 → Nat :=
  let c0_i32_116 : BitVec 32 := 0#32
  ![v305.toNat, 0]

def k0_off79 (i : grid0.Coords) : Fin 2 → Nat :=
  let arg0 : BitVec 32 := BitVec.ofNat 32 (i 0).val
  let v312 : Index := Scalar.indexCast arg0
  let c39 : Index := 39#32
  ![v312.toNat, 39]
def k0_off80 (v313 : BitVec 32) : Fin 2 → Nat :=
  let c0_i32_119 : BitVec 32 := 0#32
  ![v313.toNat, 0]

def k0_off81 (i : grid0.Coords) : Fin 2 → Nat :=
  let arg0 : BitVec 32 := BitVec.ofNat 32 (i 0).val
  let v320 : Index := Scalar.indexCast arg0
  let c40 : Index := 40#32
  ![v320.toNat, 40]
def k0_off82 (v321 : BitVec 32) : Fin 2 → Nat :=
  let c0_i32_122 : BitVec 32 := 0#32
  ![v321.toNat, 0]

def k0_off83 (i : grid0.Coords) : Fin 2 → Nat :=
  let arg0 : BitVec 32 := BitVec.ofNat 32 (i 0).val
  let v328 : Index := Scalar.indexCast arg0
  let c41 : Index := 41#32
  ![v328.toNat, 41]
def k0_off84 (v329 : BitVec 32) : Fin 2 → Nat :=
  let c0_i32_125 : BitVec 32 := 0#32
  ![v329.toNat, 0]

def k0_off85 (i : grid0.Coords) : Fin 2 → Nat :=
  let arg0 : BitVec 32 := BitVec.ofNat 32 (i 0).val
  let v336 : Index := Scalar.indexCast arg0
  let c42 : Index := 42#32
  ![v336.toNat, 42]
def k0_off86 (v337 : BitVec 32) : Fin 2 → Nat :=
  let c0_i32_128 : BitVec 32 := 0#32
  ![v337.toNat, 0]

def k0_off87 (i : grid0.Coords) : Fin 2 → Nat :=
  let arg0 : BitVec 32 := BitVec.ofNat 32 (i 0).val
  let v344 : Index := Scalar.indexCast arg0
  let c43 : Index := 43#32
  ![v344.toNat, 43]
def k0_off88 (v345 : BitVec 32) : Fin 2 → Nat :=
  let c0_i32_131 : BitVec 32 := 0#32
  ![v345.toNat, 0]

def k0_off89 (i : grid0.Coords) : Fin 2 → Nat :=
  let arg0 : BitVec 32 := BitVec.ofNat 32 (i 0).val
  let v352 : Index := Scalar.indexCast arg0
  let c44 : Index := 44#32
  ![v352.toNat, 44]
def k0_off90 (v353 : BitVec 32) : Fin 2 → Nat :=
  let c0_i32_134 : BitVec 32 := 0#32
  ![v353.toNat, 0]

def k0_off91 (i : grid0.Coords) : Fin 2 → Nat :=
  let arg0 : BitVec 32 := BitVec.ofNat 32 (i 0).val
  let v360 : Index := Scalar.indexCast arg0
  let c45 : Index := 45#32
  ![v360.toNat, 45]
def k0_off92 (v361 : BitVec 32) : Fin 2 → Nat :=
  let c0_i32_137 : BitVec 32 := 0#32
  ![v361.toNat, 0]

def k0_off93 (i : grid0.Coords) : Fin 2 → Nat :=
  let arg0 : BitVec 32 := BitVec.ofNat 32 (i 0).val
  let v368 : Index := Scalar.indexCast arg0
  let c46 : Index := 46#32
  ![v368.toNat, 46]
def k0_off94 (v369 : BitVec 32) : Fin 2 → Nat :=
  let c0_i32_140 : BitVec 32 := 0#32
  ![v369.toNat, 0]

def k0_off95 (i : grid0.Coords) : Fin 2 → Nat :=
  let arg0 : BitVec 32 := BitVec.ofNat 32 (i 0).val
  let v376 : Index := Scalar.indexCast arg0
  let c47 : Index := 47#32
  ![v376.toNat, 47]
def k0_off96 (v377 : BitVec 32) : Fin 2 → Nat :=
  let c0_i32_143 : BitVec 32 := 0#32
  ![v377.toNat, 0]

def k0_off97 (i : grid0.Coords) : Fin 2 → Nat :=
  let arg0 : BitVec 32 := BitVec.ofNat 32 (i 0).val
  let v384 : Index := Scalar.indexCast arg0
  let c48 : Index := 48#32
  ![v384.toNat, 48]
def k0_off98 (v385 : BitVec 32) : Fin 2 → Nat :=
  let c0_i32_146 : BitVec 32 := 0#32
  ![v385.toNat, 0]

def k0_off99 (i : grid0.Coords) : Fin 2 → Nat :=
  let arg0 : BitVec 32 := BitVec.ofNat 32 (i 0).val
  let v392 : Index := Scalar.indexCast arg0
  let c49 : Index := 49#32
  ![v392.toNat, 49]
def k0_off100 (v393 : BitVec 32) : Fin 2 → Nat :=
  let c0_i32_149 : BitVec 32 := 0#32
  ![v393.toNat, 0]

def k0_off101 (i : grid0.Coords) : Fin 2 → Nat :=
  let arg0 : BitVec 32 := BitVec.ofNat 32 (i 0).val
  let v400 : Index := Scalar.indexCast arg0
  let c50 : Index := 50#32
  ![v400.toNat, 50]
def k0_off102 (v401 : BitVec 32) : Fin 2 → Nat :=
  let c0_i32_152 : BitVec 32 := 0#32
  ![v401.toNat, 0]

def k0_off103 (i : grid0.Coords) : Fin 2 → Nat :=
  let arg0 : BitVec 32 := BitVec.ofNat 32 (i 0).val
  let v408 : Index := Scalar.indexCast arg0
  let c51 : Index := 51#32
  ![v408.toNat, 51]
def k0_off104 (v409 : BitVec 32) : Fin 2 → Nat :=
  let c0_i32_155 : BitVec 32 := 0#32
  ![v409.toNat, 0]

def k0_off105 (i : grid0.Coords) : Fin 2 → Nat :=
  let arg0 : BitVec 32 := BitVec.ofNat 32 (i 0).val
  let v416 : Index := Scalar.indexCast arg0
  let c52 : Index := 52#32
  ![v416.toNat, 52]
def k0_off106 (v417 : BitVec 32) : Fin 2 → Nat :=
  let c0_i32_158 : BitVec 32 := 0#32
  ![v417.toNat, 0]

def k0_off107 (i : grid0.Coords) : Fin 2 → Nat :=
  let arg0 : BitVec 32 := BitVec.ofNat 32 (i 0).val
  let v424 : Index := Scalar.indexCast arg0
  let c53 : Index := 53#32
  ![v424.toNat, 53]
def k0_off108 (v425 : BitVec 32) : Fin 2 → Nat :=
  let c0_i32_161 : BitVec 32 := 0#32
  ![v425.toNat, 0]

def k0_off109 (i : grid0.Coords) : Fin 2 → Nat :=
  let arg0 : BitVec 32 := BitVec.ofNat 32 (i 0).val
  let v432 : Index := Scalar.indexCast arg0
  let c54 : Index := 54#32
  ![v432.toNat, 54]
def k0_off110 (v433 : BitVec 32) : Fin 2 → Nat :=
  let c0_i32_164 : BitVec 32 := 0#32
  ![v433.toNat, 0]

def k0_off111 (i : grid0.Coords) : Fin 2 → Nat :=
  let arg0 : BitVec 32 := BitVec.ofNat 32 (i 0).val
  let v440 : Index := Scalar.indexCast arg0
  let c55 : Index := 55#32
  ![v440.toNat, 55]
def k0_off112 (v441 : BitVec 32) : Fin 2 → Nat :=
  let c0_i32_167 : BitVec 32 := 0#32
  ![v441.toNat, 0]

def k0_off113 (i : grid0.Coords) : Fin 2 → Nat :=
  let arg0 : BitVec 32 := BitVec.ofNat 32 (i 0).val
  let v448 : Index := Scalar.indexCast arg0
  let c56 : Index := 56#32
  ![v448.toNat, 56]
def k0_off114 (v449 : BitVec 32) : Fin 2 → Nat :=
  let c0_i32_170 : BitVec 32 := 0#32
  ![v449.toNat, 0]

def k0_off115 (i : grid0.Coords) : Fin 2 → Nat :=
  let arg0 : BitVec 32 := BitVec.ofNat 32 (i 0).val
  let v456 : Index := Scalar.indexCast arg0
  let c57 : Index := 57#32
  ![v456.toNat, 57]
def k0_off116 (v457 : BitVec 32) : Fin 2 → Nat :=
  let c0_i32_173 : BitVec 32 := 0#32
  ![v457.toNat, 0]

def k0_off117 (i : grid0.Coords) : Fin 2 → Nat :=
  let arg0 : BitVec 32 := BitVec.ofNat 32 (i 0).val
  let v464 : Index := Scalar.indexCast arg0
  let c58 : Index := 58#32
  ![v464.toNat, 58]
def k0_off118 (v465 : BitVec 32) : Fin 2 → Nat :=
  let c0_i32_176 : BitVec 32 := 0#32
  ![v465.toNat, 0]

def k0_off119 (i : grid0.Coords) : Fin 2 → Nat :=
  let arg0 : BitVec 32 := BitVec.ofNat 32 (i 0).val
  let v472 : Index := Scalar.indexCast arg0
  let c59 : Index := 59#32
  ![v472.toNat, 59]
def k0_off120 (v473 : BitVec 32) : Fin 2 → Nat :=
  let c0_i32_179 : BitVec 32 := 0#32
  ![v473.toNat, 0]

def k0_off121 (i : grid0.Coords) : Fin 2 → Nat :=
  let arg0 : BitVec 32 := BitVec.ofNat 32 (i 0).val
  let v480 : Index := Scalar.indexCast arg0
  let c60 : Index := 60#32
  ![v480.toNat, 60]
def k0_off122 (v481 : BitVec 32) : Fin 2 → Nat :=
  let c0_i32_182 : BitVec 32 := 0#32
  ![v481.toNat, 0]

def k0_off123 (i : grid0.Coords) : Fin 2 → Nat :=
  let arg0 : BitVec 32 := BitVec.ofNat 32 (i 0).val
  let v488 : Index := Scalar.indexCast arg0
  let c61 : Index := 61#32
  ![v488.toNat, 61]
def k0_off124 (v489 : BitVec 32) : Fin 2 → Nat :=
  let c0_i32_185 : BitVec 32 := 0#32
  ![v489.toNat, 0]

def k0_off125 (i : grid0.Coords) : Fin 2 → Nat :=
  let arg0 : BitVec 32 := BitVec.ofNat 32 (i 0).val
  let v496 : Index := Scalar.indexCast arg0
  let c62 : Index := 62#32
  ![v496.toNat, 62]
def k0_off126 (v497 : BitVec 32) : Fin 2 → Nat :=
  let c0_i32_188 : BitVec 32 := 0#32
  ![v497.toNat, 0]

def k0_off127 (i : grid0.Coords) : Fin 2 → Nat :=
  let arg0 : BitVec 32 := BitVec.ofNat 32 (i 0).val
  let v504 : Index := Scalar.indexCast arg0
  let c63 : Index := 63#32
  ![v504.toNat, 63]
def k0_off128 (v505 : BitVec 32) : Fin 2 → Nat :=
  let c0_i32_191 : BitVec 32 := 0#32
  ![v505.toNat, 0]

def k0_off129 (i : grid0.Coords) : Fin 2 → Nat :=
  let arg0 : BitVec 32 := BitVec.ofNat 32 (i 0).val
  let v512 : Index := Scalar.indexCast arg0
  let c64 : Index := 64#32
  ![v512.toNat, 64]
def k0_off130 (v513 : BitVec 32) : Fin 2 → Nat :=
  let c0_i32_194 : BitVec 32 := 0#32
  ![v513.toNat, 0]

def k0_off131 (i : grid0.Coords) : Fin 2 → Nat :=
  let arg0 : BitVec 32 := BitVec.ofNat 32 (i 0).val
  let v520 : Index := Scalar.indexCast arg0
  let c65 : Index := 65#32
  ![v520.toNat, 65]
def k0_off132 (v521 : BitVec 32) : Fin 2 → Nat :=
  let c0_i32_197 : BitVec 32 := 0#32
  ![v521.toNat, 0]

def k0_off133 (i : grid0.Coords) : Fin 2 → Nat :=
  let arg0 : BitVec 32 := BitVec.ofNat 32 (i 0).val
  let v528 : Index := Scalar.indexCast arg0
  let c66 : Index := 66#32
  ![v528.toNat, 66]
def k0_off134 (v529 : BitVec 32) : Fin 2 → Nat :=
  let c0_i32_200 : BitVec 32 := 0#32
  ![v529.toNat, 0]

def k0_off135 (i : grid0.Coords) : Fin 2 → Nat :=
  let arg0 : BitVec 32 := BitVec.ofNat 32 (i 0).val
  let v536 : Index := Scalar.indexCast arg0
  let c67 : Index := 67#32
  ![v536.toNat, 67]
def k0_off136 (v537 : BitVec 32) : Fin 2 → Nat :=
  let c0_i32_203 : BitVec 32 := 0#32
  ![v537.toNat, 0]

def k0_off137 (i : grid0.Coords) : Fin 2 → Nat :=
  let arg0 : BitVec 32 := BitVec.ofNat 32 (i 0).val
  let v544 : Index := Scalar.indexCast arg0
  let c68 : Index := 68#32
  ![v544.toNat, 68]
def k0_off138 (v545 : BitVec 32) : Fin 2 → Nat :=
  let c0_i32_206 : BitVec 32 := 0#32
  ![v545.toNat, 0]

def k0_off139 (i : grid0.Coords) : Fin 2 → Nat :=
  let arg0 : BitVec 32 := BitVec.ofNat 32 (i 0).val
  let v552 : Index := Scalar.indexCast arg0
  let c69 : Index := 69#32
  ![v552.toNat, 69]
def k0_off140 (v553 : BitVec 32) : Fin 2 → Nat :=
  let c0_i32_209 : BitVec 32 := 0#32
  ![v553.toNat, 0]

def k0_off141 (i : grid0.Coords) : Fin 2 → Nat :=
  let arg0 : BitVec 32 := BitVec.ofNat 32 (i 0).val
  let v560 : Index := Scalar.indexCast arg0
  let c70 : Index := 70#32
  ![v560.toNat, 70]
def k0_off142 (v561 : BitVec 32) : Fin 2 → Nat :=
  let c0_i32_212 : BitVec 32 := 0#32
  ![v561.toNat, 0]

def k0_off143 (i : grid0.Coords) : Fin 2 → Nat :=
  let arg0 : BitVec 32 := BitVec.ofNat 32 (i 0).val
  let v568 : Index := Scalar.indexCast arg0
  let c71 : Index := 71#32
  ![v568.toNat, 71]
def k0_off144 (v569 : BitVec 32) : Fin 2 → Nat :=
  let c0_i32_215 : BitVec 32 := 0#32
  ![v569.toNat, 0]

def k0_off145 (i : grid0.Coords) : Fin 2 → Nat :=
  let arg0 : BitVec 32 := BitVec.ofNat 32 (i 0).val
  let v576 : Index := Scalar.indexCast arg0
  let c72 : Index := 72#32
  ![v576.toNat, 72]
def k0_off146 (v577 : BitVec 32) : Fin 2 → Nat :=
  let c0_i32_218 : BitVec 32 := 0#32
  ![v577.toNat, 0]

def k0_off147 (i : grid0.Coords) : Fin 2 → Nat :=
  let arg0 : BitVec 32 := BitVec.ofNat 32 (i 0).val
  let v584 : Index := Scalar.indexCast arg0
  let c73 : Index := 73#32
  ![v584.toNat, 73]
def k0_off148 (v585 : BitVec 32) : Fin 2 → Nat :=
  let c0_i32_221 : BitVec 32 := 0#32
  ![v585.toNat, 0]

def k0_off149 (i : grid0.Coords) : Fin 2 → Nat :=
  let arg0 : BitVec 32 := BitVec.ofNat 32 (i 0).val
  let v592 : Index := Scalar.indexCast arg0
  let c74 : Index := 74#32
  ![v592.toNat, 74]
def k0_off150 (v593 : BitVec 32) : Fin 2 → Nat :=
  let c0_i32_224 : BitVec 32 := 0#32
  ![v593.toNat, 0]

def k0_off151 (i : grid0.Coords) : Fin 2 → Nat :=
  let arg0 : BitVec 32 := BitVec.ofNat 32 (i 0).val
  let v600 : Index := Scalar.indexCast arg0
  let c75 : Index := 75#32
  ![v600.toNat, 75]
def k0_off152 (v601 : BitVec 32) : Fin 2 → Nat :=
  let c0_i32_227 : BitVec 32 := 0#32
  ![v601.toNat, 0]

def k0_off153 (i : grid0.Coords) : Fin 2 → Nat :=
  let arg0 : BitVec 32 := BitVec.ofNat 32 (i 0).val
  let v608 : Index := Scalar.indexCast arg0
  let c76 : Index := 76#32
  ![v608.toNat, 76]
def k0_off154 (v609 : BitVec 32) : Fin 2 → Nat :=
  let c0_i32_230 : BitVec 32 := 0#32
  ![v609.toNat, 0]

def k0_off155 (i : grid0.Coords) : Fin 2 → Nat :=
  let arg0 : BitVec 32 := BitVec.ofNat 32 (i 0).val
  let v616 : Index := Scalar.indexCast arg0
  let c77 : Index := 77#32
  ![v616.toNat, 77]
def k0_off156 (v617 : BitVec 32) : Fin 2 → Nat :=
  let c0_i32_233 : BitVec 32 := 0#32
  ![v617.toNat, 0]

def k0_off157 (i : grid0.Coords) : Fin 2 → Nat :=
  let arg0 : BitVec 32 := BitVec.ofNat 32 (i 0).val
  let v624 : Index := Scalar.indexCast arg0
  let c78 : Index := 78#32
  ![v624.toNat, 78]
def k0_off158 (v625 : BitVec 32) : Fin 2 → Nat :=
  let c0_i32_236 : BitVec 32 := 0#32
  ![v625.toNat, 0]

def k0_off159 (i : grid0.Coords) : Fin 2 → Nat :=
  let arg0 : BitVec 32 := BitVec.ofNat 32 (i 0).val
  let v632 : Index := Scalar.indexCast arg0
  let c79 : Index := 79#32
  ![v632.toNat, 79]
def k0_off160 (v633 : BitVec 32) : Fin 2 → Nat :=
  let c0_i32_239 : BitVec 32 := 0#32
  ![v633.toNat, 0]

def k0_off161 (i : grid0.Coords) : Fin 2 → Nat :=
  let arg0 : BitVec 32 := BitVec.ofNat 32 (i 0).val
  let v640 : Index := Scalar.indexCast arg0
  let c80 : Index := 80#32
  ![v640.toNat, 80]
def k0_off162 (v641 : BitVec 32) : Fin 2 → Nat :=
  let c0_i32_242 : BitVec 32 := 0#32
  ![v641.toNat, 0]

def k0_off163 (i : grid0.Coords) : Fin 2 → Nat :=
  let arg0 : BitVec 32 := BitVec.ofNat 32 (i 0).val
  let v648 : Index := Scalar.indexCast arg0
  let c81 : Index := 81#32
  ![v648.toNat, 81]
def k0_off164 (v649 : BitVec 32) : Fin 2 → Nat :=
  let c0_i32_245 : BitVec 32 := 0#32
  ![v649.toNat, 0]

def k0_off165 (i : grid0.Coords) : Fin 2 → Nat :=
  let arg0 : BitVec 32 := BitVec.ofNat 32 (i 0).val
  let v656 : Index := Scalar.indexCast arg0
  let c82 : Index := 82#32
  ![v656.toNat, 82]
def k0_off166 (v657 : BitVec 32) : Fin 2 → Nat :=
  let c0_i32_248 : BitVec 32 := 0#32
  ![v657.toNat, 0]

def k0_off167 (i : grid0.Coords) : Fin 2 → Nat :=
  let arg0 : BitVec 32 := BitVec.ofNat 32 (i 0).val
  let v664 : Index := Scalar.indexCast arg0
  let c83 : Index := 83#32
  ![v664.toNat, 83]
def k0_off168 (v665 : BitVec 32) : Fin 2 → Nat :=
  let c0_i32_251 : BitVec 32 := 0#32
  ![v665.toNat, 0]

def k0_off169 (i : grid0.Coords) : Fin 2 → Nat :=
  let arg0 : BitVec 32 := BitVec.ofNat 32 (i 0).val
  let v672 : Index := Scalar.indexCast arg0
  let c84 : Index := 84#32
  ![v672.toNat, 84]
def k0_off170 (v673 : BitVec 32) : Fin 2 → Nat :=
  let c0_i32_254 : BitVec 32 := 0#32
  ![v673.toNat, 0]

def k0_off171 (i : grid0.Coords) : Fin 2 → Nat :=
  let arg0 : BitVec 32 := BitVec.ofNat 32 (i 0).val
  let v680 : Index := Scalar.indexCast arg0
  let c85 : Index := 85#32
  ![v680.toNat, 85]
def k0_off172 (v681 : BitVec 32) : Fin 2 → Nat :=
  let c0_i32_257 : BitVec 32 := 0#32
  ![v681.toNat, 0]

def k0_off173 (i : grid0.Coords) : Fin 2 → Nat :=
  let arg0 : BitVec 32 := BitVec.ofNat 32 (i 0).val
  let v688 : Index := Scalar.indexCast arg0
  let c86 : Index := 86#32
  ![v688.toNat, 86]
def k0_off174 (v689 : BitVec 32) : Fin 2 → Nat :=
  let c0_i32_260 : BitVec 32 := 0#32
  ![v689.toNat, 0]

def k0_off175 (i : grid0.Coords) : Fin 2 → Nat :=
  let arg0 : BitVec 32 := BitVec.ofNat 32 (i 0).val
  let v696 : Index := Scalar.indexCast arg0
  let c87 : Index := 87#32
  ![v696.toNat, 87]
def k0_off176 (v697 : BitVec 32) : Fin 2 → Nat :=
  let c0_i32_263 : BitVec 32 := 0#32
  ![v697.toNat, 0]

def k0_off177 (i : grid0.Coords) : Fin 2 → Nat :=
  let arg0 : BitVec 32 := BitVec.ofNat 32 (i 0).val
  let v704 : Index := Scalar.indexCast arg0
  let c88 : Index := 88#32
  ![v704.toNat, 88]
def k0_off178 (v705 : BitVec 32) : Fin 2 → Nat :=
  let c0_i32_266 : BitVec 32 := 0#32
  ![v705.toNat, 0]

def k0_off179 (i : grid0.Coords) : Fin 2 → Nat :=
  let arg0 : BitVec 32 := BitVec.ofNat 32 (i 0).val
  let v712 : Index := Scalar.indexCast arg0
  let c89 : Index := 89#32
  ![v712.toNat, 89]
def k0_off180 (v713 : BitVec 32) : Fin 2 → Nat :=
  let c0_i32_269 : BitVec 32 := 0#32
  ![v713.toNat, 0]

def k0_off181 (i : grid0.Coords) : Fin 2 → Nat :=
  let arg0 : BitVec 32 := BitVec.ofNat 32 (i 0).val
  let v720 : Index := Scalar.indexCast arg0
  let c90 : Index := 90#32
  ![v720.toNat, 90]
def k0_off182 (v721 : BitVec 32) : Fin 2 → Nat :=
  let c0_i32_272 : BitVec 32 := 0#32
  ![v721.toNat, 0]

def k0_off183 (i : grid0.Coords) : Fin 2 → Nat :=
  let arg0 : BitVec 32 := BitVec.ofNat 32 (i 0).val
  let v728 : Index := Scalar.indexCast arg0
  let c91 : Index := 91#32
  ![v728.toNat, 91]
def k0_off184 (v729 : BitVec 32) : Fin 2 → Nat :=
  let c0_i32_275 : BitVec 32 := 0#32
  ![v729.toNat, 0]

def k0_off185 (i : grid0.Coords) : Fin 2 → Nat :=
  let arg0 : BitVec 32 := BitVec.ofNat 32 (i 0).val
  let v736 : Index := Scalar.indexCast arg0
  let c92 : Index := 92#32
  ![v736.toNat, 92]
def k0_off186 (v737 : BitVec 32) : Fin 2 → Nat :=
  let c0_i32_278 : BitVec 32 := 0#32
  ![v737.toNat, 0]

def k0_off187 (i : grid0.Coords) : Fin 2 → Nat :=
  let arg0 : BitVec 32 := BitVec.ofNat 32 (i 0).val
  let v744 : Index := Scalar.indexCast arg0
  let c93 : Index := 93#32
  ![v744.toNat, 93]
def k0_off188 (v745 : BitVec 32) : Fin 2 → Nat :=
  let c0_i32_281 : BitVec 32 := 0#32
  ![v745.toNat, 0]

def k0_off189 (i : grid0.Coords) : Fin 2 → Nat :=
  let arg0 : BitVec 32 := BitVec.ofNat 32 (i 0).val
  let v752 : Index := Scalar.indexCast arg0
  let c94 : Index := 94#32
  ![v752.toNat, 94]
def k0_off190 (v753 : BitVec 32) : Fin 2 → Nat :=
  let c0_i32_284 : BitVec 32 := 0#32
  ![v753.toNat, 0]

def k0_off191 (i : grid0.Coords) : Fin 2 → Nat :=
  let arg0 : BitVec 32 := BitVec.ofNat 32 (i 0).val
  let v760 : Index := Scalar.indexCast arg0
  let c95 : Index := 95#32
  ![v760.toNat, 95]
def k0_off192 (v761 : BitVec 32) : Fin 2 → Nat :=
  let c0_i32_287 : BitVec 32 := 0#32
  ![v761.toNat, 0]

def k0_off193 (i : grid0.Coords) : Fin 2 → Nat :=
  let arg0 : BitVec 32 := BitVec.ofNat 32 (i 0).val
  let v768 : Index := Scalar.indexCast arg0
  let c96 : Index := 96#32
  ![v768.toNat, 96]
def k0_off194 (v769 : BitVec 32) : Fin 2 → Nat :=
  let c0_i32_290 : BitVec 32 := 0#32
  ![v769.toNat, 0]

def k0_off195 (i : grid0.Coords) : Fin 2 → Nat :=
  let arg0 : BitVec 32 := BitVec.ofNat 32 (i 0).val
  let v776 : Index := Scalar.indexCast arg0
  let c97 : Index := 97#32
  ![v776.toNat, 97]
def k0_off196 (v777 : BitVec 32) : Fin 2 → Nat :=
  let c0_i32_293 : BitVec 32 := 0#32
  ![v777.toNat, 0]

def k0_off197 (i : grid0.Coords) : Fin 2 → Nat :=
  let arg0 : BitVec 32 := BitVec.ofNat 32 (i 0).val
  let v784 : Index := Scalar.indexCast arg0
  let c98 : Index := 98#32
  ![v784.toNat, 98]
def k0_off198 (v785 : BitVec 32) : Fin 2 → Nat :=
  let c0_i32_296 : BitVec 32 := 0#32
  ![v785.toNat, 0]

def k0_off199 (i : grid0.Coords) : Fin 2 → Nat :=
  let arg0 : BitVec 32 := BitVec.ofNat 32 (i 0).val
  let v792 : Index := Scalar.indexCast arg0
  let c99 : Index := 99#32
  ![v792.toNat, 99]
def k0_off200 (v793 : BitVec 32) : Fin 2 → Nat :=
  let c0_i32_299 : BitVec 32 := 0#32
  ![v793.toNat, 0]

def k0_chk100 (v793 : BitVec 32) : Prop :=
  (∀ a, (k0_off200 v793) a + S1x10000.size a ≤ S10000x10000.size a)
instance k0_chk100.dec : ∀ (v793 : BitVec 32), Decidable (k0_chk100 v793) := fun v793 => decidable_of_iff' _ (Iff.of_eq (k0_chk100.eq_1 v793))
theorem k0_off200_inb : ∀ (v793 : BitVec 32) (k0_hw100 : k0_chk100 v793), ∀ a, (k0_off200 v793) a + S1x10000.size a ≤ S10000x10000.size a := fun v793 k0_hw100 => k0_hw100

def k0_off201 (v1 : BitVec 32) : Fin 2 → Nat :=
  let c0_i32_303 : BitVec 32 := 0#32
  ![v1.toNat, 0]

def k0_chk1 (v1 : BitVec 32) : Prop :=
  (∀ a, (k0_off2 v1) a + S1x10000.size a ≤ S10000x10000.size a) ∧
  (∀ a, (k0_off201 v1) a + S1x10000.size a ≤ S10000x10000.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x10000.size a ≤ S10000x10000.size a := fun v1 k0_hw1 => k0_hw1.1
theorem k0_off201_inb : ∀ (v1 : BitVec 32) (k0_hw1 : k0_chk1 v1), ∀ a, (k0_off201 v1) a + S1x10000.size a ≤ S10000x10000.size a := fun v1 k0_hw1 => k0_hw1.2

def k0_off202 (v9 : BitVec 32) : Fin 2 → Nat :=
  let c0_i32_307 : BitVec 32 := 0#32
  ![v9.toNat, 0]

def k0_chk2 (v9 : BitVec 32) : Prop :=
  (∀ a, (k0_off4 v9) a + S1x10000.size a ≤ S10000x10000.size a) ∧
  (∀ a, (k0_off202 v9) a + S1x10000.size a ≤ S10000x10000.size a)
instance k0_chk2.dec : ∀ (v9 : BitVec 32), Decidable (k0_chk2 v9) := fun v9 => decidable_of_iff' _ (Iff.of_eq (k0_chk2.eq_1 v9))
theorem k0_off4_inb : ∀ (v9 : BitVec 32) (k0_hw2 : k0_chk2 v9), ∀ a, (k0_off4 v9) a + S1x10000.size a ≤ S10000x10000.size a := fun v9 k0_hw2 => k0_hw2.1
theorem k0_off202_inb : ∀ (v9 : BitVec 32) (k0_hw2 : k0_chk2 v9), ∀ a, (k0_off202 v9) a + S1x10000.size a ≤ S10000x10000.size a := fun v9 k0_hw2 => k0_hw2.2

def k0_off203 (v17 : BitVec 32) : Fin 2 → Nat :=
  let c0_i32_311 : BitVec 32 := 0#32
  ![v17.toNat, 0]

def k0_chk3 (v17 : BitVec 32) : Prop :=
  (∀ a, (k0_off6 v17) a + S1x10000.size a ≤ S10000x10000.size a) ∧
  (∀ a, (k0_off203 v17) a + S1x10000.size a ≤ S10000x10000.size a)
instance k0_chk3.dec : ∀ (v17 : BitVec 32), Decidable (k0_chk3 v17) := fun v17 => decidable_of_iff' _ (Iff.of_eq (k0_chk3.eq_1 v17))
theorem k0_off6_inb : ∀ (v17 : BitVec 32) (k0_hw3 : k0_chk3 v17), ∀ a, (k0_off6 v17) a + S1x10000.size a ≤ S10000x10000.size a := fun v17 k0_hw3 => k0_hw3.1
theorem k0_off203_inb : ∀ (v17 : BitVec 32) (k0_hw3 : k0_chk3 v17), ∀ a, (k0_off203 v17) a + S1x10000.size a ≤ S10000x10000.size a := fun v17 k0_hw3 => k0_hw3.2

def k0_off204 (v25 : BitVec 32) : Fin 2 → Nat :=
  let c0_i32_315 : BitVec 32 := 0#32
  ![v25.toNat, 0]

def k0_chk4 (v25 : BitVec 32) : Prop :=
  (∀ a, (k0_off8 v25) a + S1x10000.size a ≤ S10000x10000.size a) ∧
  (∀ a, (k0_off204 v25) a + S1x10000.size a ≤ S10000x10000.size a)
instance k0_chk4.dec : ∀ (v25 : BitVec 32), Decidable (k0_chk4 v25) := fun v25 => decidable_of_iff' _ (Iff.of_eq (k0_chk4.eq_1 v25))
theorem k0_off8_inb : ∀ (v25 : BitVec 32) (k0_hw4 : k0_chk4 v25), ∀ a, (k0_off8 v25) a + S1x10000.size a ≤ S10000x10000.size a := fun v25 k0_hw4 => k0_hw4.1
theorem k0_off204_inb : ∀ (v25 : BitVec 32) (k0_hw4 : k0_chk4 v25), ∀ a, (k0_off204 v25) a + S1x10000.size a ≤ S10000x10000.size a := fun v25 k0_hw4 => k0_hw4.2

def k0_off205 (v33 : BitVec 32) : Fin 2 → Nat :=
  let c0_i32_319 : BitVec 32 := 0#32
  ![v33.toNat, 0]

def k0_chk5 (v33 : BitVec 32) : Prop :=
  (∀ a, (k0_off10 v33) a + S1x10000.size a ≤ S10000x10000.size a) ∧
  (∀ a, (k0_off205 v33) a + S1x10000.size a ≤ S10000x10000.size a)
instance k0_chk5.dec : ∀ (v33 : BitVec 32), Decidable (k0_chk5 v33) := fun v33 => decidable_of_iff' _ (Iff.of_eq (k0_chk5.eq_1 v33))
theorem k0_off10_inb : ∀ (v33 : BitVec 32) (k0_hw5 : k0_chk5 v33), ∀ a, (k0_off10 v33) a + S1x10000.size a ≤ S10000x10000.size a := fun v33 k0_hw5 => k0_hw5.1
theorem k0_off205_inb : ∀ (v33 : BitVec 32) (k0_hw5 : k0_chk5 v33), ∀ a, (k0_off205 v33) a + S1x10000.size a ≤ S10000x10000.size a := fun v33 k0_hw5 => k0_hw5.2

def k0_off206 (v41 : BitVec 32) : Fin 2 → Nat :=
  let c0_i32_323 : BitVec 32 := 0#32
  ![v41.toNat, 0]

def k0_chk6 (v41 : BitVec 32) : Prop :=
  (∀ a, (k0_off12 v41) a + S1x10000.size a ≤ S10000x10000.size a) ∧
  (∀ a, (k0_off206 v41) a + S1x10000.size a ≤ S10000x10000.size a)
instance k0_chk6.dec : ∀ (v41 : BitVec 32), Decidable (k0_chk6 v41) := fun v41 => decidable_of_iff' _ (Iff.of_eq (k0_chk6.eq_1 v41))
theorem k0_off12_inb : ∀ (v41 : BitVec 32) (k0_hw6 : k0_chk6 v41), ∀ a, (k0_off12 v41) a + S1x10000.size a ≤ S10000x10000.size a := fun v41 k0_hw6 => k0_hw6.1
theorem k0_off206_inb : ∀ (v41 : BitVec 32) (k0_hw6 : k0_chk6 v41), ∀ a, (k0_off206 v41) a + S1x10000.size a ≤ S10000x10000.size a := fun v41 k0_hw6 => k0_hw6.2

def k0_off207 (v49 : BitVec 32) : Fin 2 → Nat :=
  let c0_i32_327 : BitVec 32 := 0#32
  ![v49.toNat, 0]

def k0_chk7 (v49 : BitVec 32) : Prop :=
  (∀ a, (k0_off14 v49) a + S1x10000.size a ≤ S10000x10000.size a) ∧
  (∀ a, (k0_off207 v49) a + S1x10000.size a ≤ S10000x10000.size a)
instance k0_chk7.dec : ∀ (v49 : BitVec 32), Decidable (k0_chk7 v49) := fun v49 => decidable_of_iff' _ (Iff.of_eq (k0_chk7.eq_1 v49))
theorem k0_off14_inb : ∀ (v49 : BitVec 32) (k0_hw7 : k0_chk7 v49), ∀ a, (k0_off14 v49) a + S1x10000.size a ≤ S10000x10000.size a := fun v49 k0_hw7 => k0_hw7.1
theorem k0_off207_inb : ∀ (v49 : BitVec 32) (k0_hw7 : k0_chk7 v49), ∀ a, (k0_off207 v49) a + S1x10000.size a ≤ S10000x10000.size a := fun v49 k0_hw7 => k0_hw7.2

def k0_off208 (v57 : BitVec 32) : Fin 2 → Nat :=
  let c0_i32_331 : BitVec 32 := 0#32
  ![v57.toNat, 0]

def k0_chk8 (v57 : BitVec 32) : Prop :=
  (∀ a, (k0_off16 v57) a + S1x10000.size a ≤ S10000x10000.size a) ∧
  (∀ a, (k0_off208 v57) a + S1x10000.size a ≤ S10000x10000.size a)
instance k0_chk8.dec : ∀ (v57 : BitVec 32), Decidable (k0_chk8 v57) := fun v57 => decidable_of_iff' _ (Iff.of_eq (k0_chk8.eq_1 v57))
theorem k0_off16_inb : ∀ (v57 : BitVec 32) (k0_hw8 : k0_chk8 v57), ∀ a, (k0_off16 v57) a + S1x10000.size a ≤ S10000x10000.size a := fun v57 k0_hw8 => k0_hw8.1
theorem k0_off208_inb : ∀ (v57 : BitVec 32) (k0_hw8 : k0_chk8 v57), ∀ a, (k0_off208 v57) a + S1x10000.size a ≤ S10000x10000.size a := fun v57 k0_hw8 => k0_hw8.2

def k0_off209 (v65 : BitVec 32) : Fin 2 → Nat :=
  let c0_i32_335 : BitVec 32 := 0#32
  ![v65.toNat, 0]

def k0_chk9 (v65 : BitVec 32) : Prop :=
  (∀ a, (k0_off18 v65) a + S1x10000.size a ≤ S10000x10000.size a) ∧
  (∀ a, (k0_off209 v65) a + S1x10000.size a ≤ S10000x10000.size a)
instance k0_chk9.dec : ∀ (v65 : BitVec 32), Decidable (k0_chk9 v65) := fun v65 => decidable_of_iff' _ (Iff.of_eq (k0_chk9.eq_1 v65))
theorem k0_off18_inb : ∀ (v65 : BitVec 32) (k0_hw9 : k0_chk9 v65), ∀ a, (k0_off18 v65) a + S1x10000.size a ≤ S10000x10000.size a := fun v65 k0_hw9 => k0_hw9.1
theorem k0_off209_inb : ∀ (v65 : BitVec 32) (k0_hw9 : k0_chk9 v65), ∀ a, (k0_off209 v65) a + S1x10000.size a ≤ S10000x10000.size a := fun v65 k0_hw9 => k0_hw9.2

def k0_off210 (v73 : BitVec 32) : Fin 2 → Nat :=
  let c0_i32_339 : BitVec 32 := 0#32
  ![v73.toNat, 0]

def k0_chk10 (v73 : BitVec 32) : Prop :=
  (∀ a, (k0_off20 v73) a + S1x10000.size a ≤ S10000x10000.size a) ∧
  (∀ a, (k0_off210 v73) a + S1x10000.size a ≤ S10000x10000.size a)
instance k0_chk10.dec : ∀ (v73 : BitVec 32), Decidable (k0_chk10 v73) := fun v73 => decidable_of_iff' _ (Iff.of_eq (k0_chk10.eq_1 v73))
theorem k0_off20_inb : ∀ (v73 : BitVec 32) (k0_hw10 : k0_chk10 v73), ∀ a, (k0_off20 v73) a + S1x10000.size a ≤ S10000x10000.size a := fun v73 k0_hw10 => k0_hw10.1
theorem k0_off210_inb : ∀ (v73 : BitVec 32) (k0_hw10 : k0_chk10 v73), ∀ a, (k0_off210 v73) a + S1x10000.size a ≤ S10000x10000.size a := fun v73 k0_hw10 => k0_hw10.2

def k0_off211 (v81 : BitVec 32) : Fin 2 → Nat :=
  let c0_i32_343 : BitVec 32 := 0#32
  ![v81.toNat, 0]

def k0_chk11 (v81 : BitVec 32) : Prop :=
  (∀ a, (k0_off22 v81) a + S1x10000.size a ≤ S10000x10000.size a) ∧
  (∀ a, (k0_off211 v81) a + S1x10000.size a ≤ S10000x10000.size a)
instance k0_chk11.dec : ∀ (v81 : BitVec 32), Decidable (k0_chk11 v81) := fun v81 => decidable_of_iff' _ (Iff.of_eq (k0_chk11.eq_1 v81))
theorem k0_off22_inb : ∀ (v81 : BitVec 32) (k0_hw11 : k0_chk11 v81), ∀ a, (k0_off22 v81) a + S1x10000.size a ≤ S10000x10000.size a := fun v81 k0_hw11 => k0_hw11.1
theorem k0_off211_inb : ∀ (v81 : BitVec 32) (k0_hw11 : k0_chk11 v81), ∀ a, (k0_off211 v81) a + S1x10000.size a ≤ S10000x10000.size a := fun v81 k0_hw11 => k0_hw11.2

def k0_off212 (v89 : BitVec 32) : Fin 2 → Nat :=
  let c0_i32_347 : BitVec 32 := 0#32
  ![v89.toNat, 0]

def k0_chk12 (v89 : BitVec 32) : Prop :=
  (∀ a, (k0_off24 v89) a + S1x10000.size a ≤ S10000x10000.size a) ∧
  (∀ a, (k0_off212 v89) a + S1x10000.size a ≤ S10000x10000.size a)
instance k0_chk12.dec : ∀ (v89 : BitVec 32), Decidable (k0_chk12 v89) := fun v89 => decidable_of_iff' _ (Iff.of_eq (k0_chk12.eq_1 v89))
theorem k0_off24_inb : ∀ (v89 : BitVec 32) (k0_hw12 : k0_chk12 v89), ∀ a, (k0_off24 v89) a + S1x10000.size a ≤ S10000x10000.size a := fun v89 k0_hw12 => k0_hw12.1
theorem k0_off212_inb : ∀ (v89 : BitVec 32) (k0_hw12 : k0_chk12 v89), ∀ a, (k0_off212 v89) a + S1x10000.size a ≤ S10000x10000.size a := fun v89 k0_hw12 => k0_hw12.2

def k0_off213 (v97 : BitVec 32) : Fin 2 → Nat :=
  let c0_i32_351 : BitVec 32 := 0#32
  ![v97.toNat, 0]

def k0_chk13 (v97 : BitVec 32) : Prop :=
  (∀ a, (k0_off26 v97) a + S1x10000.size a ≤ S10000x10000.size a) ∧
  (∀ a, (k0_off213 v97) a + S1x10000.size a ≤ S10000x10000.size a)
instance k0_chk13.dec : ∀ (v97 : BitVec 32), Decidable (k0_chk13 v97) := fun v97 => decidable_of_iff' _ (Iff.of_eq (k0_chk13.eq_1 v97))
theorem k0_off26_inb : ∀ (v97 : BitVec 32) (k0_hw13 : k0_chk13 v97), ∀ a, (k0_off26 v97) a + S1x10000.size a ≤ S10000x10000.size a := fun v97 k0_hw13 => k0_hw13.1
theorem k0_off213_inb : ∀ (v97 : BitVec 32) (k0_hw13 : k0_chk13 v97), ∀ a, (k0_off213 v97) a + S1x10000.size a ≤ S10000x10000.size a := fun v97 k0_hw13 => k0_hw13.2

def k0_off214 (v105 : BitVec 32) : Fin 2 → Nat :=
  let c0_i32_355 : BitVec 32 := 0#32
  ![v105.toNat, 0]

def k0_chk14 (v105 : BitVec 32) : Prop :=
  (∀ a, (k0_off28 v105) a + S1x10000.size a ≤ S10000x10000.size a) ∧
  (∀ a, (k0_off214 v105) a + S1x10000.size a ≤ S10000x10000.size a)
instance k0_chk14.dec : ∀ (v105 : BitVec 32), Decidable (k0_chk14 v105) := fun v105 => decidable_of_iff' _ (Iff.of_eq (k0_chk14.eq_1 v105))
theorem k0_off28_inb : ∀ (v105 : BitVec 32) (k0_hw14 : k0_chk14 v105), ∀ a, (k0_off28 v105) a + S1x10000.size a ≤ S10000x10000.size a := fun v105 k0_hw14 => k0_hw14.1
theorem k0_off214_inb : ∀ (v105 : BitVec 32) (k0_hw14 : k0_chk14 v105), ∀ a, (k0_off214 v105) a + S1x10000.size a ≤ S10000x10000.size a := fun v105 k0_hw14 => k0_hw14.2

def k0_off215 (v113 : BitVec 32) : Fin 2 → Nat :=
  let c0_i32_359 : BitVec 32 := 0#32
  ![v113.toNat, 0]

def k0_chk15 (v113 : BitVec 32) : Prop :=
  (∀ a, (k0_off30 v113) a + S1x10000.size a ≤ S10000x10000.size a) ∧
  (∀ a, (k0_off215 v113) a + S1x10000.size a ≤ S10000x10000.size a)
instance k0_chk15.dec : ∀ (v113 : BitVec 32), Decidable (k0_chk15 v113) := fun v113 => decidable_of_iff' _ (Iff.of_eq (k0_chk15.eq_1 v113))
theorem k0_off30_inb : ∀ (v113 : BitVec 32) (k0_hw15 : k0_chk15 v113), ∀ a, (k0_off30 v113) a + S1x10000.size a ≤ S10000x10000.size a := fun v113 k0_hw15 => k0_hw15.1
theorem k0_off215_inb : ∀ (v113 : BitVec 32) (k0_hw15 : k0_chk15 v113), ∀ a, (k0_off215 v113) a + S1x10000.size a ≤ S10000x10000.size a := fun v113 k0_hw15 => k0_hw15.2

def k0_off216 (v121 : BitVec 32) : Fin 2 → Nat :=
  let c0_i32_363 : BitVec 32 := 0#32
  ![v121.toNat, 0]

def k0_chk16 (v121 : BitVec 32) : Prop :=
  (∀ a, (k0_off32 v121) a + S1x10000.size a ≤ S10000x10000.size a) ∧
  (∀ a, (k0_off216 v121) a + S1x10000.size a ≤ S10000x10000.size a)
instance k0_chk16.dec : ∀ (v121 : BitVec 32), Decidable (k0_chk16 v121) := fun v121 => decidable_of_iff' _ (Iff.of_eq (k0_chk16.eq_1 v121))
theorem k0_off32_inb : ∀ (v121 : BitVec 32) (k0_hw16 : k0_chk16 v121), ∀ a, (k0_off32 v121) a + S1x10000.size a ≤ S10000x10000.size a := fun v121 k0_hw16 => k0_hw16.1
theorem k0_off216_inb : ∀ (v121 : BitVec 32) (k0_hw16 : k0_chk16 v121), ∀ a, (k0_off216 v121) a + S1x10000.size a ≤ S10000x10000.size a := fun v121 k0_hw16 => k0_hw16.2

def k0_off217 (v129 : BitVec 32) : Fin 2 → Nat :=
  let c0_i32_367 : BitVec 32 := 0#32
  ![v129.toNat, 0]

def k0_chk17 (v129 : BitVec 32) : Prop :=
  (∀ a, (k0_off34 v129) a + S1x10000.size a ≤ S10000x10000.size a) ∧
  (∀ a, (k0_off217 v129) a + S1x10000.size a ≤ S10000x10000.size a)
instance k0_chk17.dec : ∀ (v129 : BitVec 32), Decidable (k0_chk17 v129) := fun v129 => decidable_of_iff' _ (Iff.of_eq (k0_chk17.eq_1 v129))
theorem k0_off34_inb : ∀ (v129 : BitVec 32) (k0_hw17 : k0_chk17 v129), ∀ a, (k0_off34 v129) a + S1x10000.size a ≤ S10000x10000.size a := fun v129 k0_hw17 => k0_hw17.1
theorem k0_off217_inb : ∀ (v129 : BitVec 32) (k0_hw17 : k0_chk17 v129), ∀ a, (k0_off217 v129) a + S1x10000.size a ≤ S10000x10000.size a := fun v129 k0_hw17 => k0_hw17.2

def k0_off218 (v137 : BitVec 32) : Fin 2 → Nat :=
  let c0_i32_371 : BitVec 32 := 0#32
  ![v137.toNat, 0]

def k0_chk18 (v137 : BitVec 32) : Prop :=
  (∀ a, (k0_off36 v137) a + S1x10000.size a ≤ S10000x10000.size a) ∧
  (∀ a, (k0_off218 v137) a + S1x10000.size a ≤ S10000x10000.size a)
instance k0_chk18.dec : ∀ (v137 : BitVec 32), Decidable (k0_chk18 v137) := fun v137 => decidable_of_iff' _ (Iff.of_eq (k0_chk18.eq_1 v137))
theorem k0_off36_inb : ∀ (v137 : BitVec 32) (k0_hw18 : k0_chk18 v137), ∀ a, (k0_off36 v137) a + S1x10000.size a ≤ S10000x10000.size a := fun v137 k0_hw18 => k0_hw18.1
theorem k0_off218_inb : ∀ (v137 : BitVec 32) (k0_hw18 : k0_chk18 v137), ∀ a, (k0_off218 v137) a + S1x10000.size a ≤ S10000x10000.size a := fun v137 k0_hw18 => k0_hw18.2

def k0_off219 (v145 : BitVec 32) : Fin 2 → Nat :=
  let c0_i32_375 : BitVec 32 := 0#32
  ![v145.toNat, 0]

def k0_chk19 (v145 : BitVec 32) : Prop :=
  (∀ a, (k0_off38 v145) a + S1x10000.size a ≤ S10000x10000.size a) ∧
  (∀ a, (k0_off219 v145) a + S1x10000.size a ≤ S10000x10000.size a)
instance k0_chk19.dec : ∀ (v145 : BitVec 32), Decidable (k0_chk19 v145) := fun v145 => decidable_of_iff' _ (Iff.of_eq (k0_chk19.eq_1 v145))
theorem k0_off38_inb : ∀ (v145 : BitVec 32) (k0_hw19 : k0_chk19 v145), ∀ a, (k0_off38 v145) a + S1x10000.size a ≤ S10000x10000.size a := fun v145 k0_hw19 => k0_hw19.1
theorem k0_off219_inb : ∀ (v145 : BitVec 32) (k0_hw19 : k0_chk19 v145), ∀ a, (k0_off219 v145) a + S1x10000.size a ≤ S10000x10000.size a := fun v145 k0_hw19 => k0_hw19.2

def k0_off220 (v153 : BitVec 32) : Fin 2 → Nat :=
  let c0_i32_379 : BitVec 32 := 0#32
  ![v153.toNat, 0]

def k0_chk20 (v153 : BitVec 32) : Prop :=
  (∀ a, (k0_off40 v153) a + S1x10000.size a ≤ S10000x10000.size a) ∧
  (∀ a, (k0_off220 v153) a + S1x10000.size a ≤ S10000x10000.size a)
instance k0_chk20.dec : ∀ (v153 : BitVec 32), Decidable (k0_chk20 v153) := fun v153 => decidable_of_iff' _ (Iff.of_eq (k0_chk20.eq_1 v153))
theorem k0_off40_inb : ∀ (v153 : BitVec 32) (k0_hw20 : k0_chk20 v153), ∀ a, (k0_off40 v153) a + S1x10000.size a ≤ S10000x10000.size a := fun v153 k0_hw20 => k0_hw20.1
theorem k0_off220_inb : ∀ (v153 : BitVec 32) (k0_hw20 : k0_chk20 v153), ∀ a, (k0_off220 v153) a + S1x10000.size a ≤ S10000x10000.size a := fun v153 k0_hw20 => k0_hw20.2

def k0_off221 (v161 : BitVec 32) : Fin 2 → Nat :=
  let c0_i32_383 : BitVec 32 := 0#32
  ![v161.toNat, 0]

def k0_chk21 (v161 : BitVec 32) : Prop :=
  (∀ a, (k0_off42 v161) a + S1x10000.size a ≤ S10000x10000.size a) ∧
  (∀ a, (k0_off221 v161) a + S1x10000.size a ≤ S10000x10000.size a)
instance k0_chk21.dec : ∀ (v161 : BitVec 32), Decidable (k0_chk21 v161) := fun v161 => decidable_of_iff' _ (Iff.of_eq (k0_chk21.eq_1 v161))
theorem k0_off42_inb : ∀ (v161 : BitVec 32) (k0_hw21 : k0_chk21 v161), ∀ a, (k0_off42 v161) a + S1x10000.size a ≤ S10000x10000.size a := fun v161 k0_hw21 => k0_hw21.1
theorem k0_off221_inb : ∀ (v161 : BitVec 32) (k0_hw21 : k0_chk21 v161), ∀ a, (k0_off221 v161) a + S1x10000.size a ≤ S10000x10000.size a := fun v161 k0_hw21 => k0_hw21.2

def k0_off222 (v169 : BitVec 32) : Fin 2 → Nat :=
  let c0_i32_387 : BitVec 32 := 0#32
  ![v169.toNat, 0]

def k0_chk22 (v169 : BitVec 32) : Prop :=
  (∀ a, (k0_off44 v169) a + S1x10000.size a ≤ S10000x10000.size a) ∧
  (∀ a, (k0_off222 v169) a + S1x10000.size a ≤ S10000x10000.size a)
instance k0_chk22.dec : ∀ (v169 : BitVec 32), Decidable (k0_chk22 v169) := fun v169 => decidable_of_iff' _ (Iff.of_eq (k0_chk22.eq_1 v169))
theorem k0_off44_inb : ∀ (v169 : BitVec 32) (k0_hw22 : k0_chk22 v169), ∀ a, (k0_off44 v169) a + S1x10000.size a ≤ S10000x10000.size a := fun v169 k0_hw22 => k0_hw22.1
theorem k0_off222_inb : ∀ (v169 : BitVec 32) (k0_hw22 : k0_chk22 v169), ∀ a, (k0_off222 v169) a + S1x10000.size a ≤ S10000x10000.size a := fun v169 k0_hw22 => k0_hw22.2

def k0_off223 (v177 : BitVec 32) : Fin 2 → Nat :=
  let c0_i32_391 : BitVec 32 := 0#32
  ![v177.toNat, 0]

def k0_chk23 (v177 : BitVec 32) : Prop :=
  (∀ a, (k0_off46 v177) a + S1x10000.size a ≤ S10000x10000.size a) ∧
  (∀ a, (k0_off223 v177) a + S1x10000.size a ≤ S10000x10000.size a)
instance k0_chk23.dec : ∀ (v177 : BitVec 32), Decidable (k0_chk23 v177) := fun v177 => decidable_of_iff' _ (Iff.of_eq (k0_chk23.eq_1 v177))
theorem k0_off46_inb : ∀ (v177 : BitVec 32) (k0_hw23 : k0_chk23 v177), ∀ a, (k0_off46 v177) a + S1x10000.size a ≤ S10000x10000.size a := fun v177 k0_hw23 => k0_hw23.1
theorem k0_off223_inb : ∀ (v177 : BitVec 32) (k0_hw23 : k0_chk23 v177), ∀ a, (k0_off223 v177) a + S1x10000.size a ≤ S10000x10000.size a := fun v177 k0_hw23 => k0_hw23.2

def k0_off224 (v185 : BitVec 32) : Fin 2 → Nat :=
  let c0_i32_395 : BitVec 32 := 0#32
  ![v185.toNat, 0]

def k0_chk24 (v185 : BitVec 32) : Prop :=
  (∀ a, (k0_off48 v185) a + S1x10000.size a ≤ S10000x10000.size a) ∧
  (∀ a, (k0_off224 v185) a + S1x10000.size a ≤ S10000x10000.size a)
instance k0_chk24.dec : ∀ (v185 : BitVec 32), Decidable (k0_chk24 v185) := fun v185 => decidable_of_iff' _ (Iff.of_eq (k0_chk24.eq_1 v185))
theorem k0_off48_inb : ∀ (v185 : BitVec 32) (k0_hw24 : k0_chk24 v185), ∀ a, (k0_off48 v185) a + S1x10000.size a ≤ S10000x10000.size a := fun v185 k0_hw24 => k0_hw24.1
theorem k0_off224_inb : ∀ (v185 : BitVec 32) (k0_hw24 : k0_chk24 v185), ∀ a, (k0_off224 v185) a + S1x10000.size a ≤ S10000x10000.size a := fun v185 k0_hw24 => k0_hw24.2

def k0_off225 (v193 : BitVec 32) : Fin 2 → Nat :=
  let c0_i32_399 : BitVec 32 := 0#32
  ![v193.toNat, 0]

def k0_chk25 (v193 : BitVec 32) : Prop :=
  (∀ a, (k0_off50 v193) a + S1x10000.size a ≤ S10000x10000.size a) ∧
  (∀ a, (k0_off225 v193) a + S1x10000.size a ≤ S10000x10000.size a)
instance k0_chk25.dec : ∀ (v193 : BitVec 32), Decidable (k0_chk25 v193) := fun v193 => decidable_of_iff' _ (Iff.of_eq (k0_chk25.eq_1 v193))
theorem k0_off50_inb : ∀ (v193 : BitVec 32) (k0_hw25 : k0_chk25 v193), ∀ a, (k0_off50 v193) a + S1x10000.size a ≤ S10000x10000.size a := fun v193 k0_hw25 => k0_hw25.1
theorem k0_off225_inb : ∀ (v193 : BitVec 32) (k0_hw25 : k0_chk25 v193), ∀ a, (k0_off225 v193) a + S1x10000.size a ≤ S10000x10000.size a := fun v193 k0_hw25 => k0_hw25.2

def k0_off226 (v201 : BitVec 32) : Fin 2 → Nat :=
  let c0_i32_403 : BitVec 32 := 0#32
  ![v201.toNat, 0]

def k0_chk26 (v201 : BitVec 32) : Prop :=
  (∀ a, (k0_off52 v201) a + S1x10000.size a ≤ S10000x10000.size a) ∧
  (∀ a, (k0_off226 v201) a + S1x10000.size a ≤ S10000x10000.size a)
instance k0_chk26.dec : ∀ (v201 : BitVec 32), Decidable (k0_chk26 v201) := fun v201 => decidable_of_iff' _ (Iff.of_eq (k0_chk26.eq_1 v201))
theorem k0_off52_inb : ∀ (v201 : BitVec 32) (k0_hw26 : k0_chk26 v201), ∀ a, (k0_off52 v201) a + S1x10000.size a ≤ S10000x10000.size a := fun v201 k0_hw26 => k0_hw26.1
theorem k0_off226_inb : ∀ (v201 : BitVec 32) (k0_hw26 : k0_chk26 v201), ∀ a, (k0_off226 v201) a + S1x10000.size a ≤ S10000x10000.size a := fun v201 k0_hw26 => k0_hw26.2

def k0_off227 (v209 : BitVec 32) : Fin 2 → Nat :=
  let c0_i32_407 : BitVec 32 := 0#32
  ![v209.toNat, 0]

def k0_chk27 (v209 : BitVec 32) : Prop :=
  (∀ a, (k0_off54 v209) a + S1x10000.size a ≤ S10000x10000.size a) ∧
  (∀ a, (k0_off227 v209) a + S1x10000.size a ≤ S10000x10000.size a)
instance k0_chk27.dec : ∀ (v209 : BitVec 32), Decidable (k0_chk27 v209) := fun v209 => decidable_of_iff' _ (Iff.of_eq (k0_chk27.eq_1 v209))
theorem k0_off54_inb : ∀ (v209 : BitVec 32) (k0_hw27 : k0_chk27 v209), ∀ a, (k0_off54 v209) a + S1x10000.size a ≤ S10000x10000.size a := fun v209 k0_hw27 => k0_hw27.1
theorem k0_off227_inb : ∀ (v209 : BitVec 32) (k0_hw27 : k0_chk27 v209), ∀ a, (k0_off227 v209) a + S1x10000.size a ≤ S10000x10000.size a := fun v209 k0_hw27 => k0_hw27.2

def k0_off228 (v217 : BitVec 32) : Fin 2 → Nat :=
  let c0_i32_411 : BitVec 32 := 0#32
  ![v217.toNat, 0]

def k0_chk28 (v217 : BitVec 32) : Prop :=
  (∀ a, (k0_off56 v217) a + S1x10000.size a ≤ S10000x10000.size a) ∧
  (∀ a, (k0_off228 v217) a + S1x10000.size a ≤ S10000x10000.size a)
instance k0_chk28.dec : ∀ (v217 : BitVec 32), Decidable (k0_chk28 v217) := fun v217 => decidable_of_iff' _ (Iff.of_eq (k0_chk28.eq_1 v217))
theorem k0_off56_inb : ∀ (v217 : BitVec 32) (k0_hw28 : k0_chk28 v217), ∀ a, (k0_off56 v217) a + S1x10000.size a ≤ S10000x10000.size a := fun v217 k0_hw28 => k0_hw28.1
theorem k0_off228_inb : ∀ (v217 : BitVec 32) (k0_hw28 : k0_chk28 v217), ∀ a, (k0_off228 v217) a + S1x10000.size a ≤ S10000x10000.size a := fun v217 k0_hw28 => k0_hw28.2

def k0_off229 (v225 : BitVec 32) : Fin 2 → Nat :=
  let c0_i32_415 : BitVec 32 := 0#32
  ![v225.toNat, 0]

def k0_chk29 (v225 : BitVec 32) : Prop :=
  (∀ a, (k0_off58 v225) a + S1x10000.size a ≤ S10000x10000.size a) ∧
  (∀ a, (k0_off229 v225) a + S1x10000.size a ≤ S10000x10000.size a)
instance k0_chk29.dec : ∀ (v225 : BitVec 32), Decidable (k0_chk29 v225) := fun v225 => decidable_of_iff' _ (Iff.of_eq (k0_chk29.eq_1 v225))
theorem k0_off58_inb : ∀ (v225 : BitVec 32) (k0_hw29 : k0_chk29 v225), ∀ a, (k0_off58 v225) a + S1x10000.size a ≤ S10000x10000.size a := fun v225 k0_hw29 => k0_hw29.1
theorem k0_off229_inb : ∀ (v225 : BitVec 32) (k0_hw29 : k0_chk29 v225), ∀ a, (k0_off229 v225) a + S1x10000.size a ≤ S10000x10000.size a := fun v225 k0_hw29 => k0_hw29.2

def k0_off230 (v233 : BitVec 32) : Fin 2 → Nat :=
  let c0_i32_419 : BitVec 32 := 0#32
  ![v233.toNat, 0]

def k0_chk30 (v233 : BitVec 32) : Prop :=
  (∀ a, (k0_off60 v233) a + S1x10000.size a ≤ S10000x10000.size a) ∧
  (∀ a, (k0_off230 v233) a + S1x10000.size a ≤ S10000x10000.size a)
instance k0_chk30.dec : ∀ (v233 : BitVec 32), Decidable (k0_chk30 v233) := fun v233 => decidable_of_iff' _ (Iff.of_eq (k0_chk30.eq_1 v233))
theorem k0_off60_inb : ∀ (v233 : BitVec 32) (k0_hw30 : k0_chk30 v233), ∀ a, (k0_off60 v233) a + S1x10000.size a ≤ S10000x10000.size a := fun v233 k0_hw30 => k0_hw30.1
theorem k0_off230_inb : ∀ (v233 : BitVec 32) (k0_hw30 : k0_chk30 v233), ∀ a, (k0_off230 v233) a + S1x10000.size a ≤ S10000x10000.size a := fun v233 k0_hw30 => k0_hw30.2

def k0_off231 (v241 : BitVec 32) : Fin 2 → Nat :=
  let c0_i32_423 : BitVec 32 := 0#32
  ![v241.toNat, 0]

def k0_chk31 (v241 : BitVec 32) : Prop :=
  (∀ a, (k0_off62 v241) a + S1x10000.size a ≤ S10000x10000.size a) ∧
  (∀ a, (k0_off231 v241) a + S1x10000.size a ≤ S10000x10000.size a)
instance k0_chk31.dec : ∀ (v241 : BitVec 32), Decidable (k0_chk31 v241) := fun v241 => decidable_of_iff' _ (Iff.of_eq (k0_chk31.eq_1 v241))
theorem k0_off62_inb : ∀ (v241 : BitVec 32) (k0_hw31 : k0_chk31 v241), ∀ a, (k0_off62 v241) a + S1x10000.size a ≤ S10000x10000.size a := fun v241 k0_hw31 => k0_hw31.1
theorem k0_off231_inb : ∀ (v241 : BitVec 32) (k0_hw31 : k0_chk31 v241), ∀ a, (k0_off231 v241) a + S1x10000.size a ≤ S10000x10000.size a := fun v241 k0_hw31 => k0_hw31.2

def k0_off232 (v249 : BitVec 32) : Fin 2 → Nat :=
  let c0_i32_427 : BitVec 32 := 0#32
  ![v249.toNat, 0]

def k0_chk32 (v249 : BitVec 32) : Prop :=
  (∀ a, (k0_off64 v249) a + S1x10000.size a ≤ S10000x10000.size a) ∧
  (∀ a, (k0_off232 v249) a + S1x10000.size a ≤ S10000x10000.size a)
instance k0_chk32.dec : ∀ (v249 : BitVec 32), Decidable (k0_chk32 v249) := fun v249 => decidable_of_iff' _ (Iff.of_eq (k0_chk32.eq_1 v249))
theorem k0_off64_inb : ∀ (v249 : BitVec 32) (k0_hw32 : k0_chk32 v249), ∀ a, (k0_off64 v249) a + S1x10000.size a ≤ S10000x10000.size a := fun v249 k0_hw32 => k0_hw32.1
theorem k0_off232_inb : ∀ (v249 : BitVec 32) (k0_hw32 : k0_chk32 v249), ∀ a, (k0_off232 v249) a + S1x10000.size a ≤ S10000x10000.size a := fun v249 k0_hw32 => k0_hw32.2

def k0_off233 (v257 : BitVec 32) : Fin 2 → Nat :=
  let c0_i32_431 : BitVec 32 := 0#32
  ![v257.toNat, 0]

def k0_chk33 (v257 : BitVec 32) : Prop :=
  (∀ a, (k0_off66 v257) a + S1x10000.size a ≤ S10000x10000.size a) ∧
  (∀ a, (k0_off233 v257) a + S1x10000.size a ≤ S10000x10000.size a)
instance k0_chk33.dec : ∀ (v257 : BitVec 32), Decidable (k0_chk33 v257) := fun v257 => decidable_of_iff' _ (Iff.of_eq (k0_chk33.eq_1 v257))
theorem k0_off66_inb : ∀ (v257 : BitVec 32) (k0_hw33 : k0_chk33 v257), ∀ a, (k0_off66 v257) a + S1x10000.size a ≤ S10000x10000.size a := fun v257 k0_hw33 => k0_hw33.1
theorem k0_off233_inb : ∀ (v257 : BitVec 32) (k0_hw33 : k0_chk33 v257), ∀ a, (k0_off233 v257) a + S1x10000.size a ≤ S10000x10000.size a := fun v257 k0_hw33 => k0_hw33.2

def k0_off234 (v265 : BitVec 32) : Fin 2 → Nat :=
  let c0_i32_435 : BitVec 32 := 0#32
  ![v265.toNat, 0]

def k0_chk34 (v265 : BitVec 32) : Prop :=
  (∀ a, (k0_off68 v265) a + S1x10000.size a ≤ S10000x10000.size a) ∧
  (∀ a, (k0_off234 v265) a + S1x10000.size a ≤ S10000x10000.size a)
instance k0_chk34.dec : ∀ (v265 : BitVec 32), Decidable (k0_chk34 v265) := fun v265 => decidable_of_iff' _ (Iff.of_eq (k0_chk34.eq_1 v265))
theorem k0_off68_inb : ∀ (v265 : BitVec 32) (k0_hw34 : k0_chk34 v265), ∀ a, (k0_off68 v265) a + S1x10000.size a ≤ S10000x10000.size a := fun v265 k0_hw34 => k0_hw34.1
theorem k0_off234_inb : ∀ (v265 : BitVec 32) (k0_hw34 : k0_chk34 v265), ∀ a, (k0_off234 v265) a + S1x10000.size a ≤ S10000x10000.size a := fun v265 k0_hw34 => k0_hw34.2

def k0_off235 (v273 : BitVec 32) : Fin 2 → Nat :=
  let c0_i32_439 : BitVec 32 := 0#32
  ![v273.toNat, 0]

def k0_chk35 (v273 : BitVec 32) : Prop :=
  (∀ a, (k0_off70 v273) a + S1x10000.size a ≤ S10000x10000.size a) ∧
  (∀ a, (k0_off235 v273) a + S1x10000.size a ≤ S10000x10000.size a)
instance k0_chk35.dec : ∀ (v273 : BitVec 32), Decidable (k0_chk35 v273) := fun v273 => decidable_of_iff' _ (Iff.of_eq (k0_chk35.eq_1 v273))
theorem k0_off70_inb : ∀ (v273 : BitVec 32) (k0_hw35 : k0_chk35 v273), ∀ a, (k0_off70 v273) a + S1x10000.size a ≤ S10000x10000.size a := fun v273 k0_hw35 => k0_hw35.1
theorem k0_off235_inb : ∀ (v273 : BitVec 32) (k0_hw35 : k0_chk35 v273), ∀ a, (k0_off235 v273) a + S1x10000.size a ≤ S10000x10000.size a := fun v273 k0_hw35 => k0_hw35.2

def k0_off236 (v281 : BitVec 32) : Fin 2 → Nat :=
  let c0_i32_443 : BitVec 32 := 0#32
  ![v281.toNat, 0]

def k0_chk36 (v281 : BitVec 32) : Prop :=
  (∀ a, (k0_off72 v281) a + S1x10000.size a ≤ S10000x10000.size a) ∧
  (∀ a, (k0_off236 v281) a + S1x10000.size a ≤ S10000x10000.size a)
instance k0_chk36.dec : ∀ (v281 : BitVec 32), Decidable (k0_chk36 v281) := fun v281 => decidable_of_iff' _ (Iff.of_eq (k0_chk36.eq_1 v281))
theorem k0_off72_inb : ∀ (v281 : BitVec 32) (k0_hw36 : k0_chk36 v281), ∀ a, (k0_off72 v281) a + S1x10000.size a ≤ S10000x10000.size a := fun v281 k0_hw36 => k0_hw36.1
theorem k0_off236_inb : ∀ (v281 : BitVec 32) (k0_hw36 : k0_chk36 v281), ∀ a, (k0_off236 v281) a + S1x10000.size a ≤ S10000x10000.size a := fun v281 k0_hw36 => k0_hw36.2

def k0_off237 (v289 : BitVec 32) : Fin 2 → Nat :=
  let c0_i32_447 : BitVec 32 := 0#32
  ![v289.toNat, 0]

def k0_chk37 (v289 : BitVec 32) : Prop :=
  (∀ a, (k0_off74 v289) a + S1x10000.size a ≤ S10000x10000.size a) ∧
  (∀ a, (k0_off237 v289) a + S1x10000.size a ≤ S10000x10000.size a)
instance k0_chk37.dec : ∀ (v289 : BitVec 32), Decidable (k0_chk37 v289) := fun v289 => decidable_of_iff' _ (Iff.of_eq (k0_chk37.eq_1 v289))
theorem k0_off74_inb : ∀ (v289 : BitVec 32) (k0_hw37 : k0_chk37 v289), ∀ a, (k0_off74 v289) a + S1x10000.size a ≤ S10000x10000.size a := fun v289 k0_hw37 => k0_hw37.1
theorem k0_off237_inb : ∀ (v289 : BitVec 32) (k0_hw37 : k0_chk37 v289), ∀ a, (k0_off237 v289) a + S1x10000.size a ≤ S10000x10000.size a := fun v289 k0_hw37 => k0_hw37.2

def k0_off238 (v297 : BitVec 32) : Fin 2 → Nat :=
  let c0_i32_451 : BitVec 32 := 0#32
  ![v297.toNat, 0]

def k0_chk38 (v297 : BitVec 32) : Prop :=
  (∀ a, (k0_off76 v297) a + S1x10000.size a ≤ S10000x10000.size a) ∧
  (∀ a, (k0_off238 v297) a + S1x10000.size a ≤ S10000x10000.size a)
instance k0_chk38.dec : ∀ (v297 : BitVec 32), Decidable (k0_chk38 v297) := fun v297 => decidable_of_iff' _ (Iff.of_eq (k0_chk38.eq_1 v297))
theorem k0_off76_inb : ∀ (v297 : BitVec 32) (k0_hw38 : k0_chk38 v297), ∀ a, (k0_off76 v297) a + S1x10000.size a ≤ S10000x10000.size a := fun v297 k0_hw38 => k0_hw38.1
theorem k0_off238_inb : ∀ (v297 : BitVec 32) (k0_hw38 : k0_chk38 v297), ∀ a, (k0_off238 v297) a + S1x10000.size a ≤ S10000x10000.size a := fun v297 k0_hw38 => k0_hw38.2

def k0_off239 (v305 : BitVec 32) : Fin 2 → Nat :=
  let c0_i32_455 : BitVec 32 := 0#32
  ![v305.toNat, 0]

def k0_chk39 (v305 : BitVec 32) : Prop :=
  (∀ a, (k0_off78 v305) a + S1x10000.size a ≤ S10000x10000.size a) ∧
  (∀ a, (k0_off239 v305) a + S1x10000.size a ≤ S10000x10000.size a)
instance k0_chk39.dec : ∀ (v305 : BitVec 32), Decidable (k0_chk39 v305) := fun v305 => decidable_of_iff' _ (Iff.of_eq (k0_chk39.eq_1 v305))
theorem k0_off78_inb : ∀ (v305 : BitVec 32) (k0_hw39 : k0_chk39 v305), ∀ a, (k0_off78 v305) a + S1x10000.size a ≤ S10000x10000.size a := fun v305 k0_hw39 => k0_hw39.1
theorem k0_off239_inb : ∀ (v305 : BitVec 32) (k0_hw39 : k0_chk39 v305), ∀ a, (k0_off239 v305) a + S1x10000.size a ≤ S10000x10000.size a := fun v305 k0_hw39 => k0_hw39.2

def k0_off240 (v313 : BitVec 32) : Fin 2 → Nat :=
  let c0_i32_459 : BitVec 32 := 0#32
  ![v313.toNat, 0]

def k0_chk40 (v313 : BitVec 32) : Prop :=
  (∀ a, (k0_off80 v313) a + S1x10000.size a ≤ S10000x10000.size a) ∧
  (∀ a, (k0_off240 v313) a + S1x10000.size a ≤ S10000x10000.size a)
instance k0_chk40.dec : ∀ (v313 : BitVec 32), Decidable (k0_chk40 v313) := fun v313 => decidable_of_iff' _ (Iff.of_eq (k0_chk40.eq_1 v313))
theorem k0_off80_inb : ∀ (v313 : BitVec 32) (k0_hw40 : k0_chk40 v313), ∀ a, (k0_off80 v313) a + S1x10000.size a ≤ S10000x10000.size a := fun v313 k0_hw40 => k0_hw40.1
theorem k0_off240_inb : ∀ (v313 : BitVec 32) (k0_hw40 : k0_chk40 v313), ∀ a, (k0_off240 v313) a + S1x10000.size a ≤ S10000x10000.size a := fun v313 k0_hw40 => k0_hw40.2

def k0_off241 (v321 : BitVec 32) : Fin 2 → Nat :=
  let c0_i32_463 : BitVec 32 := 0#32
  ![v321.toNat, 0]

def k0_chk41 (v321 : BitVec 32) : Prop :=
  (∀ a, (k0_off82 v321) a + S1x10000.size a ≤ S10000x10000.size a) ∧
  (∀ a, (k0_off241 v321) a + S1x10000.size a ≤ S10000x10000.size a)
instance k0_chk41.dec : ∀ (v321 : BitVec 32), Decidable (k0_chk41 v321) := fun v321 => decidable_of_iff' _ (Iff.of_eq (k0_chk41.eq_1 v321))
theorem k0_off82_inb : ∀ (v321 : BitVec 32) (k0_hw41 : k0_chk41 v321), ∀ a, (k0_off82 v321) a + S1x10000.size a ≤ S10000x10000.size a := fun v321 k0_hw41 => k0_hw41.1
theorem k0_off241_inb : ∀ (v321 : BitVec 32) (k0_hw41 : k0_chk41 v321), ∀ a, (k0_off241 v321) a + S1x10000.size a ≤ S10000x10000.size a := fun v321 k0_hw41 => k0_hw41.2

def k0_off242 (v329 : BitVec 32) : Fin 2 → Nat :=
  let c0_i32_467 : BitVec 32 := 0#32
  ![v329.toNat, 0]

def k0_chk42 (v329 : BitVec 32) : Prop :=
  (∀ a, (k0_off84 v329) a + S1x10000.size a ≤ S10000x10000.size a) ∧
  (∀ a, (k0_off242 v329) a + S1x10000.size a ≤ S10000x10000.size a)
instance k0_chk42.dec : ∀ (v329 : BitVec 32), Decidable (k0_chk42 v329) := fun v329 => decidable_of_iff' _ (Iff.of_eq (k0_chk42.eq_1 v329))
theorem k0_off84_inb : ∀ (v329 : BitVec 32) (k0_hw42 : k0_chk42 v329), ∀ a, (k0_off84 v329) a + S1x10000.size a ≤ S10000x10000.size a := fun v329 k0_hw42 => k0_hw42.1
theorem k0_off242_inb : ∀ (v329 : BitVec 32) (k0_hw42 : k0_chk42 v329), ∀ a, (k0_off242 v329) a + S1x10000.size a ≤ S10000x10000.size a := fun v329 k0_hw42 => k0_hw42.2

def k0_off243 (v337 : BitVec 32) : Fin 2 → Nat :=
  let c0_i32_471 : BitVec 32 := 0#32
  ![v337.toNat, 0]

def k0_chk43 (v337 : BitVec 32) : Prop :=
  (∀ a, (k0_off86 v337) a + S1x10000.size a ≤ S10000x10000.size a) ∧
  (∀ a, (k0_off243 v337) a + S1x10000.size a ≤ S10000x10000.size a)
instance k0_chk43.dec : ∀ (v337 : BitVec 32), Decidable (k0_chk43 v337) := fun v337 => decidable_of_iff' _ (Iff.of_eq (k0_chk43.eq_1 v337))
theorem k0_off86_inb : ∀ (v337 : BitVec 32) (k0_hw43 : k0_chk43 v337), ∀ a, (k0_off86 v337) a + S1x10000.size a ≤ S10000x10000.size a := fun v337 k0_hw43 => k0_hw43.1
theorem k0_off243_inb : ∀ (v337 : BitVec 32) (k0_hw43 : k0_chk43 v337), ∀ a, (k0_off243 v337) a + S1x10000.size a ≤ S10000x10000.size a := fun v337 k0_hw43 => k0_hw43.2

def k0_off244 (v345 : BitVec 32) : Fin 2 → Nat :=
  let c0_i32_475 : BitVec 32 := 0#32
  ![v345.toNat, 0]

def k0_chk44 (v345 : BitVec 32) : Prop :=
  (∀ a, (k0_off88 v345) a + S1x10000.size a ≤ S10000x10000.size a) ∧
  (∀ a, (k0_off244 v345) a + S1x10000.size a ≤ S10000x10000.size a)
instance k0_chk44.dec : ∀ (v345 : BitVec 32), Decidable (k0_chk44 v345) := fun v345 => decidable_of_iff' _ (Iff.of_eq (k0_chk44.eq_1 v345))
theorem k0_off88_inb : ∀ (v345 : BitVec 32) (k0_hw44 : k0_chk44 v345), ∀ a, (k0_off88 v345) a + S1x10000.size a ≤ S10000x10000.size a := fun v345 k0_hw44 => k0_hw44.1
theorem k0_off244_inb : ∀ (v345 : BitVec 32) (k0_hw44 : k0_chk44 v345), ∀ a, (k0_off244 v345) a + S1x10000.size a ≤ S10000x10000.size a := fun v345 k0_hw44 => k0_hw44.2

def k0_off245 (v353 : BitVec 32) : Fin 2 → Nat :=
  let c0_i32_479 : BitVec 32 := 0#32
  ![v353.toNat, 0]

def k0_chk45 (v353 : BitVec 32) : Prop :=
  (∀ a, (k0_off90 v353) a + S1x10000.size a ≤ S10000x10000.size a) ∧
  (∀ a, (k0_off245 v353) a + S1x10000.size a ≤ S10000x10000.size a)
instance k0_chk45.dec : ∀ (v353 : BitVec 32), Decidable (k0_chk45 v353) := fun v353 => decidable_of_iff' _ (Iff.of_eq (k0_chk45.eq_1 v353))
theorem k0_off90_inb : ∀ (v353 : BitVec 32) (k0_hw45 : k0_chk45 v353), ∀ a, (k0_off90 v353) a + S1x10000.size a ≤ S10000x10000.size a := fun v353 k0_hw45 => k0_hw45.1
theorem k0_off245_inb : ∀ (v353 : BitVec 32) (k0_hw45 : k0_chk45 v353), ∀ a, (k0_off245 v353) a + S1x10000.size a ≤ S10000x10000.size a := fun v353 k0_hw45 => k0_hw45.2

def k0_off246 (v361 : BitVec 32) : Fin 2 → Nat :=
  let c0_i32_483 : BitVec 32 := 0#32
  ![v361.toNat, 0]

def k0_chk46 (v361 : BitVec 32) : Prop :=
  (∀ a, (k0_off92 v361) a + S1x10000.size a ≤ S10000x10000.size a) ∧
  (∀ a, (k0_off246 v361) a + S1x10000.size a ≤ S10000x10000.size a)
instance k0_chk46.dec : ∀ (v361 : BitVec 32), Decidable (k0_chk46 v361) := fun v361 => decidable_of_iff' _ (Iff.of_eq (k0_chk46.eq_1 v361))
theorem k0_off92_inb : ∀ (v361 : BitVec 32) (k0_hw46 : k0_chk46 v361), ∀ a, (k0_off92 v361) a + S1x10000.size a ≤ S10000x10000.size a := fun v361 k0_hw46 => k0_hw46.1
theorem k0_off246_inb : ∀ (v361 : BitVec 32) (k0_hw46 : k0_chk46 v361), ∀ a, (k0_off246 v361) a + S1x10000.size a ≤ S10000x10000.size a := fun v361 k0_hw46 => k0_hw46.2

def k0_off247 (v369 : BitVec 32) : Fin 2 → Nat :=
  let c0_i32_487 : BitVec 32 := 0#32
  ![v369.toNat, 0]

def k0_chk47 (v369 : BitVec 32) : Prop :=
  (∀ a, (k0_off94 v369) a + S1x10000.size a ≤ S10000x10000.size a) ∧
  (∀ a, (k0_off247 v369) a + S1x10000.size a ≤ S10000x10000.size a)
instance k0_chk47.dec : ∀ (v369 : BitVec 32), Decidable (k0_chk47 v369) := fun v369 => decidable_of_iff' _ (Iff.of_eq (k0_chk47.eq_1 v369))
theorem k0_off94_inb : ∀ (v369 : BitVec 32) (k0_hw47 : k0_chk47 v369), ∀ a, (k0_off94 v369) a + S1x10000.size a ≤ S10000x10000.size a := fun v369 k0_hw47 => k0_hw47.1
theorem k0_off247_inb : ∀ (v369 : BitVec 32) (k0_hw47 : k0_chk47 v369), ∀ a, (k0_off247 v369) a + S1x10000.size a ≤ S10000x10000.size a := fun v369 k0_hw47 => k0_hw47.2

def k0_off248 (v377 : BitVec 32) : Fin 2 → Nat :=
  let c0_i32_491 : BitVec 32 := 0#32
  ![v377.toNat, 0]

def k0_chk48 (v377 : BitVec 32) : Prop :=
  (∀ a, (k0_off96 v377) a + S1x10000.size a ≤ S10000x10000.size a) ∧
  (∀ a, (k0_off248 v377) a + S1x10000.size a ≤ S10000x10000.size a)
instance k0_chk48.dec : ∀ (v377 : BitVec 32), Decidable (k0_chk48 v377) := fun v377 => decidable_of_iff' _ (Iff.of_eq (k0_chk48.eq_1 v377))
theorem k0_off96_inb : ∀ (v377 : BitVec 32) (k0_hw48 : k0_chk48 v377), ∀ a, (k0_off96 v377) a + S1x10000.size a ≤ S10000x10000.size a := fun v377 k0_hw48 => k0_hw48.1
theorem k0_off248_inb : ∀ (v377 : BitVec 32) (k0_hw48 : k0_chk48 v377), ∀ a, (k0_off248 v377) a + S1x10000.size a ≤ S10000x10000.size a := fun v377 k0_hw48 => k0_hw48.2

def k0_off249 (v385 : BitVec 32) : Fin 2 → Nat :=
  let c0_i32_495 : BitVec 32 := 0#32
  ![v385.toNat, 0]

def k0_chk49 (v385 : BitVec 32) : Prop :=
  (∀ a, (k0_off98 v385) a + S1x10000.size a ≤ S10000x10000.size a) ∧
  (∀ a, (k0_off249 v385) a + S1x10000.size a ≤ S10000x10000.size a)
instance k0_chk49.dec : ∀ (v385 : BitVec 32), Decidable (k0_chk49 v385) := fun v385 => decidable_of_iff' _ (Iff.of_eq (k0_chk49.eq_1 v385))
theorem k0_off98_inb : ∀ (v385 : BitVec 32) (k0_hw49 : k0_chk49 v385), ∀ a, (k0_off98 v385) a + S1x10000.size a ≤ S10000x10000.size a := fun v385 k0_hw49 => k0_hw49.1
theorem k0_off249_inb : ∀ (v385 : BitVec 32) (k0_hw49 : k0_chk49 v385), ∀ a, (k0_off249 v385) a + S1x10000.size a ≤ S10000x10000.size a := fun v385 k0_hw49 => k0_hw49.2

def k0_off250 (v393 : BitVec 32) : Fin 2 → Nat :=
  let c0_i32_499 : BitVec 32 := 0#32
  ![v393.toNat, 0]

def k0_chk50 (v393 : BitVec 32) : Prop :=
  (∀ a, (k0_off100 v393) a + S1x10000.size a ≤ S10000x10000.size a) ∧
  (∀ a, (k0_off250 v393) a + S1x10000.size a ≤ S10000x10000.size a)
instance k0_chk50.dec : ∀ (v393 : BitVec 32), Decidable (k0_chk50 v393) := fun v393 => decidable_of_iff' _ (Iff.of_eq (k0_chk50.eq_1 v393))
theorem k0_off100_inb : ∀ (v393 : BitVec 32) (k0_hw50 : k0_chk50 v393), ∀ a, (k0_off100 v393) a + S1x10000.size a ≤ S10000x10000.size a := fun v393 k0_hw50 => k0_hw50.1
theorem k0_off250_inb : ∀ (v393 : BitVec 32) (k0_hw50 : k0_chk50 v393), ∀ a, (k0_off250 v393) a + S1x10000.size a ≤ S10000x10000.size a := fun v393 k0_hw50 => k0_hw50.2

def k0_off251 (v401 : BitVec 32) : Fin 2 → Nat :=
  let c0_i32_503 : BitVec 32 := 0#32
  ![v401.toNat, 0]

def k0_chk51 (v401 : BitVec 32) : Prop :=
  (∀ a, (k0_off102 v401) a + S1x10000.size a ≤ S10000x10000.size a) ∧
  (∀ a, (k0_off251 v401) a + S1x10000.size a ≤ S10000x10000.size a)
instance k0_chk51.dec : ∀ (v401 : BitVec 32), Decidable (k0_chk51 v401) := fun v401 => decidable_of_iff' _ (Iff.of_eq (k0_chk51.eq_1 v401))
theorem k0_off102_inb : ∀ (v401 : BitVec 32) (k0_hw51 : k0_chk51 v401), ∀ a, (k0_off102 v401) a + S1x10000.size a ≤ S10000x10000.size a := fun v401 k0_hw51 => k0_hw51.1
theorem k0_off251_inb : ∀ (v401 : BitVec 32) (k0_hw51 : k0_chk51 v401), ∀ a, (k0_off251 v401) a + S1x10000.size a ≤ S10000x10000.size a := fun v401 k0_hw51 => k0_hw51.2

def k0_off252 (v409 : BitVec 32) : Fin 2 → Nat :=
  let c0_i32_507 : BitVec 32 := 0#32
  ![v409.toNat, 0]

def k0_chk52 (v409 : BitVec 32) : Prop :=
  (∀ a, (k0_off104 v409) a + S1x10000.size a ≤ S10000x10000.size a) ∧
  (∀ a, (k0_off252 v409) a + S1x10000.size a ≤ S10000x10000.size a)
instance k0_chk52.dec : ∀ (v409 : BitVec 32), Decidable (k0_chk52 v409) := fun v409 => decidable_of_iff' _ (Iff.of_eq (k0_chk52.eq_1 v409))
theorem k0_off104_inb : ∀ (v409 : BitVec 32) (k0_hw52 : k0_chk52 v409), ∀ a, (k0_off104 v409) a + S1x10000.size a ≤ S10000x10000.size a := fun v409 k0_hw52 => k0_hw52.1
theorem k0_off252_inb : ∀ (v409 : BitVec 32) (k0_hw52 : k0_chk52 v409), ∀ a, (k0_off252 v409) a + S1x10000.size a ≤ S10000x10000.size a := fun v409 k0_hw52 => k0_hw52.2

def k0_off253 (v417 : BitVec 32) : Fin 2 → Nat :=
  let c0_i32_511 : BitVec 32 := 0#32
  ![v417.toNat, 0]

def k0_chk53 (v417 : BitVec 32) : Prop :=
  (∀ a, (k0_off106 v417) a + S1x10000.size a ≤ S10000x10000.size a) ∧
  (∀ a, (k0_off253 v417) a + S1x10000.size a ≤ S10000x10000.size a)
instance k0_chk53.dec : ∀ (v417 : BitVec 32), Decidable (k0_chk53 v417) := fun v417 => decidable_of_iff' _ (Iff.of_eq (k0_chk53.eq_1 v417))
theorem k0_off106_inb : ∀ (v417 : BitVec 32) (k0_hw53 : k0_chk53 v417), ∀ a, (k0_off106 v417) a + S1x10000.size a ≤ S10000x10000.size a := fun v417 k0_hw53 => k0_hw53.1
theorem k0_off253_inb : ∀ (v417 : BitVec 32) (k0_hw53 : k0_chk53 v417), ∀ a, (k0_off253 v417) a + S1x10000.size a ≤ S10000x10000.size a := fun v417 k0_hw53 => k0_hw53.2

def k0_off254 (v425 : BitVec 32) : Fin 2 → Nat :=
  let c0_i32_515 : BitVec 32 := 0#32
  ![v425.toNat, 0]

def k0_chk54 (v425 : BitVec 32) : Prop :=
  (∀ a, (k0_off108 v425) a + S1x10000.size a ≤ S10000x10000.size a) ∧
  (∀ a, (k0_off254 v425) a + S1x10000.size a ≤ S10000x10000.size a)
instance k0_chk54.dec : ∀ (v425 : BitVec 32), Decidable (k0_chk54 v425) := fun v425 => decidable_of_iff' _ (Iff.of_eq (k0_chk54.eq_1 v425))
theorem k0_off108_inb : ∀ (v425 : BitVec 32) (k0_hw54 : k0_chk54 v425), ∀ a, (k0_off108 v425) a + S1x10000.size a ≤ S10000x10000.size a := fun v425 k0_hw54 => k0_hw54.1
theorem k0_off254_inb : ∀ (v425 : BitVec 32) (k0_hw54 : k0_chk54 v425), ∀ a, (k0_off254 v425) a + S1x10000.size a ≤ S10000x10000.size a := fun v425 k0_hw54 => k0_hw54.2

def k0_off255 (v433 : BitVec 32) : Fin 2 → Nat :=
  let c0_i32_519 : BitVec 32 := 0#32
  ![v433.toNat, 0]

def k0_chk55 (v433 : BitVec 32) : Prop :=
  (∀ a, (k0_off110 v433) a + S1x10000.size a ≤ S10000x10000.size a) ∧
  (∀ a, (k0_off255 v433) a + S1x10000.size a ≤ S10000x10000.size a)
instance k0_chk55.dec : ∀ (v433 : BitVec 32), Decidable (k0_chk55 v433) := fun v433 => decidable_of_iff' _ (Iff.of_eq (k0_chk55.eq_1 v433))
theorem k0_off110_inb : ∀ (v433 : BitVec 32) (k0_hw55 : k0_chk55 v433), ∀ a, (k0_off110 v433) a + S1x10000.size a ≤ S10000x10000.size a := fun v433 k0_hw55 => k0_hw55.1
theorem k0_off255_inb : ∀ (v433 : BitVec 32) (k0_hw55 : k0_chk55 v433), ∀ a, (k0_off255 v433) a + S1x10000.size a ≤ S10000x10000.size a := fun v433 k0_hw55 => k0_hw55.2

def k0_off256 (v441 : BitVec 32) : Fin 2 → Nat :=
  let c0_i32_523 : BitVec 32 := 0#32
  ![v441.toNat, 0]

def k0_chk56 (v441 : BitVec 32) : Prop :=
  (∀ a, (k0_off112 v441) a + S1x10000.size a ≤ S10000x10000.size a) ∧
  (∀ a, (k0_off256 v441) a + S1x10000.size a ≤ S10000x10000.size a)
instance k0_chk56.dec : ∀ (v441 : BitVec 32), Decidable (k0_chk56 v441) := fun v441 => decidable_of_iff' _ (Iff.of_eq (k0_chk56.eq_1 v441))
theorem k0_off112_inb : ∀ (v441 : BitVec 32) (k0_hw56 : k0_chk56 v441), ∀ a, (k0_off112 v441) a + S1x10000.size a ≤ S10000x10000.size a := fun v441 k0_hw56 => k0_hw56.1
theorem k0_off256_inb : ∀ (v441 : BitVec 32) (k0_hw56 : k0_chk56 v441), ∀ a, (k0_off256 v441) a + S1x10000.size a ≤ S10000x10000.size a := fun v441 k0_hw56 => k0_hw56.2

def k0_off257 (v449 : BitVec 32) : Fin 2 → Nat :=
  let c0_i32_527 : BitVec 32 := 0#32
  ![v449.toNat, 0]

def k0_chk57 (v449 : BitVec 32) : Prop :=
  (∀ a, (k0_off114 v449) a + S1x10000.size a ≤ S10000x10000.size a) ∧
  (∀ a, (k0_off257 v449) a + S1x10000.size a ≤ S10000x10000.size a)
instance k0_chk57.dec : ∀ (v449 : BitVec 32), Decidable (k0_chk57 v449) := fun v449 => decidable_of_iff' _ (Iff.of_eq (k0_chk57.eq_1 v449))
theorem k0_off114_inb : ∀ (v449 : BitVec 32) (k0_hw57 : k0_chk57 v449), ∀ a, (k0_off114 v449) a + S1x10000.size a ≤ S10000x10000.size a := fun v449 k0_hw57 => k0_hw57.1
theorem k0_off257_inb : ∀ (v449 : BitVec 32) (k0_hw57 : k0_chk57 v449), ∀ a, (k0_off257 v449) a + S1x10000.size a ≤ S10000x10000.size a := fun v449 k0_hw57 => k0_hw57.2

def k0_off258 (v457 : BitVec 32) : Fin 2 → Nat :=
  let c0_i32_531 : BitVec 32 := 0#32
  ![v457.toNat, 0]

def k0_chk58 (v457 : BitVec 32) : Prop :=
  (∀ a, (k0_off116 v457) a + S1x10000.size a ≤ S10000x10000.size a) ∧
  (∀ a, (k0_off258 v457) a + S1x10000.size a ≤ S10000x10000.size a)
instance k0_chk58.dec : ∀ (v457 : BitVec 32), Decidable (k0_chk58 v457) := fun v457 => decidable_of_iff' _ (Iff.of_eq (k0_chk58.eq_1 v457))
theorem k0_off116_inb : ∀ (v457 : BitVec 32) (k0_hw58 : k0_chk58 v457), ∀ a, (k0_off116 v457) a + S1x10000.size a ≤ S10000x10000.size a := fun v457 k0_hw58 => k0_hw58.1
theorem k0_off258_inb : ∀ (v457 : BitVec 32) (k0_hw58 : k0_chk58 v457), ∀ a, (k0_off258 v457) a + S1x10000.size a ≤ S10000x10000.size a := fun v457 k0_hw58 => k0_hw58.2

def k0_off259 (v465 : BitVec 32) : Fin 2 → Nat :=
  let c0_i32_535 : BitVec 32 := 0#32
  ![v465.toNat, 0]

def k0_chk59 (v465 : BitVec 32) : Prop :=
  (∀ a, (k0_off118 v465) a + S1x10000.size a ≤ S10000x10000.size a) ∧
  (∀ a, (k0_off259 v465) a + S1x10000.size a ≤ S10000x10000.size a)
instance k0_chk59.dec : ∀ (v465 : BitVec 32), Decidable (k0_chk59 v465) := fun v465 => decidable_of_iff' _ (Iff.of_eq (k0_chk59.eq_1 v465))
theorem k0_off118_inb : ∀ (v465 : BitVec 32) (k0_hw59 : k0_chk59 v465), ∀ a, (k0_off118 v465) a + S1x10000.size a ≤ S10000x10000.size a := fun v465 k0_hw59 => k0_hw59.1
theorem k0_off259_inb : ∀ (v465 : BitVec 32) (k0_hw59 : k0_chk59 v465), ∀ a, (k0_off259 v465) a + S1x10000.size a ≤ S10000x10000.size a := fun v465 k0_hw59 => k0_hw59.2

def k0_off260 (v473 : BitVec 32) : Fin 2 → Nat :=
  let c0_i32_539 : BitVec 32 := 0#32
  ![v473.toNat, 0]

def k0_chk60 (v473 : BitVec 32) : Prop :=
  (∀ a, (k0_off120 v473) a + S1x10000.size a ≤ S10000x10000.size a) ∧
  (∀ a, (k0_off260 v473) a + S1x10000.size a ≤ S10000x10000.size a)
instance k0_chk60.dec : ∀ (v473 : BitVec 32), Decidable (k0_chk60 v473) := fun v473 => decidable_of_iff' _ (Iff.of_eq (k0_chk60.eq_1 v473))
theorem k0_off120_inb : ∀ (v473 : BitVec 32) (k0_hw60 : k0_chk60 v473), ∀ a, (k0_off120 v473) a + S1x10000.size a ≤ S10000x10000.size a := fun v473 k0_hw60 => k0_hw60.1
theorem k0_off260_inb : ∀ (v473 : BitVec 32) (k0_hw60 : k0_chk60 v473), ∀ a, (k0_off260 v473) a + S1x10000.size a ≤ S10000x10000.size a := fun v473 k0_hw60 => k0_hw60.2

def k0_off261 (v481 : BitVec 32) : Fin 2 → Nat :=
  let c0_i32_543 : BitVec 32 := 0#32
  ![v481.toNat, 0]

def k0_chk61 (v481 : BitVec 32) : Prop :=
  (∀ a, (k0_off122 v481) a + S1x10000.size a ≤ S10000x10000.size a) ∧
  (∀ a, (k0_off261 v481) a + S1x10000.size a ≤ S10000x10000.size a)
instance k0_chk61.dec : ∀ (v481 : BitVec 32), Decidable (k0_chk61 v481) := fun v481 => decidable_of_iff' _ (Iff.of_eq (k0_chk61.eq_1 v481))
theorem k0_off122_inb : ∀ (v481 : BitVec 32) (k0_hw61 : k0_chk61 v481), ∀ a, (k0_off122 v481) a + S1x10000.size a ≤ S10000x10000.size a := fun v481 k0_hw61 => k0_hw61.1
theorem k0_off261_inb : ∀ (v481 : BitVec 32) (k0_hw61 : k0_chk61 v481), ∀ a, (k0_off261 v481) a + S1x10000.size a ≤ S10000x10000.size a := fun v481 k0_hw61 => k0_hw61.2

def k0_off262 (v489 : BitVec 32) : Fin 2 → Nat :=
  let c0_i32_547 : BitVec 32 := 0#32
  ![v489.toNat, 0]

def k0_chk62 (v489 : BitVec 32) : Prop :=
  (∀ a, (k0_off124 v489) a + S1x10000.size a ≤ S10000x10000.size a) ∧
  (∀ a, (k0_off262 v489) a + S1x10000.size a ≤ S10000x10000.size a)
instance k0_chk62.dec : ∀ (v489 : BitVec 32), Decidable (k0_chk62 v489) := fun v489 => decidable_of_iff' _ (Iff.of_eq (k0_chk62.eq_1 v489))
theorem k0_off124_inb : ∀ (v489 : BitVec 32) (k0_hw62 : k0_chk62 v489), ∀ a, (k0_off124 v489) a + S1x10000.size a ≤ S10000x10000.size a := fun v489 k0_hw62 => k0_hw62.1
theorem k0_off262_inb : ∀ (v489 : BitVec 32) (k0_hw62 : k0_chk62 v489), ∀ a, (k0_off262 v489) a + S1x10000.size a ≤ S10000x10000.size a := fun v489 k0_hw62 => k0_hw62.2

def k0_off263 (v497 : BitVec 32) : Fin 2 → Nat :=
  let c0_i32_551 : BitVec 32 := 0#32
  ![v497.toNat, 0]

def k0_chk63 (v497 : BitVec 32) : Prop :=
  (∀ a, (k0_off126 v497) a + S1x10000.size a ≤ S10000x10000.size a) ∧
  (∀ a, (k0_off263 v497) a + S1x10000.size a ≤ S10000x10000.size a)
instance k0_chk63.dec : ∀ (v497 : BitVec 32), Decidable (k0_chk63 v497) := fun v497 => decidable_of_iff' _ (Iff.of_eq (k0_chk63.eq_1 v497))
theorem k0_off126_inb : ∀ (v497 : BitVec 32) (k0_hw63 : k0_chk63 v497), ∀ a, (k0_off126 v497) a + S1x10000.size a ≤ S10000x10000.size a := fun v497 k0_hw63 => k0_hw63.1
theorem k0_off263_inb : ∀ (v497 : BitVec 32) (k0_hw63 : k0_chk63 v497), ∀ a, (k0_off263 v497) a + S1x10000.size a ≤ S10000x10000.size a := fun v497 k0_hw63 => k0_hw63.2

def k0_off264 (v505 : BitVec 32) : Fin 2 → Nat :=
  let c0_i32_555 : BitVec 32 := 0#32
  ![v505.toNat, 0]

def k0_chk64 (v505 : BitVec 32) : Prop :=
  (∀ a, (k0_off128 v505) a + S1x10000.size a ≤ S10000x10000.size a) ∧
  (∀ a, (k0_off264 v505) a + S1x10000.size a ≤ S10000x10000.size a)
instance k0_chk64.dec : ∀ (v505 : BitVec 32), Decidable (k0_chk64 v505) := fun v505 => decidable_of_iff' _ (Iff.of_eq (k0_chk64.eq_1 v505))
theorem k0_off128_inb : ∀ (v505 : BitVec 32) (k0_hw64 : k0_chk64 v505), ∀ a, (k0_off128 v505) a + S1x10000.size a ≤ S10000x10000.size a := fun v505 k0_hw64 => k0_hw64.1
theorem k0_off264_inb : ∀ (v505 : BitVec 32) (k0_hw64 : k0_chk64 v505), ∀ a, (k0_off264 v505) a + S1x10000.size a ≤ S10000x10000.size a := fun v505 k0_hw64 => k0_hw64.2

def k0_off265 (v513 : BitVec 32) : Fin 2 → Nat :=
  let c0_i32_559 : BitVec 32 := 0#32
  ![v513.toNat, 0]

def k0_chk65 (v513 : BitVec 32) : Prop :=
  (∀ a, (k0_off130 v513) a + S1x10000.size a ≤ S10000x10000.size a) ∧
  (∀ a, (k0_off265 v513) a + S1x10000.size a ≤ S10000x10000.size a)
instance k0_chk65.dec : ∀ (v513 : BitVec 32), Decidable (k0_chk65 v513) := fun v513 => decidable_of_iff' _ (Iff.of_eq (k0_chk65.eq_1 v513))
theorem k0_off130_inb : ∀ (v513 : BitVec 32) (k0_hw65 : k0_chk65 v513), ∀ a, (k0_off130 v513) a + S1x10000.size a ≤ S10000x10000.size a := fun v513 k0_hw65 => k0_hw65.1
theorem k0_off265_inb : ∀ (v513 : BitVec 32) (k0_hw65 : k0_chk65 v513), ∀ a, (k0_off265 v513) a + S1x10000.size a ≤ S10000x10000.size a := fun v513 k0_hw65 => k0_hw65.2

def k0_off266 (v521 : BitVec 32) : Fin 2 → Nat :=
  let c0_i32_563 : BitVec 32 := 0#32
  ![v521.toNat, 0]

def k0_chk66 (v521 : BitVec 32) : Prop :=
  (∀ a, (k0_off132 v521) a + S1x10000.size a ≤ S10000x10000.size a) ∧
  (∀ a, (k0_off266 v521) a + S1x10000.size a ≤ S10000x10000.size a)
instance k0_chk66.dec : ∀ (v521 : BitVec 32), Decidable (k0_chk66 v521) := fun v521 => decidable_of_iff' _ (Iff.of_eq (k0_chk66.eq_1 v521))
theorem k0_off132_inb : ∀ (v521 : BitVec 32) (k0_hw66 : k0_chk66 v521), ∀ a, (k0_off132 v521) a + S1x10000.size a ≤ S10000x10000.size a := fun v521 k0_hw66 => k0_hw66.1
theorem k0_off266_inb : ∀ (v521 : BitVec 32) (k0_hw66 : k0_chk66 v521), ∀ a, (k0_off266 v521) a + S1x10000.size a ≤ S10000x10000.size a := fun v521 k0_hw66 => k0_hw66.2

def k0_off267 (v529 : BitVec 32) : Fin 2 → Nat :=
  let c0_i32_567 : BitVec 32 := 0#32
  ![v529.toNat, 0]

def k0_chk67 (v529 : BitVec 32) : Prop :=
  (∀ a, (k0_off134 v529) a + S1x10000.size a ≤ S10000x10000.size a) ∧
  (∀ a, (k0_off267 v529) a + S1x10000.size a ≤ S10000x10000.size a)
instance k0_chk67.dec : ∀ (v529 : BitVec 32), Decidable (k0_chk67 v529) := fun v529 => decidable_of_iff' _ (Iff.of_eq (k0_chk67.eq_1 v529))
theorem k0_off134_inb : ∀ (v529 : BitVec 32) (k0_hw67 : k0_chk67 v529), ∀ a, (k0_off134 v529) a + S1x10000.size a ≤ S10000x10000.size a := fun v529 k0_hw67 => k0_hw67.1
theorem k0_off267_inb : ∀ (v529 : BitVec 32) (k0_hw67 : k0_chk67 v529), ∀ a, (k0_off267 v529) a + S1x10000.size a ≤ S10000x10000.size a := fun v529 k0_hw67 => k0_hw67.2

def k0_off268 (v537 : BitVec 32) : Fin 2 → Nat :=
  let c0_i32_571 : BitVec 32 := 0#32
  ![v537.toNat, 0]

def k0_chk68 (v537 : BitVec 32) : Prop :=
  (∀ a, (k0_off136 v537) a + S1x10000.size a ≤ S10000x10000.size a) ∧
  (∀ a, (k0_off268 v537) a + S1x10000.size a ≤ S10000x10000.size a)
instance k0_chk68.dec : ∀ (v537 : BitVec 32), Decidable (k0_chk68 v537) := fun v537 => decidable_of_iff' _ (Iff.of_eq (k0_chk68.eq_1 v537))
theorem k0_off136_inb : ∀ (v537 : BitVec 32) (k0_hw68 : k0_chk68 v537), ∀ a, (k0_off136 v537) a + S1x10000.size a ≤ S10000x10000.size a := fun v537 k0_hw68 => k0_hw68.1
theorem k0_off268_inb : ∀ (v537 : BitVec 32) (k0_hw68 : k0_chk68 v537), ∀ a, (k0_off268 v537) a + S1x10000.size a ≤ S10000x10000.size a := fun v537 k0_hw68 => k0_hw68.2

def k0_off269 (v545 : BitVec 32) : Fin 2 → Nat :=
  let c0_i32_575 : BitVec 32 := 0#32
  ![v545.toNat, 0]

def k0_chk69 (v545 : BitVec 32) : Prop :=
  (∀ a, (k0_off138 v545) a + S1x10000.size a ≤ S10000x10000.size a) ∧
  (∀ a, (k0_off269 v545) a + S1x10000.size a ≤ S10000x10000.size a)
instance k0_chk69.dec : ∀ (v545 : BitVec 32), Decidable (k0_chk69 v545) := fun v545 => decidable_of_iff' _ (Iff.of_eq (k0_chk69.eq_1 v545))
theorem k0_off138_inb : ∀ (v545 : BitVec 32) (k0_hw69 : k0_chk69 v545), ∀ a, (k0_off138 v545) a + S1x10000.size a ≤ S10000x10000.size a := fun v545 k0_hw69 => k0_hw69.1
theorem k0_off269_inb : ∀ (v545 : BitVec 32) (k0_hw69 : k0_chk69 v545), ∀ a, (k0_off269 v545) a + S1x10000.size a ≤ S10000x10000.size a := fun v545 k0_hw69 => k0_hw69.2

def k0_off270 (v553 : BitVec 32) : Fin 2 → Nat :=
  let c0_i32_579 : BitVec 32 := 0#32
  ![v553.toNat, 0]

def k0_chk70 (v553 : BitVec 32) : Prop :=
  (∀ a, (k0_off140 v553) a + S1x10000.size a ≤ S10000x10000.size a) ∧
  (∀ a, (k0_off270 v553) a + S1x10000.size a ≤ S10000x10000.size a)
instance k0_chk70.dec : ∀ (v553 : BitVec 32), Decidable (k0_chk70 v553) := fun v553 => decidable_of_iff' _ (Iff.of_eq (k0_chk70.eq_1 v553))
theorem k0_off140_inb : ∀ (v553 : BitVec 32) (k0_hw70 : k0_chk70 v553), ∀ a, (k0_off140 v553) a + S1x10000.size a ≤ S10000x10000.size a := fun v553 k0_hw70 => k0_hw70.1
theorem k0_off270_inb : ∀ (v553 : BitVec 32) (k0_hw70 : k0_chk70 v553), ∀ a, (k0_off270 v553) a + S1x10000.size a ≤ S10000x10000.size a := fun v553 k0_hw70 => k0_hw70.2

def k0_off271 (v561 : BitVec 32) : Fin 2 → Nat :=
  let c0_i32_583 : BitVec 32 := 0#32
  ![v561.toNat, 0]

def k0_chk71 (v561 : BitVec 32) : Prop :=
  (∀ a, (k0_off142 v561) a + S1x10000.size a ≤ S10000x10000.size a) ∧
  (∀ a, (k0_off271 v561) a + S1x10000.size a ≤ S10000x10000.size a)
instance k0_chk71.dec : ∀ (v561 : BitVec 32), Decidable (k0_chk71 v561) := fun v561 => decidable_of_iff' _ (Iff.of_eq (k0_chk71.eq_1 v561))
theorem k0_off142_inb : ∀ (v561 : BitVec 32) (k0_hw71 : k0_chk71 v561), ∀ a, (k0_off142 v561) a + S1x10000.size a ≤ S10000x10000.size a := fun v561 k0_hw71 => k0_hw71.1
theorem k0_off271_inb : ∀ (v561 : BitVec 32) (k0_hw71 : k0_chk71 v561), ∀ a, (k0_off271 v561) a + S1x10000.size a ≤ S10000x10000.size a := fun v561 k0_hw71 => k0_hw71.2

def k0_off272 (v569 : BitVec 32) : Fin 2 → Nat :=
  let c0_i32_587 : BitVec 32 := 0#32
  ![v569.toNat, 0]

def k0_chk72 (v569 : BitVec 32) : Prop :=
  (∀ a, (k0_off144 v569) a + S1x10000.size a ≤ S10000x10000.size a) ∧
  (∀ a, (k0_off272 v569) a + S1x10000.size a ≤ S10000x10000.size a)
instance k0_chk72.dec : ∀ (v569 : BitVec 32), Decidable (k0_chk72 v569) := fun v569 => decidable_of_iff' _ (Iff.of_eq (k0_chk72.eq_1 v569))
theorem k0_off144_inb : ∀ (v569 : BitVec 32) (k0_hw72 : k0_chk72 v569), ∀ a, (k0_off144 v569) a + S1x10000.size a ≤ S10000x10000.size a := fun v569 k0_hw72 => k0_hw72.1
theorem k0_off272_inb : ∀ (v569 : BitVec 32) (k0_hw72 : k0_chk72 v569), ∀ a, (k0_off272 v569) a + S1x10000.size a ≤ S10000x10000.size a := fun v569 k0_hw72 => k0_hw72.2

def k0_off273 (v577 : BitVec 32) : Fin 2 → Nat :=
  let c0_i32_591 : BitVec 32 := 0#32
  ![v577.toNat, 0]

def k0_chk73 (v577 : BitVec 32) : Prop :=
  (∀ a, (k0_off146 v577) a + S1x10000.size a ≤ S10000x10000.size a) ∧
  (∀ a, (k0_off273 v577) a + S1x10000.size a ≤ S10000x10000.size a)
instance k0_chk73.dec : ∀ (v577 : BitVec 32), Decidable (k0_chk73 v577) := fun v577 => decidable_of_iff' _ (Iff.of_eq (k0_chk73.eq_1 v577))
theorem k0_off146_inb : ∀ (v577 : BitVec 32) (k0_hw73 : k0_chk73 v577), ∀ a, (k0_off146 v577) a + S1x10000.size a ≤ S10000x10000.size a := fun v577 k0_hw73 => k0_hw73.1
theorem k0_off273_inb : ∀ (v577 : BitVec 32) (k0_hw73 : k0_chk73 v577), ∀ a, (k0_off273 v577) a + S1x10000.size a ≤ S10000x10000.size a := fun v577 k0_hw73 => k0_hw73.2

def k0_off274 (v585 : BitVec 32) : Fin 2 → Nat :=
  let c0_i32_595 : BitVec 32 := 0#32
  ![v585.toNat, 0]

def k0_chk74 (v585 : BitVec 32) : Prop :=
  (∀ a, (k0_off148 v585) a + S1x10000.size a ≤ S10000x10000.size a) ∧
  (∀ a, (k0_off274 v585) a + S1x10000.size a ≤ S10000x10000.size a)
instance k0_chk74.dec : ∀ (v585 : BitVec 32), Decidable (k0_chk74 v585) := fun v585 => decidable_of_iff' _ (Iff.of_eq (k0_chk74.eq_1 v585))
theorem k0_off148_inb : ∀ (v585 : BitVec 32) (k0_hw74 : k0_chk74 v585), ∀ a, (k0_off148 v585) a + S1x10000.size a ≤ S10000x10000.size a := fun v585 k0_hw74 => k0_hw74.1
theorem k0_off274_inb : ∀ (v585 : BitVec 32) (k0_hw74 : k0_chk74 v585), ∀ a, (k0_off274 v585) a + S1x10000.size a ≤ S10000x10000.size a := fun v585 k0_hw74 => k0_hw74.2

def k0_off275 (v593 : BitVec 32) : Fin 2 → Nat :=
  let c0_i32_599 : BitVec 32 := 0#32
  ![v593.toNat, 0]

def k0_chk75 (v593 : BitVec 32) : Prop :=
  (∀ a, (k0_off150 v593) a + S1x10000.size a ≤ S10000x10000.size a) ∧
  (∀ a, (k0_off275 v593) a + S1x10000.size a ≤ S10000x10000.size a)
instance k0_chk75.dec : ∀ (v593 : BitVec 32), Decidable (k0_chk75 v593) := fun v593 => decidable_of_iff' _ (Iff.of_eq (k0_chk75.eq_1 v593))
theorem k0_off150_inb : ∀ (v593 : BitVec 32) (k0_hw75 : k0_chk75 v593), ∀ a, (k0_off150 v593) a + S1x10000.size a ≤ S10000x10000.size a := fun v593 k0_hw75 => k0_hw75.1
theorem k0_off275_inb : ∀ (v593 : BitVec 32) (k0_hw75 : k0_chk75 v593), ∀ a, (k0_off275 v593) a + S1x10000.size a ≤ S10000x10000.size a := fun v593 k0_hw75 => k0_hw75.2

def k0_off276 (v601 : BitVec 32) : Fin 2 → Nat :=
  let c0_i32_603 : BitVec 32 := 0#32
  ![v601.toNat, 0]

def k0_chk76 (v601 : BitVec 32) : Prop :=
  (∀ a, (k0_off152 v601) a + S1x10000.size a ≤ S10000x10000.size a) ∧
  (∀ a, (k0_off276 v601) a + S1x10000.size a ≤ S10000x10000.size a)
instance k0_chk76.dec : ∀ (v601 : BitVec 32), Decidable (k0_chk76 v601) := fun v601 => decidable_of_iff' _ (Iff.of_eq (k0_chk76.eq_1 v601))
theorem k0_off152_inb : ∀ (v601 : BitVec 32) (k0_hw76 : k0_chk76 v601), ∀ a, (k0_off152 v601) a + S1x10000.size a ≤ S10000x10000.size a := fun v601 k0_hw76 => k0_hw76.1
theorem k0_off276_inb : ∀ (v601 : BitVec 32) (k0_hw76 : k0_chk76 v601), ∀ a, (k0_off276 v601) a + S1x10000.size a ≤ S10000x10000.size a := fun v601 k0_hw76 => k0_hw76.2

def k0_off277 (v609 : BitVec 32) : Fin 2 → Nat :=
  let c0_i32_607 : BitVec 32 := 0#32
  ![v609.toNat, 0]

def k0_chk77 (v609 : BitVec 32) : Prop :=
  (∀ a, (k0_off154 v609) a + S1x10000.size a ≤ S10000x10000.size a) ∧
  (∀ a, (k0_off277 v609) a + S1x10000.size a ≤ S10000x10000.size a)
instance k0_chk77.dec : ∀ (v609 : BitVec 32), Decidable (k0_chk77 v609) := fun v609 => decidable_of_iff' _ (Iff.of_eq (k0_chk77.eq_1 v609))
theorem k0_off154_inb : ∀ (v609 : BitVec 32) (k0_hw77 : k0_chk77 v609), ∀ a, (k0_off154 v609) a + S1x10000.size a ≤ S10000x10000.size a := fun v609 k0_hw77 => k0_hw77.1
theorem k0_off277_inb : ∀ (v609 : BitVec 32) (k0_hw77 : k0_chk77 v609), ∀ a, (k0_off277 v609) a + S1x10000.size a ≤ S10000x10000.size a := fun v609 k0_hw77 => k0_hw77.2

def k0_off278 (v617 : BitVec 32) : Fin 2 → Nat :=
  let c0_i32_611 : BitVec 32 := 0#32
  ![v617.toNat, 0]

def k0_chk78 (v617 : BitVec 32) : Prop :=
  (∀ a, (k0_off156 v617) a + S1x10000.size a ≤ S10000x10000.size a) ∧
  (∀ a, (k0_off278 v617) a + S1x10000.size a ≤ S10000x10000.size a)
instance k0_chk78.dec : ∀ (v617 : BitVec 32), Decidable (k0_chk78 v617) := fun v617 => decidable_of_iff' _ (Iff.of_eq (k0_chk78.eq_1 v617))
theorem k0_off156_inb : ∀ (v617 : BitVec 32) (k0_hw78 : k0_chk78 v617), ∀ a, (k0_off156 v617) a + S1x10000.size a ≤ S10000x10000.size a := fun v617 k0_hw78 => k0_hw78.1
theorem k0_off278_inb : ∀ (v617 : BitVec 32) (k0_hw78 : k0_chk78 v617), ∀ a, (k0_off278 v617) a + S1x10000.size a ≤ S10000x10000.size a := fun v617 k0_hw78 => k0_hw78.2

def k0_off279 (v625 : BitVec 32) : Fin 2 → Nat :=
  let c0_i32_615 : BitVec 32 := 0#32
  ![v625.toNat, 0]

def k0_chk79 (v625 : BitVec 32) : Prop :=
  (∀ a, (k0_off158 v625) a + S1x10000.size a ≤ S10000x10000.size a) ∧
  (∀ a, (k0_off279 v625) a + S1x10000.size a ≤ S10000x10000.size a)
instance k0_chk79.dec : ∀ (v625 : BitVec 32), Decidable (k0_chk79 v625) := fun v625 => decidable_of_iff' _ (Iff.of_eq (k0_chk79.eq_1 v625))
theorem k0_off158_inb : ∀ (v625 : BitVec 32) (k0_hw79 : k0_chk79 v625), ∀ a, (k0_off158 v625) a + S1x10000.size a ≤ S10000x10000.size a := fun v625 k0_hw79 => k0_hw79.1
theorem k0_off279_inb : ∀ (v625 : BitVec 32) (k0_hw79 : k0_chk79 v625), ∀ a, (k0_off279 v625) a + S1x10000.size a ≤ S10000x10000.size a := fun v625 k0_hw79 => k0_hw79.2

def k0_off280 (v633 : BitVec 32) : Fin 2 → Nat :=
  let c0_i32_619 : BitVec 32 := 0#32
  ![v633.toNat, 0]

def k0_chk80 (v633 : BitVec 32) : Prop :=
  (∀ a, (k0_off160 v633) a + S1x10000.size a ≤ S10000x10000.size a) ∧
  (∀ a, (k0_off280 v633) a + S1x10000.size a ≤ S10000x10000.size a)
instance k0_chk80.dec : ∀ (v633 : BitVec 32), Decidable (k0_chk80 v633) := fun v633 => decidable_of_iff' _ (Iff.of_eq (k0_chk80.eq_1 v633))
theorem k0_off160_inb : ∀ (v633 : BitVec 32) (k0_hw80 : k0_chk80 v633), ∀ a, (k0_off160 v633) a + S1x10000.size a ≤ S10000x10000.size a := fun v633 k0_hw80 => k0_hw80.1
theorem k0_off280_inb : ∀ (v633 : BitVec 32) (k0_hw80 : k0_chk80 v633), ∀ a, (k0_off280 v633) a + S1x10000.size a ≤ S10000x10000.size a := fun v633 k0_hw80 => k0_hw80.2

def k0_off281 (v641 : BitVec 32) : Fin 2 → Nat :=
  let c0_i32_623 : BitVec 32 := 0#32
  ![v641.toNat, 0]

def k0_chk81 (v641 : BitVec 32) : Prop :=
  (∀ a, (k0_off162 v641) a + S1x10000.size a ≤ S10000x10000.size a) ∧
  (∀ a, (k0_off281 v641) a + S1x10000.size a ≤ S10000x10000.size a)
instance k0_chk81.dec : ∀ (v641 : BitVec 32), Decidable (k0_chk81 v641) := fun v641 => decidable_of_iff' _ (Iff.of_eq (k0_chk81.eq_1 v641))
theorem k0_off162_inb : ∀ (v641 : BitVec 32) (k0_hw81 : k0_chk81 v641), ∀ a, (k0_off162 v641) a + S1x10000.size a ≤ S10000x10000.size a := fun v641 k0_hw81 => k0_hw81.1
theorem k0_off281_inb : ∀ (v641 : BitVec 32) (k0_hw81 : k0_chk81 v641), ∀ a, (k0_off281 v641) a + S1x10000.size a ≤ S10000x10000.size a := fun v641 k0_hw81 => k0_hw81.2

def k0_off282 (v649 : BitVec 32) : Fin 2 → Nat :=
  let c0_i32_627 : BitVec 32 := 0#32
  ![v649.toNat, 0]

def k0_chk82 (v649 : BitVec 32) : Prop :=
  (∀ a, (k0_off164 v649) a + S1x10000.size a ≤ S10000x10000.size a) ∧
  (∀ a, (k0_off282 v649) a + S1x10000.size a ≤ S10000x10000.size a)
instance k0_chk82.dec : ∀ (v649 : BitVec 32), Decidable (k0_chk82 v649) := fun v649 => decidable_of_iff' _ (Iff.of_eq (k0_chk82.eq_1 v649))
theorem k0_off164_inb : ∀ (v649 : BitVec 32) (k0_hw82 : k0_chk82 v649), ∀ a, (k0_off164 v649) a + S1x10000.size a ≤ S10000x10000.size a := fun v649 k0_hw82 => k0_hw82.1
theorem k0_off282_inb : ∀ (v649 : BitVec 32) (k0_hw82 : k0_chk82 v649), ∀ a, (k0_off282 v649) a + S1x10000.size a ≤ S10000x10000.size a := fun v649 k0_hw82 => k0_hw82.2

def k0_off283 (v657 : BitVec 32) : Fin 2 → Nat :=
  let c0_i32_631 : BitVec 32 := 0#32
  ![v657.toNat, 0]

def k0_chk83 (v657 : BitVec 32) : Prop :=
  (∀ a, (k0_off166 v657) a + S1x10000.size a ≤ S10000x10000.size a) ∧
  (∀ a, (k0_off283 v657) a + S1x10000.size a ≤ S10000x10000.size a)
instance k0_chk83.dec : ∀ (v657 : BitVec 32), Decidable (k0_chk83 v657) := fun v657 => decidable_of_iff' _ (Iff.of_eq (k0_chk83.eq_1 v657))
theorem k0_off166_inb : ∀ (v657 : BitVec 32) (k0_hw83 : k0_chk83 v657), ∀ a, (k0_off166 v657) a + S1x10000.size a ≤ S10000x10000.size a := fun v657 k0_hw83 => k0_hw83.1
theorem k0_off283_inb : ∀ (v657 : BitVec 32) (k0_hw83 : k0_chk83 v657), ∀ a, (k0_off283 v657) a + S1x10000.size a ≤ S10000x10000.size a := fun v657 k0_hw83 => k0_hw83.2

def k0_off284 (v665 : BitVec 32) : Fin 2 → Nat :=
  let c0_i32_635 : BitVec 32 := 0#32
  ![v665.toNat, 0]

def k0_chk84 (v665 : BitVec 32) : Prop :=
  (∀ a, (k0_off168 v665) a + S1x10000.size a ≤ S10000x10000.size a) ∧
  (∀ a, (k0_off284 v665) a + S1x10000.size a ≤ S10000x10000.size a)
instance k0_chk84.dec : ∀ (v665 : BitVec 32), Decidable (k0_chk84 v665) := fun v665 => decidable_of_iff' _ (Iff.of_eq (k0_chk84.eq_1 v665))
theorem k0_off168_inb : ∀ (v665 : BitVec 32) (k0_hw84 : k0_chk84 v665), ∀ a, (k0_off168 v665) a + S1x10000.size a ≤ S10000x10000.size a := fun v665 k0_hw84 => k0_hw84.1
theorem k0_off284_inb : ∀ (v665 : BitVec 32) (k0_hw84 : k0_chk84 v665), ∀ a, (k0_off284 v665) a + S1x10000.size a ≤ S10000x10000.size a := fun v665 k0_hw84 => k0_hw84.2

def k0_off285 (v673 : BitVec 32) : Fin 2 → Nat :=
  let c0_i32_639 : BitVec 32 := 0#32
  ![v673.toNat, 0]

def k0_chk85 (v673 : BitVec 32) : Prop :=
  (∀ a, (k0_off170 v673) a + S1x10000.size a ≤ S10000x10000.size a) ∧
  (∀ a, (k0_off285 v673) a + S1x10000.size a ≤ S10000x10000.size a)
instance k0_chk85.dec : ∀ (v673 : BitVec 32), Decidable (k0_chk85 v673) := fun v673 => decidable_of_iff' _ (Iff.of_eq (k0_chk85.eq_1 v673))
theorem k0_off170_inb : ∀ (v673 : BitVec 32) (k0_hw85 : k0_chk85 v673), ∀ a, (k0_off170 v673) a + S1x10000.size a ≤ S10000x10000.size a := fun v673 k0_hw85 => k0_hw85.1
theorem k0_off285_inb : ∀ (v673 : BitVec 32) (k0_hw85 : k0_chk85 v673), ∀ a, (k0_off285 v673) a + S1x10000.size a ≤ S10000x10000.size a := fun v673 k0_hw85 => k0_hw85.2

def k0_off286 (v681 : BitVec 32) : Fin 2 → Nat :=
  let c0_i32_643 : BitVec 32 := 0#32
  ![v681.toNat, 0]

def k0_chk86 (v681 : BitVec 32) : Prop :=
  (∀ a, (k0_off172 v681) a + S1x10000.size a ≤ S10000x10000.size a) ∧
  (∀ a, (k0_off286 v681) a + S1x10000.size a ≤ S10000x10000.size a)
instance k0_chk86.dec : ∀ (v681 : BitVec 32), Decidable (k0_chk86 v681) := fun v681 => decidable_of_iff' _ (Iff.of_eq (k0_chk86.eq_1 v681))
theorem k0_off172_inb : ∀ (v681 : BitVec 32) (k0_hw86 : k0_chk86 v681), ∀ a, (k0_off172 v681) a + S1x10000.size a ≤ S10000x10000.size a := fun v681 k0_hw86 => k0_hw86.1
theorem k0_off286_inb : ∀ (v681 : BitVec 32) (k0_hw86 : k0_chk86 v681), ∀ a, (k0_off286 v681) a + S1x10000.size a ≤ S10000x10000.size a := fun v681 k0_hw86 => k0_hw86.2

def k0_off287 (v689 : BitVec 32) : Fin 2 → Nat :=
  let c0_i32_647 : BitVec 32 := 0#32
  ![v689.toNat, 0]

def k0_chk87 (v689 : BitVec 32) : Prop :=
  (∀ a, (k0_off174 v689) a + S1x10000.size a ≤ S10000x10000.size a) ∧
  (∀ a, (k0_off287 v689) a + S1x10000.size a ≤ S10000x10000.size a)
instance k0_chk87.dec : ∀ (v689 : BitVec 32), Decidable (k0_chk87 v689) := fun v689 => decidable_of_iff' _ (Iff.of_eq (k0_chk87.eq_1 v689))
theorem k0_off174_inb : ∀ (v689 : BitVec 32) (k0_hw87 : k0_chk87 v689), ∀ a, (k0_off174 v689) a + S1x10000.size a ≤ S10000x10000.size a := fun v689 k0_hw87 => k0_hw87.1
theorem k0_off287_inb : ∀ (v689 : BitVec 32) (k0_hw87 : k0_chk87 v689), ∀ a, (k0_off287 v689) a + S1x10000.size a ≤ S10000x10000.size a := fun v689 k0_hw87 => k0_hw87.2

def k0_off288 (v697 : BitVec 32) : Fin 2 → Nat :=
  let c0_i32_651 : BitVec 32 := 0#32
  ![v697.toNat, 0]

def k0_chk88 (v697 : BitVec 32) : Prop :=
  (∀ a, (k0_off176 v697) a + S1x10000.size a ≤ S10000x10000.size a) ∧
  (∀ a, (k0_off288 v697) a + S1x10000.size a ≤ S10000x10000.size a)
instance k0_chk88.dec : ∀ (v697 : BitVec 32), Decidable (k0_chk88 v697) := fun v697 => decidable_of_iff' _ (Iff.of_eq (k0_chk88.eq_1 v697))
theorem k0_off176_inb : ∀ (v697 : BitVec 32) (k0_hw88 : k0_chk88 v697), ∀ a, (k0_off176 v697) a + S1x10000.size a ≤ S10000x10000.size a := fun v697 k0_hw88 => k0_hw88.1
theorem k0_off288_inb : ∀ (v697 : BitVec 32) (k0_hw88 : k0_chk88 v697), ∀ a, (k0_off288 v697) a + S1x10000.size a ≤ S10000x10000.size a := fun v697 k0_hw88 => k0_hw88.2

def k0_off289 (v705 : BitVec 32) : Fin 2 → Nat :=
  let c0_i32_655 : BitVec 32 := 0#32
  ![v705.toNat, 0]

def k0_chk89 (v705 : BitVec 32) : Prop :=
  (∀ a, (k0_off178 v705) a + S1x10000.size a ≤ S10000x10000.size a) ∧
  (∀ a, (k0_off289 v705) a + S1x10000.size a ≤ S10000x10000.size a)
instance k0_chk89.dec : ∀ (v705 : BitVec 32), Decidable (k0_chk89 v705) := fun v705 => decidable_of_iff' _ (Iff.of_eq (k0_chk89.eq_1 v705))
theorem k0_off178_inb : ∀ (v705 : BitVec 32) (k0_hw89 : k0_chk89 v705), ∀ a, (k0_off178 v705) a + S1x10000.size a ≤ S10000x10000.size a := fun v705 k0_hw89 => k0_hw89.1
theorem k0_off289_inb : ∀ (v705 : BitVec 32) (k0_hw89 : k0_chk89 v705), ∀ a, (k0_off289 v705) a + S1x10000.size a ≤ S10000x10000.size a := fun v705 k0_hw89 => k0_hw89.2

def k0_off290 (v713 : BitVec 32) : Fin 2 → Nat :=
  let c0_i32_659 : BitVec 32 := 0#32
  ![v713.toNat, 0]

def k0_chk90 (v713 : BitVec 32) : Prop :=
  (∀ a, (k0_off180 v713) a + S1x10000.size a ≤ S10000x10000.size a) ∧
  (∀ a, (k0_off290 v713) a + S1x10000.size a ≤ S10000x10000.size a)
instance k0_chk90.dec : ∀ (v713 : BitVec 32), Decidable (k0_chk90 v713) := fun v713 => decidable_of_iff' _ (Iff.of_eq (k0_chk90.eq_1 v713))
theorem k0_off180_inb : ∀ (v713 : BitVec 32) (k0_hw90 : k0_chk90 v713), ∀ a, (k0_off180 v713) a + S1x10000.size a ≤ S10000x10000.size a := fun v713 k0_hw90 => k0_hw90.1
theorem k0_off290_inb : ∀ (v713 : BitVec 32) (k0_hw90 : k0_chk90 v713), ∀ a, (k0_off290 v713) a + S1x10000.size a ≤ S10000x10000.size a := fun v713 k0_hw90 => k0_hw90.2

def k0_off291 (v721 : BitVec 32) : Fin 2 → Nat :=
  let c0_i32_663 : BitVec 32 := 0#32
  ![v721.toNat, 0]

def k0_chk91 (v721 : BitVec 32) : Prop :=
  (∀ a, (k0_off182 v721) a + S1x10000.size a ≤ S10000x10000.size a) ∧
  (∀ a, (k0_off291 v721) a + S1x10000.size a ≤ S10000x10000.size a)
instance k0_chk91.dec : ∀ (v721 : BitVec 32), Decidable (k0_chk91 v721) := fun v721 => decidable_of_iff' _ (Iff.of_eq (k0_chk91.eq_1 v721))
theorem k0_off182_inb : ∀ (v721 : BitVec 32) (k0_hw91 : k0_chk91 v721), ∀ a, (k0_off182 v721) a + S1x10000.size a ≤ S10000x10000.size a := fun v721 k0_hw91 => k0_hw91.1
theorem k0_off291_inb : ∀ (v721 : BitVec 32) (k0_hw91 : k0_chk91 v721), ∀ a, (k0_off291 v721) a + S1x10000.size a ≤ S10000x10000.size a := fun v721 k0_hw91 => k0_hw91.2

def k0_off292 (v729 : BitVec 32) : Fin 2 → Nat :=
  let c0_i32_667 : BitVec 32 := 0#32
  ![v729.toNat, 0]

def k0_chk92 (v729 : BitVec 32) : Prop :=
  (∀ a, (k0_off184 v729) a + S1x10000.size a ≤ S10000x10000.size a) ∧
  (∀ a, (k0_off292 v729) a + S1x10000.size a ≤ S10000x10000.size a)
instance k0_chk92.dec : ∀ (v729 : BitVec 32), Decidable (k0_chk92 v729) := fun v729 => decidable_of_iff' _ (Iff.of_eq (k0_chk92.eq_1 v729))
theorem k0_off184_inb : ∀ (v729 : BitVec 32) (k0_hw92 : k0_chk92 v729), ∀ a, (k0_off184 v729) a + S1x10000.size a ≤ S10000x10000.size a := fun v729 k0_hw92 => k0_hw92.1
theorem k0_off292_inb : ∀ (v729 : BitVec 32) (k0_hw92 : k0_chk92 v729), ∀ a, (k0_off292 v729) a + S1x10000.size a ≤ S10000x10000.size a := fun v729 k0_hw92 => k0_hw92.2

def k0_off293 (v737 : BitVec 32) : Fin 2 → Nat :=
  let c0_i32_671 : BitVec 32 := 0#32
  ![v737.toNat, 0]

def k0_chk93 (v737 : BitVec 32) : Prop :=
  (∀ a, (k0_off186 v737) a + S1x10000.size a ≤ S10000x10000.size a) ∧
  (∀ a, (k0_off293 v737) a + S1x10000.size a ≤ S10000x10000.size a)
instance k0_chk93.dec : ∀ (v737 : BitVec 32), Decidable (k0_chk93 v737) := fun v737 => decidable_of_iff' _ (Iff.of_eq (k0_chk93.eq_1 v737))
theorem k0_off186_inb : ∀ (v737 : BitVec 32) (k0_hw93 : k0_chk93 v737), ∀ a, (k0_off186 v737) a + S1x10000.size a ≤ S10000x10000.size a := fun v737 k0_hw93 => k0_hw93.1
theorem k0_off293_inb : ∀ (v737 : BitVec 32) (k0_hw93 : k0_chk93 v737), ∀ a, (k0_off293 v737) a + S1x10000.size a ≤ S10000x10000.size a := fun v737 k0_hw93 => k0_hw93.2

def k0_off294 (v745 : BitVec 32) : Fin 2 → Nat :=
  let c0_i32_675 : BitVec 32 := 0#32
  ![v745.toNat, 0]

def k0_chk94 (v745 : BitVec 32) : Prop :=
  (∀ a, (k0_off188 v745) a + S1x10000.size a ≤ S10000x10000.size a) ∧
  (∀ a, (k0_off294 v745) a + S1x10000.size a ≤ S10000x10000.size a)
instance k0_chk94.dec : ∀ (v745 : BitVec 32), Decidable (k0_chk94 v745) := fun v745 => decidable_of_iff' _ (Iff.of_eq (k0_chk94.eq_1 v745))
theorem k0_off188_inb : ∀ (v745 : BitVec 32) (k0_hw94 : k0_chk94 v745), ∀ a, (k0_off188 v745) a + S1x10000.size a ≤ S10000x10000.size a := fun v745 k0_hw94 => k0_hw94.1
theorem k0_off294_inb : ∀ (v745 : BitVec 32) (k0_hw94 : k0_chk94 v745), ∀ a, (k0_off294 v745) a + S1x10000.size a ≤ S10000x10000.size a := fun v745 k0_hw94 => k0_hw94.2

def k0_off295 (v753 : BitVec 32) : Fin 2 → Nat :=
  let c0_i32_679 : BitVec 32 := 0#32
  ![v753.toNat, 0]

def k0_chk95 (v753 : BitVec 32) : Prop :=
  (∀ a, (k0_off190 v753) a + S1x10000.size a ≤ S10000x10000.size a) ∧
  (∀ a, (k0_off295 v753) a + S1x10000.size a ≤ S10000x10000.size a)
instance k0_chk95.dec : ∀ (v753 : BitVec 32), Decidable (k0_chk95 v753) := fun v753 => decidable_of_iff' _ (Iff.of_eq (k0_chk95.eq_1 v753))
theorem k0_off190_inb : ∀ (v753 : BitVec 32) (k0_hw95 : k0_chk95 v753), ∀ a, (k0_off190 v753) a + S1x10000.size a ≤ S10000x10000.size a := fun v753 k0_hw95 => k0_hw95.1
theorem k0_off295_inb : ∀ (v753 : BitVec 32) (k0_hw95 : k0_chk95 v753), ∀ a, (k0_off295 v753) a + S1x10000.size a ≤ S10000x10000.size a := fun v753 k0_hw95 => k0_hw95.2

def k0_off296 (v761 : BitVec 32) : Fin 2 → Nat :=
  let c0_i32_683 : BitVec 32 := 0#32
  ![v761.toNat, 0]

def k0_chk96 (v761 : BitVec 32) : Prop :=
  (∀ a, (k0_off192 v761) a + S1x10000.size a ≤ S10000x10000.size a) ∧
  (∀ a, (k0_off296 v761) a + S1x10000.size a ≤ S10000x10000.size a)
instance k0_chk96.dec : ∀ (v761 : BitVec 32), Decidable (k0_chk96 v761) := fun v761 => decidable_of_iff' _ (Iff.of_eq (k0_chk96.eq_1 v761))
theorem k0_off192_inb : ∀ (v761 : BitVec 32) (k0_hw96 : k0_chk96 v761), ∀ a, (k0_off192 v761) a + S1x10000.size a ≤ S10000x10000.size a := fun v761 k0_hw96 => k0_hw96.1
theorem k0_off296_inb : ∀ (v761 : BitVec 32) (k0_hw96 : k0_chk96 v761), ∀ a, (k0_off296 v761) a + S1x10000.size a ≤ S10000x10000.size a := fun v761 k0_hw96 => k0_hw96.2

def k0_off297 (v769 : BitVec 32) : Fin 2 → Nat :=
  let c0_i32_687 : BitVec 32 := 0#32
  ![v769.toNat, 0]

def k0_chk97 (v769 : BitVec 32) : Prop :=
  (∀ a, (k0_off194 v769) a + S1x10000.size a ≤ S10000x10000.size a) ∧
  (∀ a, (k0_off297 v769) a + S1x10000.size a ≤ S10000x10000.size a)
instance k0_chk97.dec : ∀ (v769 : BitVec 32), Decidable (k0_chk97 v769) := fun v769 => decidable_of_iff' _ (Iff.of_eq (k0_chk97.eq_1 v769))
theorem k0_off194_inb : ∀ (v769 : BitVec 32) (k0_hw97 : k0_chk97 v769), ∀ a, (k0_off194 v769) a + S1x10000.size a ≤ S10000x10000.size a := fun v769 k0_hw97 => k0_hw97.1
theorem k0_off297_inb : ∀ (v769 : BitVec 32) (k0_hw97 : k0_chk97 v769), ∀ a, (k0_off297 v769) a + S1x10000.size a ≤ S10000x10000.size a := fun v769 k0_hw97 => k0_hw97.2

def k0_off298 (v777 : BitVec 32) : Fin 2 → Nat :=
  let c0_i32_691 : BitVec 32 := 0#32
  ![v777.toNat, 0]

def k0_chk98 (v777 : BitVec 32) : Prop :=
  (∀ a, (k0_off196 v777) a + S1x10000.size a ≤ S10000x10000.size a) ∧
  (∀ a, (k0_off298 v777) a + S1x10000.size a ≤ S10000x10000.size a)
instance k0_chk98.dec : ∀ (v777 : BitVec 32), Decidable (k0_chk98 v777) := fun v777 => decidable_of_iff' _ (Iff.of_eq (k0_chk98.eq_1 v777))
theorem k0_off196_inb : ∀ (v777 : BitVec 32) (k0_hw98 : k0_chk98 v777), ∀ a, (k0_off196 v777) a + S1x10000.size a ≤ S10000x10000.size a := fun v777 k0_hw98 => k0_hw98.1
theorem k0_off298_inb : ∀ (v777 : BitVec 32) (k0_hw98 : k0_chk98 v777), ∀ a, (k0_off298 v777) a + S1x10000.size a ≤ S10000x10000.size a := fun v777 k0_hw98 => k0_hw98.2

def k0_off299 (v785 : BitVec 32) : Fin 2 → Nat :=
  let c0_i32_695 : BitVec 32 := 0#32
  ![v785.toNat, 0]

def k0_chk99 (v785 : BitVec 32) : Prop :=
  (∀ a, (k0_off198 v785) a + S1x10000.size a ≤ S10000x10000.size a) ∧
  (∀ a, (k0_off299 v785) a + S1x10000.size a ≤ S10000x10000.size a)
instance k0_chk99.dec : ∀ (v785 : BitVec 32), Decidable (k0_chk99 v785) := fun v785 => decidable_of_iff' _ (Iff.of_eq (k0_chk99.eq_1 v785))
theorem k0_off198_inb : ∀ (v785 : BitVec 32) (k0_hw99 : k0_chk99 v785), ∀ a, (k0_off198 v785) a + S1x10000.size a ≤ S10000x10000.size a := fun v785 k0_hw99 => k0_hw99.1
theorem k0_off299_inb : ∀ (v785 : BitVec 32) (k0_hw99 : k0_chk99 v785), ∀ a, (k0_off299 v785) a + S1x10000.size a ≤ S10000x10000.size a := fun v785 k0_hw99 => k0_hw99.2

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  bcast_S_S64x100 : S_.BroadcastsInDim S64x100 (![] : Fin 0 → Fin S64x100.rank)
  bcast_S64x100_S64x100x1_0_1 : S64x100.BroadcastsInDim S64x100x1 (![0, 1] : Fin 2 → Fin S64x100x1.rank)
  numel1_S1x1 : S1x1.numel = 1
  inb_S100_S1_0 : ∀ a, (![0] : Fin 1 → Nat) a + S1.size a ≤ S100.size a
  squeezes_S1_S_ : S1.Squeezes S_
  inb_S100x10000_S1x10000_0_0 : ∀ a, (![0, 0] : Fin 2 → Nat) a + S1x10000.size a ≤ S100x10000.size a
  squeezes_S1x10000_S10000 : S1x10000.Squeezes S10000
  inb_S100_S1_1 : ∀ a, (![1] : Fin 1 → Nat) a + S1.size a ≤ S100.size a
  inb_S100x10000_S1x10000_1_0 : ∀ a, (![1, 0] : Fin 2 → Nat) a + S1x10000.size a ≤ S100x10000.size a
  inb_S100_S1_2 : ∀ a, (![2] : Fin 1 → Nat) a + S1.size a ≤ S100.size a
  inb_S100x10000_S1x10000_2_0 : ∀ a, (![2, 0] : Fin 2 → Nat) a + S1x10000.size a ≤ S100x10000.size a
  inb_S100_S1_3 : ∀ a, (![3] : Fin 1 → Nat) a + S1.size a ≤ S100.size a
  inb_S100x10000_S1x10000_3_0 : ∀ a, (![3, 0] : Fin 2 → Nat) a + S1x10000.size a ≤ S100x10000.size a
  inb_S100_S1_4 : ∀ a, (![4] : Fin 1 → Nat) a + S1.size a ≤ S100.size a
  inb_S100x10000_S1x10000_4_0 : ∀ a, (![4, 0] : Fin 2 → Nat) a + S1x10000.size a ≤ S100x10000.size a
  inb_S100_S1_5 : ∀ a, (![5] : Fin 1 → Nat) a + S1.size a ≤ S100.size a
  inb_S100x10000_S1x10000_5_0 : ∀ a, (![5, 0] : Fin 2 → Nat) a + S1x10000.size a ≤ S100x10000.size a
  inb_S100_S1_6 : ∀ a, (![6] : Fin 1 → Nat) a + S1.size a ≤ S100.size a
  inb_S100x10000_S1x10000_6_0 : ∀ a, (![6, 0] : Fin 2 → Nat) a + S1x10000.size a ≤ S100x10000.size a
  inb_S100_S1_7 : ∀ a, (![7] : Fin 1 → Nat) a + S1.size a ≤ S100.size a
  inb_S100x10000_S1x10000_7_0 : ∀ a, (![7, 0] : Fin 2 → Nat) a + S1x10000.size a ≤ S100x10000.size a
  inb_S100_S1_8 : ∀ a, (![8] : Fin 1 → Nat) a + S1.size a ≤ S100.size a
  inb_S100x10000_S1x10000_8_0 : ∀ a, (![8, 0] : Fin 2 → Nat) a + S1x10000.size a ≤ S100x10000.size a
  inb_S100_S1_9 : ∀ a, (![9] : Fin 1 → Nat) a + S1.size a ≤ S100.size a
  inb_S100x10000_S1x10000_9_0 : ∀ a, (![9, 0] : Fin 2 → Nat) a + S1x10000.size a ≤ S100x10000.size a
  inb_S100_S1_10 : ∀ a, (![10] : Fin 1 → Nat) a + S1.size a ≤ S100.size a
  inb_S100x10000_S1x10000_10_0 : ∀ a, (![10, 0] : Fin 2 → Nat) a + S1x10000.size a ≤ S100x10000.size a
  inb_S100_S1_11 : ∀ a, (![11] : Fin 1 → Nat) a + S1.size a ≤ S100.size a
  inb_S100x10000_S1x10000_11_0 : ∀ a, (![11, 0] : Fin 2 → Nat) a + S1x10000.size a ≤ S100x10000.size a
  inb_S100_S1_12 : ∀ a, (![12] : Fin 1 → Nat) a + S1.size a ≤ S100.size a
  inb_S100x10000_S1x10000_12_0 : ∀ a, (![12, 0] : Fin 2 → Nat) a + S1x10000.size a ≤ S100x10000.size a
  inb_S100_S1_13 : ∀ a, (![13] : Fin 1 → Nat) a + S1.size a ≤ S100.size a
  inb_S100x10000_S1x10000_13_0 : ∀ a, (![13, 0] : Fin 2 → Nat) a + S1x10000.size a ≤ S100x10000.size a
  inb_S100_S1_14 : ∀ a, (![14] : Fin 1 → Nat) a + S1.size a ≤ S100.size a
  inb_S100x10000_S1x10000_14_0 : ∀ a, (![14, 0] : Fin 2 → Nat) a + S1x10000.size a ≤ S100x10000.size a
  inb_S100_S1_15 : ∀ a, (![15] : Fin 1 → Nat) a + S1.size a ≤ S100.size a
  inb_S100x10000_S1x10000_15_0 : ∀ a, (![15, 0] : Fin 2 → Nat) a + S1x10000.size a ≤ S100x10000.size a
  inb_S100_S1_16 : ∀ a, (![16] : Fin 1 → Nat) a + S1.size a ≤ S100.size a
  inb_S100x10000_S1x10000_16_0 : ∀ a, (![16, 0] : Fin 2 → Nat) a + S1x10000.size a ≤ S100x10000.size a
  inb_S100_S1_17 : ∀ a, (![17] : Fin 1 → Nat) a + S1.size a ≤ S100.size a
  inb_S100x10000_S1x10000_17_0 : ∀ a, (![17, 0] : Fin 2 → Nat) a + S1x10000.size a ≤ S100x10000.size a
  inb_S100_S1_18 : ∀ a, (![18] : Fin 1 → Nat) a + S1.size a ≤ S100.size a
  inb_S100x10000_S1x10000_18_0 : ∀ a, (![18, 0] : Fin 2 → Nat) a + S1x10000.size a ≤ S100x10000.size a
  inb_S100_S1_19 : ∀ a, (![19] : Fin 1 → Nat) a + S1.size a ≤ S100.size a
  inb_S100x10000_S1x10000_19_0 : ∀ a, (![19, 0] : Fin 2 → Nat) a + S1x10000.size a ≤ S100x10000.size a
  inb_S100_S1_20 : ∀ a, (![20] : Fin 1 → Nat) a + S1.size a ≤ S100.size a
  inb_S100x10000_S1x10000_20_0 : ∀ a, (![20, 0] : Fin 2 → Nat) a + S1x10000.size a ≤ S100x10000.size a
  inb_S100_S1_21 : ∀ a, (![21] : Fin 1 → Nat) a + S1.size a ≤ S100.size a
  inb_S100x10000_S1x10000_21_0 : ∀ a, (![21, 0] : Fin 2 → Nat) a + S1x10000.size a ≤ S100x10000.size a
  inb_S100_S1_22 : ∀ a, (![22] : Fin 1 → Nat) a + S1.size a ≤ S100.size a
  inb_S100x10000_S1x10000_22_0 : ∀ a, (![22, 0] : Fin 2 → Nat) a + S1x10000.size a ≤ S100x10000.size a
  inb_S100_S1_23 : ∀ a, (![23] : Fin 1 → Nat) a + S1.size a ≤ S100.size a
  inb_S100x10000_S1x10000_23_0 : ∀ a, (![23, 0] : Fin 2 → Nat) a + S1x10000.size a ≤ S100x10000.size a
  inb_S100_S1_24 : ∀ a, (![24] : Fin 1 → Nat) a + S1.size a ≤ S100.size a
  inb_S100x10000_S1x10000_24_0 : ∀ a, (![24, 0] : Fin 2 → Nat) a + S1x10000.size a ≤ S100x10000.size a
  inb_S100_S1_25 : ∀ a, (![25] : Fin 1 → Nat) a + S1.size a ≤ S100.size a
  inb_S100x10000_S1x10000_25_0 : ∀ a, (![25, 0] : Fin 2 → Nat) a + S1x10000.size a ≤ S100x10000.size a
  inb_S100_S1_26 : ∀ a, (![26] : Fin 1 → Nat) a + S1.size a ≤ S100.size a
  inb_S100x10000_S1x10000_26_0 : ∀ a, (![26, 0] : Fin 2 → Nat) a + S1x10000.size a ≤ S100x10000.size a
  inb_S100_S1_27 : ∀ a, (![27] : Fin 1 → Nat) a + S1.size a ≤ S100.size a
  inb_S100x10000_S1x10000_27_0 : ∀ a, (![27, 0] : Fin 2 → Nat) a + S1x10000.size a ≤ S100x10000.size a
  inb_S100_S1_28 : ∀ a, (![28] : Fin 1 → Nat) a + S1.size a ≤ S100.size a
  inb_S100x10000_S1x10000_28_0 : ∀ a, (![28, 0] : Fin 2 → Nat) a + S1x10000.size a ≤ S100x10000.size a
  inb_S100_S1_29 : ∀ a, (![29] : Fin 1 → Nat) a + S1.size a ≤ S100.size a
  inb_S100x10000_S1x10000_29_0 : ∀ a, (![29, 0] : Fin 2 → Nat) a + S1x10000.size a ≤ S100x10000.size a
  inb_S100_S1_30 : ∀ a, (![30] : Fin 1 → Nat) a + S1.size a ≤ S100.size a
  inb_S100x10000_S1x10000_30_0 : ∀ a, (![30, 0] : Fin 2 → Nat) a + S1x10000.size a ≤ S100x10000.size a
  inb_S100_S1_31 : ∀ a, (![31] : Fin 1 → Nat) a + S1.size a ≤ S100.size a
  inb_S100x10000_S1x10000_31_0 : ∀ a, (![31, 0] : Fin 2 → Nat) a + S1x10000.size a ≤ S100x10000.size a
  inb_S100_S1_32 : ∀ a, (![32] : Fin 1 → Nat) a + S1.size a ≤ S100.size a
  inb_S100x10000_S1x10000_32_0 : ∀ a, (![32, 0] : Fin 2 → Nat) a + S1x10000.size a ≤ S100x10000.size a
  inb_S100_S1_33 : ∀ a, (![33] : Fin 1 → Nat) a + S1.size a ≤ S100.size a
  inb_S100x10000_S1x10000_33_0 : ∀ a, (![33, 0] : Fin 2 → Nat) a + S1x10000.size a ≤ S100x10000.size a
  inb_S100_S1_34 : ∀ a, (![34] : Fin 1 → Nat) a + S1.size a ≤ S100.size a
  inb_S100x10000_S1x10000_34_0 : ∀ a, (![34, 0] : Fin 2 → Nat) a + S1x10000.size a ≤ S100x10000.size a
  inb_S100_S1_35 : ∀ a, (![35] : Fin 1 → Nat) a + S1.size a ≤ S100.size a
  inb_S100x10000_S1x10000_35_0 : ∀ a, (![35, 0] : Fin 2 → Nat) a + S1x10000.size a ≤ S100x10000.size a
  inb_S100_S1_36 : ∀ a, (![36] : Fin 1 → Nat) a + S1.size a ≤ S100.size a
  inb_S100x10000_S1x10000_36_0 : ∀ a, (![36, 0] : Fin 2 → Nat) a + S1x10000.size a ≤ S100x10000.size a
  inb_S100_S1_37 : ∀ a, (![37] : Fin 1 → Nat) a + S1.size a ≤ S100.size a
  inb_S100x10000_S1x10000_37_0 : ∀ a, (![37, 0] : Fin 2 → Nat) a + S1x10000.size a ≤ S100x10000.size a
  inb_S100_S1_38 : ∀ a, (![38] : Fin 1 → Nat) a + S1.size a ≤ S100.size a
  inb_S100x10000_S1x10000_38_0 : ∀ a, (![38, 0] : Fin 2 → Nat) a + S1x10000.size a ≤ S100x10000.size a
  inb_S100_S1_39 : ∀ a, (![39] : Fin 1 → Nat) a + S1.size a ≤ S100.size a
  inb_S100x10000_S1x10000_39_0 : ∀ a, (![39, 0] : Fin 2 → Nat) a + S1x10000.size a ≤ S100x10000.size a
  inb_S100_S1_40 : ∀ a, (![40] : Fin 1 → Nat) a + S1.size a ≤ S100.size a
  inb_S100x10000_S1x10000_40_0 : ∀ a, (![40, 0] : Fin 2 → Nat) a + S1x10000.size a ≤ S100x10000.size a
  inb_S100_S1_41 : ∀ a, (![41] : Fin 1 → Nat) a + S1.size a ≤ S100.size a
  inb_S100x10000_S1x10000_41_0 : ∀ a, (![41, 0] : Fin 2 → Nat) a + S1x10000.size a ≤ S100x10000.size a
  inb_S100_S1_42 : ∀ a, (![42] : Fin 1 → Nat) a + S1.size a ≤ S100.size a
  inb_S100x10000_S1x10000_42_0 : ∀ a, (![42, 0] : Fin 2 → Nat) a + S1x10000.size a ≤ S100x10000.size a
  inb_S100_S1_43 : ∀ a, (![43] : Fin 1 → Nat) a + S1.size a ≤ S100.size a
  inb_S100x10000_S1x10000_43_0 : ∀ a, (![43, 0] : Fin 2 → Nat) a + S1x10000.size a ≤ S100x10000.size a
  inb_S100_S1_44 : ∀ a, (![44] : Fin 1 → Nat) a + S1.size a ≤ S100.size a
  inb_S100x10000_S1x10000_44_0 : ∀ a, (![44, 0] : Fin 2 → Nat) a + S1x10000.size a ≤ S100x10000.size a
  inb_S100_S1_45 : ∀ a, (![45] : Fin 1 → Nat) a + S1.size a ≤ S100.size a
  inb_S100x10000_S1x10000_45_0 : ∀ a, (![45, 0] : Fin 2 → Nat) a + S1x10000.size a ≤ S100x10000.size a
  inb_S100_S1_46 : ∀ a, (![46] : Fin 1 → Nat) a + S1.size a ≤ S100.size a
  inb_S100x10000_S1x10000_46_0 : ∀ a, (![46, 0] : Fin 2 → Nat) a + S1x10000.size a ≤ S100x10000.size a
  inb_S100_S1_47 : ∀ a, (![47] : Fin 1 → Nat) a + S1.size a ≤ S100.size a
  inb_S100x10000_S1x10000_47_0 : ∀ a, (![47, 0] : Fin 2 → Nat) a + S1x10000.size a ≤ S100x10000.size a
  inb_S100_S1_48 : ∀ a, (![48] : Fin 1 → Nat) a + S1.size a ≤ S100.size a
  inb_S100x10000_S1x10000_48_0 : ∀ a, (![48, 0] : Fin 2 → Nat) a + S1x10000.size a ≤ S100x10000.size a
  inb_S100_S1_49 : ∀ a, (![49] : Fin 1 → Nat) a + S1.size a ≤ S100.size a
  inb_S100x10000_S1x10000_49_0 : ∀ a, (![49, 0] : Fin 2 → Nat) a + S1x10000.size a ≤ S100x10000.size a
  inb_S100_S1_50 : ∀ a, (![50] : Fin 1 → Nat) a + S1.size a ≤ S100.size a
  inb_S100x10000_S1x10000_50_0 : ∀ a, (![50, 0] : Fin 2 → Nat) a + S1x10000.size a ≤ S100x10000.size a
  inb_S100_S1_51 : ∀ a, (![51] : Fin 1 → Nat) a + S1.size a ≤ S100.size a
  inb_S100x10000_S1x10000_51_0 : ∀ a, (![51, 0] : Fin 2 → Nat) a + S1x10000.size a ≤ S100x10000.size a
  inb_S100_S1_52 : ∀ a, (![52] : Fin 1 → Nat) a + S1.size a ≤ S100.size a
  inb_S100x10000_S1x10000_52_0 : ∀ a, (![52, 0] : Fin 2 → Nat) a + S1x10000.size a ≤ S100x10000.size a
  inb_S100_S1_53 : ∀ a, (![53] : Fin 1 → Nat) a + S1.size a ≤ S100.size a
  inb_S100x10000_S1x10000_53_0 : ∀ a, (![53, 0] : Fin 2 → Nat) a + S1x10000.size a ≤ S100x10000.size a
  inb_S100_S1_54 : ∀ a, (![54] : Fin 1 → Nat) a + S1.size a ≤ S100.size a
  inb_S100x10000_S1x10000_54_0 : ∀ a, (![54, 0] : Fin 2 → Nat) a + S1x10000.size a ≤ S100x10000.size a
  inb_S100_S1_55 : ∀ a, (![55] : Fin 1 → Nat) a + S1.size a ≤ S100.size a
  inb_S100x10000_S1x10000_55_0 : ∀ a, (![55, 0] : Fin 2 → Nat) a + S1x10000.size a ≤ S100x10000.size a
  inb_S100_S1_56 : ∀ a, (![56] : Fin 1 → Nat) a + S1.size a ≤ S100.size a
  inb_S100x10000_S1x10000_56_0 : ∀ a, (![56, 0] : Fin 2 → Nat) a + S1x10000.size a ≤ S100x10000.size a
  inb_S100_S1_57 : ∀ a, (![57] : Fin 1 → Nat) a + S1.size a ≤ S100.size a
  inb_S100x10000_S1x10000_57_0 : ∀ a, (![57, 0] : Fin 2 → Nat) a + S1x10000.size a ≤ S100x10000.size a
  inb_S100_S1_58 : ∀ a, (![58] : Fin 1 → Nat) a + S1.size a ≤ S100.size a
  inb_S100x10000_S1x10000_58_0 : ∀ a, (![58, 0] : Fin 2 → Nat) a + S1x10000.size a ≤ S100x10000.size a
  inb_S100_S1_59 : ∀ a, (![59] : Fin 1 → Nat) a + S1.size a ≤ S100.size a
  inb_S100x10000_S1x10000_59_0 : ∀ a, (![59, 0] : Fin 2 → Nat) a + S1x10000.size a ≤ S100x10000.size a
  inb_S100_S1_60 : ∀ a, (![60] : Fin 1 → Nat) a + S1.size a ≤ S100.size a
  inb_S100x10000_S1x10000_60_0 : ∀ a, (![60, 0] : Fin 2 → Nat) a + S1x10000.size a ≤ S100x10000.size a
  inb_S100_S1_61 : ∀ a, (![61] : Fin 1 → Nat) a + S1.size a ≤ S100.size a
  inb_S100x10000_S1x10000_61_0 : ∀ a, (![61, 0] : Fin 2 → Nat) a + S1x10000.size a ≤ S100x10000.size a
  inb_S100_S1_62 : ∀ a, (![62] : Fin 1 → Nat) a + S1.size a ≤ S100.size a
  inb_S100x10000_S1x10000_62_0 : ∀ a, (![62, 0] : Fin 2 → Nat) a + S1x10000.size a ≤ S100x10000.size a
  inb_S100_S1_63 : ∀ a, (![63] : Fin 1 → Nat) a + S1.size a ≤ S100.size a
  inb_S100x10000_S1x10000_63_0 : ∀ a, (![63, 0] : Fin 2 → Nat) a + S1x10000.size a ≤ S100x10000.size a
  inb_S100_S1_64 : ∀ a, (![64] : Fin 1 → Nat) a + S1.size a ≤ S100.size a
  inb_S100x10000_S1x10000_64_0 : ∀ a, (![64, 0] : Fin 2 → Nat) a + S1x10000.size a ≤ S100x10000.size a
  inb_S100_S1_65 : ∀ a, (![65] : Fin 1 → Nat) a + S1.size a ≤ S100.size a
  inb_S100x10000_S1x10000_65_0 : ∀ a, (![65, 0] : Fin 2 → Nat) a + S1x10000.size a ≤ S100x10000.size a
  inb_S100_S1_66 : ∀ a, (![66] : Fin 1 → Nat) a + S1.size a ≤ S100.size a
  inb_S100x10000_S1x10000_66_0 : ∀ a, (![66, 0] : Fin 2 → Nat) a + S1x10000.size a ≤ S100x10000.size a
  inb_S100_S1_67 : ∀ a, (![67] : Fin 1 → Nat) a + S1.size a ≤ S100.size a
  inb_S100x10000_S1x10000_67_0 : ∀ a, (![67, 0] : Fin 2 → Nat) a + S1x10000.size a ≤ S100x10000.size a
  inb_S100_S1_68 : ∀ a, (![68] : Fin 1 → Nat) a + S1.size a ≤ S100.size a
  inb_S100x10000_S1x10000_68_0 : ∀ a, (![68, 0] : Fin 2 → Nat) a + S1x10000.size a ≤ S100x10000.size a
  inb_S100_S1_69 : ∀ a, (![69] : Fin 1 → Nat) a + S1.size a ≤ S100.size a
  inb_S100x10000_S1x10000_69_0 : ∀ a, (![69, 0] : Fin 2 → Nat) a + S1x10000.size a ≤ S100x10000.size a
  inb_S100_S1_70 : ∀ a, (![70] : Fin 1 → Nat) a + S1.size a ≤ S100.size a
  inb_S100x10000_S1x10000_70_0 : ∀ a, (![70, 0] : Fin 2 → Nat) a + S1x10000.size a ≤ S100x10000.size a
  inb_S100_S1_71 : ∀ a, (![71] : Fin 1 → Nat) a + S1.size a ≤ S100.size a
  inb_S100x10000_S1x10000_71_0 : ∀ a, (![71, 0] : Fin 2 → Nat) a + S1x10000.size a ≤ S100x10000.size a
  inb_S100_S1_72 : ∀ a, (![72] : Fin 1 → Nat) a + S1.size a ≤ S100.size a
  inb_S100x10000_S1x10000_72_0 : ∀ a, (![72, 0] : Fin 2 → Nat) a + S1x10000.size a ≤ S100x10000.size a
  inb_S100_S1_73 : ∀ a, (![73] : Fin 1 → Nat) a + S1.size a ≤ S100.size a
  inb_S100x10000_S1x10000_73_0 : ∀ a, (![73, 0] : Fin 2 → Nat) a + S1x10000.size a ≤ S100x10000.size a
  inb_S100_S1_74 : ∀ a, (![74] : Fin 1 → Nat) a + S1.size a ≤ S100.size a
  inb_S100x10000_S1x10000_74_0 : ∀ a, (![74, 0] : Fin 2 → Nat) a + S1x10000.size a ≤ S100x10000.size a
  inb_S100_S1_75 : ∀ a, (![75] : Fin 1 → Nat) a + S1.size a ≤ S100.size a
  inb_S100x10000_S1x10000_75_0 : ∀ a, (![75, 0] : Fin 2 → Nat) a + S1x10000.size a ≤ S100x10000.size a
  inb_S100_S1_76 : ∀ a, (![76] : Fin 1 → Nat) a + S1.size a ≤ S100.size a
  inb_S100x10000_S1x10000_76_0 : ∀ a, (![76, 0] : Fin 2 → Nat) a + S1x10000.size a ≤ S100x10000.size a
  inb_S100_S1_77 : ∀ a, (![77] : Fin 1 → Nat) a + S1.size a ≤ S100.size a
  inb_S100x10000_S1x10000_77_0 : ∀ a, (![77, 0] : Fin 2 → Nat) a + S1x10000.size a ≤ S100x10000.size a
  inb_S100_S1_78 : ∀ a, (![78] : Fin 1 → Nat) a + S1.size a ≤ S100.size a
  inb_S100x10000_S1x10000_78_0 : ∀ a, (![78, 0] : Fin 2 → Nat) a + S1x10000.size a ≤ S100x10000.size a
  inb_S100_S1_79 : ∀ a, (![79] : Fin 1 → Nat) a + S1.size a ≤ S100.size a
  inb_S100x10000_S1x10000_79_0 : ∀ a, (![79, 0] : Fin 2 → Nat) a + S1x10000.size a ≤ S100x10000.size a
  inb_S100_S1_80 : ∀ a, (![80] : Fin 1 → Nat) a + S1.size a ≤ S100.size a
  inb_S100x10000_S1x10000_80_0 : ∀ a, (![80, 0] : Fin 2 → Nat) a + S1x10000.size a ≤ S100x10000.size a
  inb_S100_S1_81 : ∀ a, (![81] : Fin 1 → Nat) a + S1.size a ≤ S100.size a
  inb_S100x10000_S1x10000_81_0 : ∀ a, (![81, 0] : Fin 2 → Nat) a + S1x10000.size a ≤ S100x10000.size a
  inb_S100_S1_82 : ∀ a, (![82] : Fin 1 → Nat) a + S1.size a ≤ S100.size a
  inb_S100x10000_S1x10000_82_0 : ∀ a, (![82, 0] : Fin 2 → Nat) a + S1x10000.size a ≤ S100x10000.size a
  inb_S100_S1_83 : ∀ a, (![83] : Fin 1 → Nat) a + S1.size a ≤ S100.size a
  inb_S100x10000_S1x10000_83_0 : ∀ a, (![83, 0] : Fin 2 → Nat) a + S1x10000.size a ≤ S100x10000.size a
  inb_S100_S1_84 : ∀ a, (![84] : Fin 1 → Nat) a + S1.size a ≤ S100.size a
  inb_S100x10000_S1x10000_84_0 : ∀ a, (![84, 0] : Fin 2 → Nat) a + S1x10000.size a ≤ S100x10000.size a
  inb_S100_S1_85 : ∀ a, (![85] : Fin 1 → Nat) a + S1.size a ≤ S100.size a
  inb_S100x10000_S1x10000_85_0 : ∀ a, (![85, 0] : Fin 2 → Nat) a + S1x10000.size a ≤ S100x10000.size a
  inb_S100_S1_86 : ∀ a, (![86] : Fin 1 → Nat) a + S1.size a ≤ S100.size a
  inb_S100x10000_S1x10000_86_0 : ∀ a, (![86, 0] : Fin 2 → Nat) a + S1x10000.size a ≤ S100x10000.size a
  inb_S100_S1_87 : ∀ a, (![87] : Fin 1 → Nat) a + S1.size a ≤ S100.size a
  inb_S100x10000_S1x10000_87_0 : ∀ a, (![87, 0] : Fin 2 → Nat) a + S1x10000.size a ≤ S100x10000.size a
  inb_S100_S1_88 : ∀ a, (![88] : Fin 1 → Nat) a + S1.size a ≤ S100.size a
  inb_S100x10000_S1x10000_88_0 : ∀ a, (![88, 0] : Fin 2 → Nat) a + S1x10000.size a ≤ S100x10000.size a
  inb_S100_S1_89 : ∀ a, (![89] : Fin 1 → Nat) a + S1.size a ≤ S100.size a
  inb_S100x10000_S1x10000_89_0 : ∀ a, (![89, 0] : Fin 2 → Nat) a + S1x10000.size a ≤ S100x10000.size a
  inb_S100_S1_90 : ∀ a, (![90] : Fin 1 → Nat) a + S1.size a ≤ S100.size a
  inb_S100x10000_S1x10000_90_0 : ∀ a, (![90, 0] : Fin 2 → Nat) a + S1x10000.size a ≤ S100x10000.size a
  inb_S100_S1_91 : ∀ a, (![91] : Fin 1 → Nat) a + S1.size a ≤ S100.size a
  inb_S100x10000_S1x10000_91_0 : ∀ a, (![91, 0] : Fin 2 → Nat) a + S1x10000.size a ≤ S100x10000.size a
  inb_S100_S1_92 : ∀ a, (![92] : Fin 1 → Nat) a + S1.size a ≤ S100.size a
  inb_S100x10000_S1x10000_92_0 : ∀ a, (![92, 0] : Fin 2 → Nat) a + S1x10000.size a ≤ S100x10000.size a
  inb_S100_S1_93 : ∀ a, (![93] : Fin 1 → Nat) a + S1.size a ≤ S100.size a
  inb_S100x10000_S1x10000_93_0 : ∀ a, (![93, 0] : Fin 2 → Nat) a + S1x10000.size a ≤ S100x10000.size a
  inb_S100_S1_94 : ∀ a, (![94] : Fin 1 → Nat) a + S1.size a ≤ S100.size a
  inb_S100x10000_S1x10000_94_0 : ∀ a, (![94, 0] : Fin 2 → Nat) a + S1x10000.size a ≤ S100x10000.size a
  inb_S100_S1_95 : ∀ a, (![95] : Fin 1 → Nat) a + S1.size a ≤ S100.size a
  inb_S100x10000_S1x10000_95_0 : ∀ a, (![95, 0] : Fin 2 → Nat) a + S1x10000.size a ≤ S100x10000.size a
  inb_S100_S1_96 : ∀ a, (![96] : Fin 1 → Nat) a + S1.size a ≤ S100.size a
  inb_S100x10000_S1x10000_96_0 : ∀ a, (![96, 0] : Fin 2 → Nat) a + S1x10000.size a ≤ S100x10000.size a
  inb_S100_S1_97 : ∀ a, (![97] : Fin 1 → Nat) a + S1.size a ≤ S100.size a
  inb_S100x10000_S1x10000_97_0 : ∀ a, (![97, 0] : Fin 2 → Nat) a + S1x10000.size a ≤ S100x10000.size a
  inb_S100_S1_98 : ∀ a, (![98] : Fin 1 → Nat) a + S1.size a ≤ S100.size a
  inb_S100x10000_S1x10000_98_0 : ∀ a, (![98, 0] : Fin 2 → Nat) a + S1x10000.size a ≤ S100x10000.size a
  inb_S100_S1_99 : ∀ a, (![99] : Fin 1 → Nat) a + S1.size a ≤ S100.size a
  inb_S100x10000_S1x10000_99_0 : ∀ a, (![99, 0] : Fin 2 → Nat) a + S1x10000.size a ≤ S100x10000.size a
  inb_S100x10000_S20x10000_0_0 : ∀ a, (![0, 0] : Fin 2 → Nat) a + S20x10000.size a ≤ S100x10000.size a
  h_S20x10000 : 0 < S20x10000.numel
  inb_S1x100x10000_S1x20x10000_0_0_0 : ∀ a, (![0, 0, 0] : Fin 3 → Nat) a + S1x20x10000.size a ≤ S1x100x10000.size a
  h_S1x20x10000 : 0 < S1x20x10000.numel
  shapeCasts_S1x20x10000_S20x10000 : S1x20x10000.ShapeCasts S20x10000
  shapeCasts_S20x10000_S1x20x10000 : S20x10000.ShapeCasts S1x20x10000
  inb_S100x10000_S20x10000_20_0 : ∀ a, (![20, 0] : Fin 2 → Nat) a + S20x10000.size a ≤ S100x10000.size a
  inb_S1x100x10000_S1x20x10000_0_20_0 : ∀ a, (![0, 20, 0] : Fin 3 → Nat) a + S1x20x10000.size a ≤ S1x100x10000.size a
  inb_S100x10000_S20x10000_40_0 : ∀ a, (![40, 0] : Fin 2 → Nat) a + S20x10000.size a ≤ S100x10000.size a
  inb_S1x100x10000_S1x20x10000_0_40_0 : ∀ a, (![0, 40, 0] : Fin 3 → Nat) a + S1x20x10000.size a ≤ S1x100x10000.size a
  inb_S100x10000_S20x10000_60_0 : ∀ a, (![60, 0] : Fin 2 → Nat) a + S20x10000.size a ≤ S100x10000.size a
  inb_S1x100x10000_S1x20x10000_0_60_0 : ∀ a, (![0, 60, 0] : Fin 3 → Nat) a + S1x20x10000.size a ≤ S1x100x10000.size a
  inb_S100x10000_S20x10000_80_0 : ∀ a, (![80, 0] : Fin 2 → Nat) a + S20x10000.size a ≤ S100x10000.size a
  inb_S1x100x10000_S1x20x10000_0_80_0 : ∀ a, (![0, 80, 0] : Fin 3 → Nat) a + S1x20x10000.size a ≤ S1x100x10000.size a
  gather_S20000_S64x100x1_S64x100_n_0_n_n_0_2_1_wf : GatherDims.WF S20000 S64x100x1 S64x100 [] [0] [] [0] [] 2 ![1]
  hcc0_scratch1 : 2 + S100.numel ≤ 102
  hrank0 : 0 < grid0.rank
  k0_off1_inb : ∀ i : grid0.Coords, ∀ a, (k0_off1 i) a + S1x1.size a ≤ S64x100.size a
  k0_off3_inb : ∀ i : grid0.Coords, ∀ a, (k0_off3 i) a + S1x1.size a ≤ S64x100.size a
  k0_off5_inb : ∀ i : grid0.Coords, ∀ a, (k0_off5 i) a + S1x1.size a ≤ S64x100.size a
  k0_off7_inb : ∀ i : grid0.Coords, ∀ a, (k0_off7 i) a + S1x1.size a ≤ S64x100.size a
  k0_off9_inb : ∀ i : grid0.Coords, ∀ a, (k0_off9 i) a + S1x1.size a ≤ S64x100.size a
  k0_off11_inb : ∀ i : grid0.Coords, ∀ a, (k0_off11 i) a + S1x1.size a ≤ S64x100.size a
  k0_off13_inb : ∀ i : grid0.Coords, ∀ a, (k0_off13 i) a + S1x1.size a ≤ S64x100.size a
  k0_off15_inb : ∀ i : grid0.Coords, ∀ a, (k0_off15 i) a + S1x1.size a ≤ S64x100.size a
  k0_off17_inb : ∀ i : grid0.Coords, ∀ a, (k0_off17 i) a + S1x1.size a ≤ S64x100.size a
  k0_off19_inb : ∀ i : grid0.Coords, ∀ a, (k0_off19 i) a + S1x1.size a ≤ S64x100.size a
  k0_off21_inb : ∀ i : grid0.Coords, ∀ a, (k0_off21 i) a + S1x1.size a ≤ S64x100.size a
  k0_off23_inb : ∀ i : grid0.Coords, ∀ a, (k0_off23 i) a + S1x1.size a ≤ S64x100.size a
  k0_off25_inb : ∀ i : grid0.Coords, ∀ a, (k0_off25 i) a + S1x1.size a ≤ S64x100.size a
  k0_off27_inb : ∀ i : grid0.Coords, ∀ a, (k0_off27 i) a + S1x1.size a ≤ S64x100.size a
  k0_off29_inb : ∀ i : grid0.Coords, ∀ a, (k0_off29 i) a + S1x1.size a ≤ S64x100.size a
  k0_off31_inb : ∀ i : grid0.Coords, ∀ a, (k0_off31 i) a + S1x1.size a ≤ S64x100.size a
  k0_off33_inb : ∀ i : grid0.Coords, ∀ a, (k0_off33 i) a + S1x1.size a ≤ S64x100.size a
  k0_off35_inb : ∀ i : grid0.Coords, ∀ a, (k0_off35 i) a + S1x1.size a ≤ S64x100.size a
  k0_off37_inb : ∀ i : grid0.Coords, ∀ a, (k0_off37 i) a + S1x1.size a ≤ S64x100.size a
  k0_off39_inb : ∀ i : grid0.Coords, ∀ a, (k0_off39 i) a + S1x1.size a ≤ S64x100.size a
  k0_off41_inb : ∀ i : grid0.Coords, ∀ a, (k0_off41 i) a + S1x1.size a ≤ S64x100.size a
  k0_off43_inb : ∀ i : grid0.Coords, ∀ a, (k0_off43 i) a + S1x1.size a ≤ S64x100.size a
  k0_off45_inb : ∀ i : grid0.Coords, ∀ a, (k0_off45 i) a + S1x1.size a ≤ S64x100.size a
  k0_off47_inb : ∀ i : grid0.Coords, ∀ a, (k0_off47 i) a + S1x1.size a ≤ S64x100.size a
  k0_off49_inb : ∀ i : grid0.Coords, ∀ a, (k0_off49 i) a + S1x1.size a ≤ S64x100.size a
  k0_off51_inb : ∀ i : grid0.Coords, ∀ a, (k0_off51 i) a + S1x1.size a ≤ S64x100.size a
  k0_off53_inb : ∀ i : grid0.Coords, ∀ a, (k0_off53 i) a + S1x1.size a ≤ S64x100.size a
  k0_off55_inb : ∀ i : grid0.Coords, ∀ a, (k0_off55 i) a + S1x1.size a ≤ S64x100.size a
  k0_off57_inb : ∀ i : grid0.Coords, ∀ a, (k0_off57 i) a + S1x1.size a ≤ S64x100.size a
  k0_off59_inb : ∀ i : grid0.Coords, ∀ a, (k0_off59 i) a + S1x1.size a ≤ S64x100.size a
  k0_off61_inb : ∀ i : grid0.Coords, ∀ a, (k0_off61 i) a + S1x1.size a ≤ S64x100.size a
  k0_off63_inb : ∀ i : grid0.Coords, ∀ a, (k0_off63 i) a + S1x1.size a ≤ S64x100.size a
  k0_off65_inb : ∀ i : grid0.Coords, ∀ a, (k0_off65 i) a + S1x1.size a ≤ S64x100.size a
  k0_off67_inb : ∀ i : grid0.Coords, ∀ a, (k0_off67 i) a + S1x1.size a ≤ S64x100.size a
  k0_off69_inb : ∀ i : grid0.Coords, ∀ a, (k0_off69 i) a + S1x1.size a ≤ S64x100.size a
  k0_off71_inb : ∀ i : grid0.Coords, ∀ a, (k0_off71 i) a + S1x1.size a ≤ S64x100.size a
  k0_off73_inb : ∀ i : grid0.Coords, ∀ a, (k0_off73 i) a + S1x1.size a ≤ S64x100.size a
  k0_off75_inb : ∀ i : grid0.Coords, ∀ a, (k0_off75 i) a + S1x1.size a ≤ S64x100.size a
  k0_off77_inb : ∀ i : grid0.Coords, ∀ a, (k0_off77 i) a + S1x1.size a ≤ S64x100.size a
  k0_off79_inb : ∀ i : grid0.Coords, ∀ a, (k0_off79 i) a + S1x1.size a ≤ S64x100.size a
  k0_off81_inb : ∀ i : grid0.Coords, ∀ a, (k0_off81 i) a + S1x1.size a ≤ S64x100.size a
  k0_off83_inb : ∀ i : grid0.Coords, ∀ a, (k0_off83 i) a + S1x1.size a ≤ S64x100.size a
  k0_off85_inb : ∀ i : grid0.Coords, ∀ a, (k0_off85 i) a + S1x1.size a ≤ S64x100.size a
  k0_off87_inb : ∀ i : grid0.Coords, ∀ a, (k0_off87 i) a + S1x1.size a ≤ S64x100.size a
  k0_off89_inb : ∀ i : grid0.Coords, ∀ a, (k0_off89 i) a + S1x1.size a ≤ S64x100.size a
  k0_off91_inb : ∀ i : grid0.Coords, ∀ a, (k0_off91 i) a + S1x1.size a ≤ S64x100.size a
  k0_off93_inb : ∀ i : grid0.Coords, ∀ a, (k0_off93 i) a + S1x1.size a ≤ S64x100.size a
  k0_off95_inb : ∀ i : grid0.Coords, ∀ a, (k0_off95 i) a + S1x1.size a ≤ S64x100.size a
  k0_off97_inb : ∀ i : grid0.Coords, ∀ a, (k0_off97 i) a + S1x1.size a ≤ S64x100.size a
  k0_off99_inb : ∀ i : grid0.Coords, ∀ a, (k0_off99 i) a + S1x1.size a ≤ S64x100.size a
  k0_off101_inb : ∀ i : grid0.Coords, ∀ a, (k0_off101 i) a + S1x1.size a ≤ S64x100.size a
  k0_off103_inb : ∀ i : grid0.Coords, ∀ a, (k0_off103 i) a + S1x1.size a ≤ S64x100.size a
  k0_off105_inb : ∀ i : grid0.Coords, ∀ a, (k0_off105 i) a + S1x1.size a ≤ S64x100.size a
  k0_off107_inb : ∀ i : grid0.Coords, ∀ a, (k0_off107 i) a + S1x1.size a ≤ S64x100.size a
  k0_off109_inb : ∀ i : grid0.Coords, ∀ a, (k0_off109 i) a + S1x1.size a ≤ S64x100.size a
  k0_off111_inb : ∀ i : grid0.Coords, ∀ a, (k0_off111 i) a + S1x1.size a ≤ S64x100.size a
  k0_off113_inb : ∀ i : grid0.Coords, ∀ a, (k0_off113 i) a + S1x1.size a ≤ S64x100.size a
  k0_off115_inb : ∀ i : grid0.Coords, ∀ a, (k0_off115 i) a + S1x1.size a ≤ S64x100.size a
  k0_off117_inb : ∀ i : grid0.Coords, ∀ a, (k0_off117 i) a + S1x1.size a ≤ S64x100.size a
  k0_off119_inb : ∀ i : grid0.Coords, ∀ a, (k0_off119 i) a + S1x1.size a ≤ S64x100.size a
  k0_off121_inb : ∀ i : grid0.Coords, ∀ a, (k0_off121 i) a + S1x1.size a ≤ S64x100.size a
  k0_off123_inb : ∀ i : grid0.Coords, ∀ a, (k0_off123 i) a + S1x1.size a ≤ S64x100.size a
  k0_off125_inb : ∀ i : grid0.Coords, ∀ a, (k0_off125 i) a + S1x1.size a ≤ S64x100.size a
  k0_off127_inb : ∀ i : grid0.Coords, ∀ a, (k0_off127 i) a + S1x1.size a ≤ S64x100.size a
  k0_off129_inb : ∀ i : grid0.Coords, ∀ a, (k0_off129 i) a + S1x1.size a ≤ S64x100.size a
  k0_off131_inb : ∀ i : grid0.Coords, ∀ a, (k0_off131 i) a + S1x1.size a ≤ S64x100.size a
  k0_off133_inb : ∀ i : grid0.Coords, ∀ a, (k0_off133 i) a + S1x1.size a ≤ S64x100.size a
  k0_off135_inb : ∀ i : grid0.Coords, ∀ a, (k0_off135 i) a + S1x1.size a ≤ S64x100.size a
  k0_off137_inb : ∀ i : grid0.Coords, ∀ a, (k0_off137 i) a + S1x1.size a ≤ S64x100.size a
  k0_off139_inb : ∀ i : grid0.Coords, ∀ a, (k0_off139 i) a + S1x1.size a ≤ S64x100.size a
  k0_off141_inb : ∀ i : grid0.Coords, ∀ a, (k0_off141 i) a + S1x1.size a ≤ S64x100.size a
  k0_off143_inb : ∀ i : grid0.Coords, ∀ a, (k0_off143 i) a + S1x1.size a ≤ S64x100.size a
  k0_off145_inb : ∀ i : grid0.Coords, ∀ a, (k0_off145 i) a + S1x1.size a ≤ S64x100.size a
  k0_off147_inb : ∀ i : grid0.Coords, ∀ a, (k0_off147 i) a + S1x1.size a ≤ S64x100.size a
  k0_off149_inb : ∀ i : grid0.Coords, ∀ a, (k0_off149 i) a + S1x1.size a ≤ S64x100.size a
  k0_off151_inb : ∀ i : grid0.Coords, ∀ a, (k0_off151 i) a + S1x1.size a ≤ S64x100.size a
  k0_off153_inb : ∀ i : grid0.Coords, ∀ a, (k0_off153 i) a + S1x1.size a ≤ S64x100.size a
  k0_off155_inb : ∀ i : grid0.Coords, ∀ a, (k0_off155 i) a + S1x1.size a ≤ S64x100.size a
  k0_off157_inb : ∀ i : grid0.Coords, ∀ a, (k0_off157 i) a + S1x1.size a ≤ S64x100.size a
  k0_off159_inb : ∀ i : grid0.Coords, ∀ a, (k0_off159 i) a + S1x1.size a ≤ S64x100.size a
  k0_off161_inb : ∀ i : grid0.Coords, ∀ a, (k0_off161 i) a + S1x1.size a ≤ S64x100.size a
  k0_off163_inb : ∀ i : grid0.Coords, ∀ a, (k0_off163 i) a + S1x1.size a ≤ S64x100.size a
  k0_off165_inb : ∀ i : grid0.Coords, ∀ a, (k0_off165 i) a + S1x1.size a ≤ S64x100.size a
  k0_off167_inb : ∀ i : grid0.Coords, ∀ a, (k0_off167 i) a + S1x1.size a ≤ S64x100.size a
  k0_off169_inb : ∀ i : grid0.Coords, ∀ a, (k0_off169 i) a + S1x1.size a ≤ S64x100.size a
  k0_off171_inb : ∀ i : grid0.Coords, ∀ a, (k0_off171 i) a + S1x1.size a ≤ S64x100.size a
  k0_off173_inb : ∀ i : grid0.Coords, ∀ a, (k0_off173 i) a + S1x1.size a ≤ S64x100.size a
  k0_off175_inb : ∀ i : grid0.Coords, ∀ a, (k0_off175 i) a + S1x1.size a ≤ S64x100.size a
  k0_off177_inb : ∀ i : grid0.Coords, ∀ a, (k0_off177 i) a + S1x1.size a ≤ S64x100.size a
  k0_off179_inb : ∀ i : grid0.Coords, ∀ a, (k0_off179 i) a + S1x1.size a ≤ S64x100.size a
  k0_off181_inb : ∀ i : grid0.Coords, ∀ a, (k0_off181 i) a + S1x1.size a ≤ S64x100.size a
  k0_off183_inb : ∀ i : grid0.Coords, ∀ a, (k0_off183 i) a + S1x1.size a ≤ S64x100.size a
  k0_off185_inb : ∀ i : grid0.Coords, ∀ a, (k0_off185 i) a + S1x1.size a ≤ S64x100.size a
  k0_off187_inb : ∀ i : grid0.Coords, ∀ a, (k0_off187 i) a + S1x1.size a ≤ S64x100.size a
  k0_off189_inb : ∀ i : grid0.Coords, ∀ a, (k0_off189 i) a + S1x1.size a ≤ S64x100.size a
  k0_off191_inb : ∀ i : grid0.Coords, ∀ a, (k0_off191 i) a + S1x1.size a ≤ S64x100.size a
  k0_off193_inb : ∀ i : grid0.Coords, ∀ a, (k0_off193 i) a + S1x1.size a ≤ S64x100.size a
  k0_off195_inb : ∀ i : grid0.Coords, ∀ a, (k0_off195 i) a + S1x1.size a ≤ S64x100.size a
  k0_off197_inb : ∀ i : grid0.Coords, ∀ a, (k0_off197 i) a + S1x1.size a ≤ S64x100.size a
  k0_off199_inb : ∀ i : grid0.Coords, ∀ a, (k0_off199 i) a + S1x1.size a ≤ S64x100.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x100x10000.size a ≤ S64x100x10000.size a
  hwx0_0 : ∀ i : grid0.Coords, EltTy.bits .f32 = 32 ∨ (Rect.block (s := S64x100x10000) S1x100x10000.size (cc0_transform_1 i) (hinb0_0 i)).WholeWords (EltTy.packing .f32)

variable [Facts₀]

abbrev cc0_scratch1 : DmaSems sig S100 := SemArray.consecutive 2 S100 hcc0_scratch1
def gather_S20000_S64x100x1_S64x100_n_0_n_n_0_2_1 : GatherDims S20000 S64x100x1 S64x100 where
  offsetDims := []
  collapsedSliceDims := [0]
  operandBatchingDims := []
  startIndicesBatchingDims := []
  startIndexMap := [0]
  indexVectorDim := 2
  sliceSizes := ![1]
  wf := gather_S20000_S64x100x1_S64x100_n_0_n_n_0_2_1_wf

abbrev spec0_0 : Pipeline.WinSpec sig grid0.rank :=
  Pipeline.WinSpec.ofSpec (Memref.whole main_v8) S1x100x10000.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S20000 : Shape := ⟨1, ![20000]⟩
abbrev S64x100 : Shape := ⟨2, ![64, 100]⟩
abbrev S10000x10000 : Shape := ⟨2, ![10000, 10000]⟩
abbrev S_ : Shape := ⟨0, ![]⟩
abbrev S64x100x1 : Shape := ⟨3, ![64, 100, 1]⟩
abbrev S64x100x10000 : Shape := ⟨3, ![64, 100, 10000]⟩

abbrev nBuf : Space → Nat
  | .hbm => 30
  | .vmem => 0
  | .smem => 0
  | _ => 0

abbrev bufTy : (tb : Table) → Fin (tcTables nBuf tb) → BufTy
  | .hbm, ⟨0, _⟩ => ⟨S20000, .i32⟩
  | .hbm, ⟨1, _⟩ => ⟨S64x100, .i32⟩
  | .hbm, ⟨2, _⟩ => ⟨S10000x10000, .f32⟩
  | .hbm, ⟨3, _⟩ => ⟨S_, .i32⟩
  | .hbm, ⟨4, _⟩ => ⟨S64x100, .i32⟩
  | .hbm, ⟨5, _⟩ => ⟨S64x100, .i1⟩
  | .hbm, ⟨6, _⟩ => ⟨S_, .i32⟩
  | .hbm, ⟨7, _⟩ => ⟨S64x100, .i32⟩
  | .hbm, ⟨8, _⟩ => ⟨S64x100, .i32⟩
  | .hbm, ⟨9, _⟩ => ⟨S64x100, .i32⟩
  | .hbm, ⟨10, _⟩ => ⟨S64x100x1, .i32⟩
  | .hbm, ⟨11, _⟩ => ⟨S64x100, .i32⟩
  | .hbm, ⟨12, _⟩ => ⟨S_, .i32⟩
  | .hbm, ⟨13, _⟩ => ⟨S64x100, .i32⟩
  | .hbm, ⟨14, _⟩ => ⟨S64x100, .i1⟩
  | .hbm, ⟨15, _⟩ => ⟨S_, .i32⟩
  | .hbm, ⟨16, _⟩ => ⟨S64x100, .i32⟩
  | .hbm, ⟨17, _⟩ => ⟨S64x100, .i32⟩
  | .hbm, ⟨18, _⟩ => ⟨S64x100, .i32⟩
  | .hbm, ⟨19, _⟩ => ⟨S64x100x1, .i32⟩
  | .hbm, ⟨20, _⟩ => ⟨S64x100x10000, .f32⟩
  | .hbm, ⟨21, _⟩ => ⟨S_, .f32⟩
  | .hbm, ⟨22, _⟩ => ⟨S64x100x10000, .f32⟩
  | .hbm, ⟨23, _⟩ => ⟨S64x100x10000, .i1⟩
  | .hbm, ⟨24, _⟩ => ⟨S_, .f32⟩
  | .hbm, ⟨25, _⟩ => ⟨S64x100x10000, .f32⟩
  | .hbm, ⟨26, _⟩ => ⟨S64x100x10000, .f32⟩
  | .hbm, ⟨27, _⟩ => ⟨S_, .f32⟩
  | .hbm, ⟨28, _⟩ => ⟨S64x100x10000, .f32⟩
  | .hbm, ⟨29, _⟩ => ⟨S64x100x10000, .f32⟩
  | _, _ => ⟨S20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S64x100 : S_.BroadcastsInDim S64x100 (![] : Fin 0 → Fin S64x100.rank)
  bcast_S64x100_S64x100x1_0_1 : S64x100.BroadcastsInDim S64x100x1 (![0, 1] : Fin 2 → Fin S64x100x1.rank)
  bcast_S_S64x100x10000 : S_.BroadcastsInDim S64x100x10000 (![] : Fin 0 → Fin S64x100x10000.rank)
  gather_S20000_S64x100x1_S64x100_n_0_n_n_0_2_1_wf : GatherDims.WF S20000 S64x100x1 S64x100 [] [0] [] [0] [] 2 ![1]
  gather_S10000x10000_S64x100x1_S64x100x10000_2_0_n_n_0_2_110000_wf : GatherDims.WF S10000x10000 S64x100x1 S64x100x10000 [2] [0] [] [0] [] 2 ![1, 10000]

variable [Facts₀]

def gather_S20000_S64x100x1_S64x100_n_0_n_n_0_2_1 : GatherDims S20000 S64x100x1 S64x100 where
  offsetDims := []
  collapsedSliceDims := [0]
  operandBatchingDims := []
  startIndicesBatchingDims := []
  startIndexMap := [0]
  indexVectorDim := 2
  sliceSizes := ![1]
  wf := gather_S20000_S64x100x1_S64x100_n_0_n_n_0_2_1_wf
def gather_S10000x10000_S64x100x1_S64x100x10000_2_0_n_n_0_2_110000 : GatherDims S10000x10000 S64x100x1 S64x100x10000 where
  offsetDims := [2]
  collapsedSliceDims := [0]
  operandBatchingDims := []
  startIndicesBatchingDims := []
  startIndexMap := [0]
  indexVectorDim := 2
  sliceSizes := ![1, 10000]
  wf := gather_S10000x10000_S64x100x1_S64x100x10000_2_0_n_n_0_2_110000_wf

class Facts : Prop extends Facts₀ where

variable [Facts]
-- ==== Proof.LibRows.lean ====
/-
  The rows of a rank-2 array [R, C] partition it. Row s is the unit-stride rectangle at offset (s, 0) of sizes (1, C):
  it lies inside the array, two different rows are disjoint (they are separated on the row axis), and every element
  (i₀, i₁) lies in row i₀, so the rows cover the array. Hence owning the array at contents X is owning each row at its
  part of X, and conversely. A row with its axis of size one dropped is a rank-1 memref over the same elements in the
  same order, so the same holds of the rows seen through those squeezed memrefs.
-/
import Idealize.ShloMosaic.Lib.Memref
import Idealize.ShloMosaic.Lib.ValueIdx

noncomputable section

namespace Cert.LibRows

open Idealize.ShloMosaic
open Idealize.SL
open Idealize.SL.BI (sProp)
open scoped Idealize.SL.BI
open Idealize.SL.BI.BIBase Idealize.SL.BI.Laws Idealize.SL.ProofMode
open Idealize.SL.RA

/-- Row `s` of an `[R, C]` array lies inside it: on the row axis `s + 1 ≤ R`, on the column axis `0 + C ≤ C`. -/
theorem row_inb {R C : ℕ} (s : ℕ) (hs : s < R) :
    ∀ a, (![s, 0] : Fin 2 → ℕ) a + (![1, C] : Fin 2 → ℕ) a ≤ (⟨2, ![R, C]⟩ : Shape).size a :=
  Fin.forall_fin_two.mpr ⟨hs, (Nat.zero_add C).le⟩

/-- Row `s` of an `[R, C]` array: the unit-stride rectangle at offset `(s, 0)` of sizes `(1, C)`. -/
abbrev rowRect {R C : ℕ} (s : Fin R) : Rect (⟨2, ![R, C]⟩ : Shape) := Rect.unit ![s.val, 0] ![1, C] (row_inb s.val s.isLt)

/-- A row's strides are all one. -/
theorem rowRect_stride {R C : ℕ} (s : Fin R) : ∀ a, (rowRect (C := C) s).stride a = 1 := fun _ => rfl

/-- Two different rows are disjoint: on the row axis one ends (`s + 1`) at or before the other begins. -/
theorem rowRect_disjoint {R C : ℕ} (s s' : Fin R) (h : s ≠ s') : Disjoint (rowRect (C := C) s).set (rowRect (C := C) s').set := by
  have hne : s.val ≠ s'.val := fun e => h (Fin.ext e)
  refine Rect.unit_disjoint (0 : Fin 2) ?_
  show s.val + 1 ≤ s'.val ∨ s'.val + 1 ≤ s.val
  omega

/-- The rows cover the array: the element `(i₀, i₁)` lies in row `i₀` (`i₀ ≤ i₀ < i₀ + 1`, `0 ≤ i₁ < 0 + C`). -/
theorem rowRect_cover {R C : ℕ} : (Finset.univ : Finset (Fin R)).biUnion (fun s => (rowRect (C := C) s).set) = Finset.univ := by
  ext i
  simp only [Finset.mem_biUnion, Finset.mem_univ, true_and, iff_true]
  refine ⟨⟨(i 0).val, (i 0).isLt⟩, Rect.mem_set_unit.mpr fun a => ?_⟩
  match a with
  | ⟨0, _⟩ => exact ⟨Nat.le_refl _, Nat.lt_succ_self _⟩
  | ⟨1, _⟩ => exact ⟨Nat.zero_le _, (Nat.zero_add C).symm ▸ (i 1).isLt⟩

/-! ## Owning an array row by row -/

section Owns

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable (c : Thread nD τ) {sp : Space} {R C : ℕ} {e : EltTy} (m : Memref sig c.2.kind sp (⟨2, ![R, C]⟩ : Shape) e)
  (q : PosShare TreeShare)

/-- An `[R, C]` array owned at `X` is each of its rows owned at its part of `X`, -/
theorem rows_split (X : (⟨2, ![R, C]⟩ : Shape).Idx → Val e) :
    (owns c m q X : sProp 𝕄)
      ⊢ BI.bigSep Finset.univ fun s : Fin R => owns c (m.slice (rowRect s) (rowRect_stride s)) q (fun j => X ((rowRect s).emb j)) :=
  owns_rects c m q rowRect rowRect_stride rowRect_disjoint rowRect_cover X

/-- and back: owning each row at its part of `X` is owning the array at `X`. -/
theorem rows_join [∀ e, Nonempty (Val e)] (X : (⟨2, ![R, C]⟩ : Shape).Idx → Val e) :
    BI.bigSep Finset.univ (fun s : Fin R => owns c (m.slice (rowRect s) (rowRect_stride s)) q (fun j => X ((rowRect s).emb j)))
      ⊢ (owns c m q X : sProp 𝕄) :=
  owns_of_rects c m q rowRect rowRect_stride rowRect_disjoint rowRect_cover X

end Owns

/-! ## The rows through their squeezed memrefs

A row slice `[1, C]` of the array with its axis of size one dropped is a rank-1 memref `[C]` over the same elements in the
same order: element `(0, j)` of the slice is element `j` of the squeezed row. So the array owned at any contents is each
squeezed row held at some contents, and the squeezed rows each held at a whole piece `p s` are the array owned at the
contents whose row `s` is `p s`. -/

/-- Row `s` of a rank-2 memref `[R, C]` with its axis of size one dropped: the row as a rank-1 memref `[C]`. -/
abbrev rowSq {sig : RefSig} {κ : Kind} {sp : Space} {R C : ℕ} {e : EltTy} (m : Memref sig κ sp (⟨2, ![R, C]⟩ : Shape) e) (s : Fin R)
    (hq : (⟨2, ![1, C]⟩ : Shape).Squeezes ⟨1, ![C]⟩) : Memref sig κ sp (⟨1, ![C]⟩ : Shape) e :=
  (m.slice (rowRect s) (rowRect_stride s)).squeeze ⟨1, ![C]⟩ hq

/-- At numerals the squeezed row is the memref a slice at the literal offsets `[5, 0]` and sizes `[1, 10000]`, then a
    squeeze, spells. -/
example {sig : RefSig} {κ : Kind} {sp : Space} {e : EltTy} (m : Memref sig κ sp (⟨2, ![100, 10000]⟩ : Shape) e)
    (inb : ∀ a, (![5, 0] : Fin 2 → ℕ) a + (⟨2, ![1, 10000]⟩ : Shape).size a ≤ (⟨2, ![100, 10000]⟩ : Shape).size a)
    (hq : (⟨2, ![1, 10000]⟩ : Shape).Squeezes ⟨1, ![10000]⟩) :
    rowSq m (5 : Fin 100) hq
      = (m.slice (Rect.unit (s := (⟨2, ![100, 10000]⟩ : Shape)) ![5, 0] (⟨2, ![1, 10000]⟩ : Shape).size inb) (fun _ => rfl)).squeeze
          ⟨1, ![10000]⟩ hq := rfl

section Squeezed

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable (c : Thread nD τ) {sp : Space} {R C : ℕ} {e : EltTy} (m : Memref sig c.2.kind sp (⟨2, ![R, C]⟩ : Shape) e)
  (q : PosShare TreeShare)

/-- The squeezed row has the row slice's elements. -/
theorem rowSq_set (s : Fin R) (hq : (⟨2, ![1, C]⟩ : Shape).Squeezes ⟨1, ![C]⟩) :
    (rowSq m s hq).view.set = (m.slice (rowRect s) (rowRect_stride s)).view.set :=
  View.set_reshape (v := (m.slice (rowRect s) (rowRect_stride s)).view) hq.numel_eq

/-- A row slice owned at any contents is the squeezed row held at some contents. -/
theorem row_forget (s : Fin R) (hq : (⟨2, ![1, C]⟩ : Shape).Squeezes ⟨1, ![C]⟩) (Y : (rowRect (C := C) s).shape.Idx → Val e) :
    (owns c (m.slice (rowRect s) (rowRect_stride s)) q Y : sProp 𝕄)
      ⊢ iprop(∃ g, (rowSq m s hq).view.loc c ↦[(rowSq m s hq).view.set]{q} g) := by
  rw [rowSq_set]
  unfold owns
  iintro ⟨%g, %hg, H⟩
  iexists g
  iexact H

/-- An array owned at any contents is each of its squeezed rows held at some contents. -/
theorem rows_splitF (X : (⟨2, ![R, C]⟩ : Shape).Idx → Val e) (hq : (⟨2, ![1, C]⟩ : Shape).Squeezes ⟨1, ![C]⟩) :
    (owns c m q X : sProp 𝕄)
      ⊢ BI.bigSep Finset.univ fun s : Fin R => iprop(∃ g, (rowSq m s hq).view.loc c ↦[(rowSq m s hq).view.set]{q} g) :=
  (rows_split c m q X).trans (BI.bigSep_mono fun s _ => row_forget c m q s hq _)

/-- The squeezed row held at the whole piece `w` over any contents is the row slice owned at the contents reading
    `w j` at `(0, j)`: the squeezed index `j` and the slice index `(0, j)` have the same row-major position. -/
theorem row_whole (s : Fin R) (hq : (⟨2, ![1, C]⟩ : Shape).Squeezes ⟨1, ![C]⟩) (w : (⟨1, ![C]⟩ : Shape).Idx → Val e) :
    (iprop(∃ g, (rowSq m s hq).view.loc c ↦[(rowSq m s hq).view.set]{q}
        (rowSq m s hq).view.writes Val g [⟨Rect.whole _, w⟩]) : sProp 𝕄)
      ⊢ owns c (m.slice (rowRect s) (rowRect_stride s)) q
          (fun j => w (ValueIdx.ix1 (⟨(j 1).val, (j 1).isLt⟩ : Fin C))) := by
  rw [rowSq_set]
  unfold owns
  iintro ⟨%g, H⟩
  iexists (rowSq m s hq).view.writes Val g [⟨Rect.whole _, w⟩]
  isplitr
  · ipureintro
    funext j
    have h0 : (j 0).val < 1 := (j 0).isLt
    have hk : Shape.reshapeEquiv hq.numel_eq (ValueIdx.ix1 (⟨(j 1).val, (j 1).isLt⟩ : Fin C)) = j :=
      Shape.reshapeEquiv_eq_of_rowMajor _ (by
        rw [Shape.rowMajor_val_two, Shape.rowMajor_val_one]
        show (j 0).val * C + (j 1).val = (j 1).val
        rw [Nat.lt_one_iff.mp h0, Nat.zero_mul, Nat.zero_add])
    have hw := View.read_writes_cons_emb (rowSq m s hq).view g (Rect.whole _) w []
      (ValueIdx.ix1 (⟨(j 1).val, (j 1).isLt⟩ : Fin C))
    rw [Rect.emb_whole_apply] at hw
    rw [← hw]
    conv_lhs => rw [← hk]
    rfl
  · iexact H

/-- The squeezed rows each held at a whole piece `p s` are the array owned at the contents whose row `s` is `p s`. -/
theorem rows_joinWF [∀ e, Nonempty (Val e)] (p : Fin R → ((⟨1, ![C]⟩ : Shape).Idx → Val e))
    (hq : (⟨2, ![1, C]⟩ : Shape).Squeezes ⟨1, ![C]⟩) :
    BI.bigSep Finset.univ (fun s : Fin R => iprop(∃ g, (rowSq m s hq).view.loc c ↦[(rowSq m s hq).view.set]{q}
        (rowSq m s hq).view.writes Val g [⟨Rect.whole _, p s⟩]))
      ⊢ (owns c m q (fun y => p ⟨(y 0).val, (y 0).isLt⟩ (ValueIdx.ix1 (⟨(y 1).val, (y 1).isLt⟩ : Fin C))) : sProp 𝕄) := by
  refine (BI.bigSep_mono fun s _ => (row_whole c m q s hq (p s)).trans ?_).trans
    (rows_join c m q (fun y => p ⟨(y 0).val, (y 0).isLt⟩ (ValueIdx.ix1 (⟨(y 1).val, (y 1).isLt⟩ : Fin C))))
  have e : (fun j : (rowRect (C := C) s).shape.Idx => p s (ValueIdx.ix1 (⟨(j 1).val, (j 1).isLt⟩ : Fin C)))
      = fun j => (fun y : (⟨2, ![R, C]⟩ : Shape).Idx => p ⟨(y 0).val, (y 0).isLt⟩ (ValueIdx.ix1 (⟨(y 1).val, (y 1).isLt⟩ : Fin C)))
          ((rowRect s).emb j) := by
    funext j
    have h0 : (j 0).val < 1 := (j 0).isLt
    have e0 : s = (⟨(((rowRect (C := C) s).emb j) 0).val, (((rowRect (C := C) s).emb j) 0).isLt⟩ : Fin R) :=
      Fin.ext (by show s.val = s.val + 1 * (j 0).val; omega)
    have e1 : (⟨(j 1).val, (j 1).isLt⟩ : Fin C)
        = ⟨(((rowRect (C := C) s).emb j) 1).val, (((rowRect (C := C) s).emb j) 1).isLt⟩ :=
      Fin.ext (by show (j 1).val = 0 + 1 * (j 1).val; omega)
    exact congrArg₂ (fun a b => p a (ValueIdx.ix1 b)) e0 e1
  rw [e]

end Squeezed

end Cert.LibRows

end
-- ==== Proof.Spec.lean ====
/-
  The shared vocabulary of the two sides. A row index v (a 32-bit word read from the venue table) selects a row of
  the 10000 × 10000 distance matrix: the kernel CLIPS it into [0, 9999] (max with 0, then min with 9999, signed),
  the reference WRAPS a negative one by 10000 (numpy's indexing) and the gather then CLAMPS it into [0, 9999].
  For a non-negative word both are min v 9999. Every entry of the selected row goes through the masked reciprocal
  1 / (if x = 0 then 10⁷ else x), the same operations on both sides at the extended reals.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev STab : Shape := ⟨2, ![64, 100]⟩
abbrev SMat : Shape := ⟨2, ![10000, 10000]⟩
abbrev SOut : Shape := ⟨3, ![64, 100, 10000]⟩

/-- The masked reciprocal of one entry: 1 / (if x = 0 then 10⁷ else x). -/
def mrecip (x : Ideal .f32) : Ideal .f32 :=
  Ideal.div (Ideal.ofBits .f32 0x3F800000#32)
    (Scalar.select (Ideal.cmp .oeq x (Ideal.ofBits .f32 0x00000000#32)) (Ideal.ofBits .f32 0x4B189680#32) x)

/-- The kernel's row: the word clipped into [0, 9999], read unsigned. -/
def rowK (v : BitVec 32) : ℕ := (IntOp.minsi 9999#32 (IntOp.maxsi 0#32 v)).toNat

/-- The reference's row: a negative word wrapped by 10000, then read signed and clamped into [0, 9999]. -/
def rowR (v : BitVec 32) : ℕ :=
  min (Scalar.select (IntOp.cmpi .slt v 0#32) (IntOp.addi v 10000#32) v).toInt.toNat 9999

theorem rowK_lt (v : BitVec 32) : rowK v < 10000 := by
  unfold rowK IntOp.minsi IntOp.maxsi
  simp only [BitVec.slt]
  split <;> split <;> simp_all [BitVec.toInt] <;> omega

theorem rowR_lt (v : BitVec 32) : rowR v < 10000 := by
  unfold rowR; omega

/-- The result as one function of the looked-up words g : [64, 100] and the matrix D: entry (b, s, j) is the masked
    reciprocal of D at (row (g (b, s)), j). -/
def out (row : BitVec 32 → ℕ) (hrow : ∀ v, row v < 10000) (g : IVec STab 32) (D : SMat.Idx → Ideal .f32) : SOut.Idx → Ideal .f32 :=
  fun y => mrecip (D (ix2 (⟨row (g (ix2 (⟨(y 0).val, (y 0).isLt⟩ : Fin 64) (⟨(y 1).val, (y 1).isLt⟩ : Fin 100))), hrow _⟩ : Fin 10000)
    (⟨(y 2).val, (y 2).isLt⟩ : Fin 10000)))

end Cert.Spec

end
-- ==== Proof.KHyps.lean ====
/-
  The side conditions of the kernel's frame hold whatever the inputs are. The prefetched table of row indices is
  computed before the kernel region: a first lookup g (the venue table gathered at the wrapped ids) is clipped into
  [0, 9999] — max with 0, then min with 9999, signed. Hence every word w of the table satisfies w < 10000 read
  unsigned, and the row block (w, 0) of extent 1 × 10000 lies inside the 10000 × 10000 matrix: that is each of the
  hundred conditions the body assumes of the hundred words it loads at a grid point. The pipeline's own side
  condition is trivial (no index map reads the table).
-/
import proofs.«403682_j71090298683716_2_alg».proof.Proof.Gen.Kernel.Frame.Runs
import proofs.«403682_j71090298683716_2_alg».proof.Proof.Spec

set_option maxRecDepth 16384

noncomputable section

namespace Cert.Kernel.HypsOfPre

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The first lookup g: the venue table gathered at the ids, a negative id first wrapped by the table's length. -/
def look : IVec S64x100 32 :=
  Host.gather gather_S20000_S64x100x1_S64x100_n_0_n_n_0_2_1
    (m (((0 : Dev nD) : Thread nD τ).loc main_arg0))
    (broadcastInDim S64x100x1 ![0, 1] bcast_S64x100_S64x100x1_0_1
      (select
        (cmpi .slt (m (((0 : Dev nD) : Thread nD τ).loc main_arg1))
          (broadcastInDim S64x100 ![] bcast_S_S64x100 (constantI S_ 32 0#32)))
        (addi (m (((0 : Dev nD) : Thread nD τ).loc main_arg1))
          (broadcastInDim S64x100 ![] bcast_S_S64x100 (constantI S_ 32 20000#32)))
        (m (((0 : Dev nD) : Thread nD τ).loc main_arg1))))

/-- The table the region finds: the first lookup clipped into [0, 9999]. -/
theorem tbl_eq : tbl m 0 = minsi (broadcastInDim S64x100 ![] bcast_S_S64x100 (constantI S_ 32 9999#32))
    (maxsi (broadcastInDim S64x100 ![] bcast_S_S64x100 (constantI S_ 32 0#32)) (look m)) := by
  unfold Gen.tbl
  show V m 0 main_v7 = _
  dsimp only [Gen.V]
  simp only [Gen.hostOps0, Gen.hostOps0_1, List.flatten_cons, List.flatten_nil, List.append_nil, List.cons_append, List.nil_append]
  after_results
  rfl

/-- One word of the table: the looked-up word clipped, max with 0 then min with 9999 (signed). -/
theorem tbl_apply (p : S64x100.Idx) : tbl m 0 p = IntOp.minsi 9999#32 (IntOp.maxsi 0#32 (look m p)) := by
  rw [tbl_eq]; rfl

/-- Every word of the table, read unsigned, is below 10000. -/
theorem tbl_lt (p : S64x100.Idx) : (tbl m 0 p).toNat < 10000 := by
  rw [tbl_apply]; exact Cert.Spec.rowK_lt _

/-- The pipeline's side condition of the table's words: no index map reads the table. -/
theorem ok : Ok m := trivial

/-- The word the body loads through a unit rectangle of the table is the table's word at the rectangle's index; in
    particular it is below 10000. -/
theorem word_lt (off : Fin 2 → Nat) (inb : ∀ a, off a + S1x1.size a ≤ S64x100.size a) (h1 : 0 < S1x1.numel) :
    (tbM0_0.view.readAt (Elt F) (Rect.unit (s := S64x100) off S1x1.size inb).toLoadRect (tbl m 0) (Shape.Idx.first h1)).toNat < 10000 :=
  tbl_lt m ((Rect.unit (s := S64x100) off S1x1.size inb).idx (Shape.Idx.first h1))

/-- Row v of extent 1 × 10000 lies inside the 10000 × 10000 matrix when v < 10000; said of two offset vectors, both
    (v, 0). -/
theorem chk_of_lt (f g : Fin 2 → ℕ) (v : BitVec 32) (hf : f = ![v.toNat, 0]) (hg : g = ![v.toNat, 0]) (h : v.toNat < 10000) :
    (∀ a, f a + S1x10000.size a ≤ S10000x10000.size a) ∧ (∀ a, g a + S1x10000.size a ≤ S10000x10000.size a) := by
  subst hf hg
  have : ∀ a, (![v.toNat, 0] : Fin 2 → ℕ) a + S1x10000.size a ≤ S10000x10000.size a := by
    intro a
    fin_cases a <;> simp [S1x10000, S10000x10000] <;> omega
  exact ⟨this, this⟩

/-- One side condition: the loaded word is below 10000, so its row block lies inside the matrix (the last word's
    condition names one offset vector, the others two). -/
macro "side_cond" : tactic =>
  `(tactic| (intro c t
             first
               | exact chk_of_lt _ _ _ rfl rfl (word_lt _ _ _ _)
               | exact (chk_of_lt _ _ _ rfl rfl (word_lt _ _ _ _)).1))

/-- The side conditions the body assumes of the hundred words it loads at each grid point. -/
theorem hyps (hO : Ok m) : Hyps m hO := by
  apply Hyps.of <;> side_cond

end Cert.Kernel.HypsOfPre

end
-- ==== Proof.KIHyps.lean ====
/-
  The side conditions of the kernel's frame hold whatever the inputs are. The prefetched table of row indices is
  computed before the kernel region: a first lookup g (the venue table gathered at the wrapped ids) is clipped into
  [0, 9999] — max with 0, then min with 9999, signed. Hence every word w of the table satisfies w < 10000 read
  unsigned, and the row block (w, 0) of extent 1 × 10000 lies inside the 10000 × 10000 matrix: that is each of the
  hundred conditions the body assumes of the hundred words it loads at a grid point. The pipeline's own side
  condition is trivial (no index map reads the table).
-/
import proofs.«403682_j71090298683716_2_alg».proof.Proof.Gen.KernelIdeal.Frame.Runs
import proofs.«403682_j71090298683716_2_alg».proof.Proof.Spec

set_option maxRecDepth 16384

noncomputable section

namespace Cert.KernelIdeal.HypsOfPre

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The first lookup g: the venue table gathered at the ids, a negative id first wrapped by the table's length. -/
def look : IVec S64x100 32 :=
  Host.gather gather_S20000_S64x100x1_S64x100_n_0_n_n_0_2_1
    (m (((0 : Dev nD) : Thread nD τ).loc main_arg0))
    (broadcastInDim S64x100x1 ![0, 1] bcast_S64x100_S64x100x1_0_1
      (select
        (cmpi .slt (m (((0 : Dev nD) : Thread nD τ).loc main_arg1))
          (broadcastInDim S64x100 ![] bcast_S_S64x100 (constantI S_ 32 0#32)))
        (addi (m (((0 : Dev nD) : Thread nD τ).loc main_arg1))
          (broadcastInDim S64x100 ![] bcast_S_S64x100 (constantI S_ 32 20000#32)))
        (m (((0 : Dev nD) : Thread nD τ).loc main_arg1))))

/-- The table the region finds: the first lookup clipped into [0, 9999]. -/
theorem tbl_eq : tbl m 0 = minsi (broadcastInDim S64x100 ![] bcast_S_S64x100 (constantI S_ 32 9999#32))
    (maxsi (broadcastInDim S64x100 ![] bcast_S_S64x100 (constantI S_ 32 0#32)) (look m)) := by
  unfold Gen.tbl
  show V m 0 main_v7 = _
  dsimp only [Gen.V]
  simp only [Gen.hostOps0, Gen.hostOps0_1, List.flatten_cons, List.flatten_nil, List.append_nil, List.cons_append, List.nil_append]
  after_results
  rfl

/-- One word of the table: the looked-up word clipped, max with 0 then min with 9999 (signed). -/
theorem tbl_apply (p : S64x100.Idx) : tbl m 0 p = IntOp.minsi 9999#32 (IntOp.maxsi 0#32 (look m p)) := by
  rw [tbl_eq]; rfl

/-- Every word of the table, read unsigned, is below 10000. -/
theorem tbl_lt (p : S64x100.Idx) : (tbl m 0 p).toNat < 10000 := by
  rw [tbl_apply]; exact Cert.Spec.rowK_lt _

/-- The pipeline's side condition of the table's words: no index map reads the table. -/
theorem ok : Ok m := trivial

/-- The word the body loads through a unit rectangle of the table is the table's word at the rectangle's index; in
    particular it is below 10000. -/
theorem word_lt (off : Fin 2 → Nat) (inb : ∀ a, off a + S1x1.size a ≤ S64x100.size a) (h1 : 0 < S1x1.numel) :
    (tbM0_0.view.readAt (Elt F) (Rect.unit (s := S64x100) off S1x1.size inb).toLoadRect (tbl m 0) (Shape.Idx.first h1)).toNat < 10000 :=
  tbl_lt m ((Rect.unit (s := S64x100) off S1x1.size inb).idx (Shape.Idx.first h1))

/-- Row v of extent 1 × 10000 lies inside the 10000 × 10000 matrix when v < 10000; said of two offset vectors, both
    (v, 0). -/
theorem chk_of_lt (f g : Fin 2 → ℕ) (v : BitVec 32) (hf : f = ![v.toNat, 0]) (hg : g = ![v.toNat, 0]) (h : v.toNat < 10000) :
    (∀ a, f a + S1x10000.size a ≤ S10000x10000.size a) ∧ (∀ a, g a + S1x10000.size a ≤ S10000x10000.size a) := by
  subst hf hg
  have : ∀ a, (![v.toNat, 0] : Fin 2 → ℕ) a + S1x10000.size a ≤ S10000x10000.size a := by
    intro a
    fin_cases a <;> simp [S1x10000, S10000x10000] <;> omega
  exact ⟨this, this⟩

/-- One side condition: the loaded word is below 10000, so its row block lies inside the matrix (the last word's
    condition names one offset vector, the others two). -/
macro "side_cond" : tactic =>
  `(tactic| (intro c t
             first
               | exact chk_of_lt _ _ _ rfl rfl (word_lt _ _ _ _)
               | exact (chk_of_lt _ _ _ rfl rfl (word_lt _ _ _ _)).1))

/-- The side conditions the body assumes of the hundred words it loads at each grid point. -/
theorem hyps (hO : Ok m) : Hyps m hO := by
  apply Hyps.of <;> side_cond

end Cert.KernelIdeal.HypsOfPre

end
-- ==== Proof.KIPre.lean ====
/-
  The precondition decoded for the first lookup. The precondition is the conjunction of two "all" reductions: every
  entry of the matrix is finite in absolute value, and every entry of the venue table is non-negative (signed). The
  first lookup g reads the venue table at a start index clamped into [0, 19999], so each word of g is an entry of the
  venue table, hence non-negative.
-/
import proofs.«403682_j71090298683716_2_alg».proof.Defs
import proofs.«403682_j71090298683716_2_alg».proof.Proof.Gen.Pre_finite_inputs
import proofs.«403682_j71090298683716_2_alg».proof.Proof.KIHyps
import Idealize.ShloMosaic.Lib.ReduceAll
import Idealize.ShloMosaic.Lib.ValueIdx

noncomputable section

namespace Cert.KernelIdeal.PreDecode

open Cert.KernelIdeal
open Idealize.ShloMosaic Idealize.ShloMosaic.TcCoe Idealize.ShloMosaic.ValueIdx Idealize.SL.Sem

/-- The scalar shape has one index. -/
instance subsingleton_scalar_idx : Subsingleton Cert.Pre_finite_inputs.S_.Idx := ⟨fun a b => funext fun d => d.elim0⟩

/-- The precondition's second conjunct, entry by entry: every word of the venue table is non-negative (signed). -/
theorem arg0_nonneg [hP : Cert.Pre_finite_inputs.Facts]
    (m : (ℓ : Loc Cert.KernelIdeal.nD Cert.KernelIdeal.τ Cert.KernelIdeal.sig) → Buf (Elt Ideal) ℓ)
    (h : Cert.Pre_KernelIdeal m) (k : Cert.KernelIdeal.S20000.Idx) :
    IntOp.cmpi .sge (m (((0 : Dev Cert.KernelIdeal.nD) : Thread Cert.KernelIdeal.nD Cert.KernelIdeal.τ).loc Cert.KernelIdeal.main_arg0) k) 0#32 = 1#1 := by
  have e := congrFun (h 0) ValueIdx.ix0
  dsimp only [Cert.Pre_finite_inputs.fn] at e
  obtain ⟨-, e2⟩ := IntOp.andi_eq_one.1 e
  exact Host.reduce_andi_all _ _ _ _ _ e2 k

/-- Every word of the first lookup is non-negative (signed): it is an entry of the venue table. -/
theorem look_nonneg [hP : Cert.Pre_finite_inputs.Facts]
    (m : (ℓ : Loc Cert.KernelIdeal.nD Cert.KernelIdeal.τ Cert.KernelIdeal.sig) → Buf (Elt Ideal) ℓ)
    (h : Cert.Pre_KernelIdeal m) (p : Cert.KernelIdeal.S64x100.Idx) :
    IntOp.cmpi .sge (Cert.KernelIdeal.HypsOfPre.look (F := Ideal) m p) 0#32 = 1#1 := by
  have e : Cert.KernelIdeal.HypsOfPre.look (F := Ideal) m p = _ :=
    gather_take_apply (N := 20000) (R := 64) (C := 100) (by decide) _ _ _ p
  rw [e]
  exact arg0_nonneg m h _

end Cert.KernelIdeal.PreDecode

end
-- ==== Proof.KISrc.lean ====
/-
  What the body reads, at an index. The word the body loads from the prefetched table through the unit rectangle at
  offsets (b, s) is the table's entry (b, s). The row the body copies from the 10000 × 10000 matrix through the unit-row
  rectangle at offsets (r, 0), squeezed to a vector of 10000, holds at position j the matrix entry (r, j): the squeezed
  view's index j is matched with (0, j) of the 1 × 10000 slice by row-major position, the slice adds its offsets, and
  the whole matrix is read as it is. The grid coordinate, a number below 64, survives its passage through a 32-bit word.
-/
import proofs.«403682_j71090298683716_2_alg».proof.Proof.Gen.KernelIdeal.Frame.Runs
import Idealize.ShloMosaic.Lib.ValueIdx

set_option maxRecDepth 16384

noncomputable section

namespace Cert.KernelIdeal.SrcRow

open Cert.KernelIdeal Cert.KernelIdeal.Gen
open Idealize.ShloMosaic Idealize.ShloMosaic.TcCoe Idealize.ShloMosaic.ValueIdx

variable {F : FTy → Type} [FloatOps F]

/-- Index j of the squeezed row is matched with (0, j) of the 1 × 10000 slice: the same row-major position. -/
theorem squeeze_idx (hn : S10000.numel = S1x10000.numel) (j : S10000.Idx) :
    Shape.reshapeEquiv hn j = ix2 (⟨0, Nat.one_pos⟩ : Fin 1) (⟨(j 0).val, (j 0).isLt⟩ : Fin 10000) :=
  Shape.reshapeEquiv_eq_of_rowMajor hn (by
    rw [Shape.rowMajor_val_two, Shape.rowMajor_val_one]
    show 0 * 10000 + (j 0).val = (j 0).val
    rw [Nat.zero_mul, Nat.zero_add])

/-- The copied row at position j is the matrix entry (r, j), r the row the rectangle starts at. -/
theorem src_read (c : Dev nD) (fh0 : HbBuf0 (F := F) c hbM0_0) (off : Fin 2 → ℕ)
    (h : ∀ a, off a + S1x10000.size a ≤ S10000x10000.size a) (r : ℕ) (hr : r < 10000) (hoff : off = ![r, 0])
    (j : S10000.Idx) :
    ReadAs.apply .same ((((Memref.whole main_arg2).slice (Rect.unit (s := S10000x10000) off S1x10000.size h) (fun _ => rfl)).squeeze S10000 squeezes_S1x10000_S10000).view.read (Elt F) fh0) j
      = fh0 (ix2 (⟨r, hr⟩ : Fin 10000) (⟨(j 0).val, (j 0).isLt⟩ : Fin 10000)) := by
  subst hoff
  have key : (Rect.unit (s := S10000x10000) ![r, 0] S1x10000.size h).emb
      (Shape.reshapeEquiv (Shape.Squeezes.numel_eq squeezes_S1x10000_S10000) j)
        = ix2 (⟨r, hr⟩ : Fin 10000) (⟨(j 0).val, (j 0).isLt⟩ : Fin 10000) := by
    rw [squeeze_idx]
    funext a
    apply Fin.ext
    match a with
    | ⟨0, _⟩ => show r + 1 * 0 = r; omega
    | ⟨1, _⟩ => show 0 + 1 * (j 0).val = (j 0).val; omega
  exact congrArg (fh0 : S10000x10000.Idx → Elt F .f32) key

/-- The loaded word is the table's entry at the rectangle's offsets. -/
theorem word_read (c : Dev nD) (xt0 : TbBuf0 (F := F) c tbM0_0) (off : Fin 2 → ℕ)
    (h : ∀ a, off a + S1x1.size a ≤ S64x100.size a) (b s : ℕ) (hb : b < 64) (hs : s < 100) (hoff : off = ![b, s])
    (h1 : 0 < S1x1.numel) :
    tbM0_0.view.readAt (Elt F) (Rect.unit (s := S64x100) off S1x1.size h).toLoadRect xt0 (Shape.Idx.first h1)
      = (xt0 : S64x100.Idx → BitVec 32) (ix2 (⟨b, hb⟩ : Fin 64) (⟨s, hs⟩ : Fin 100)) := by
  subst hoff
  have key : (Rect.unit (s := S64x100) ![b, s] S1x1.size h).idx (Shape.Idx.first h1)
      = ix2 (⟨b, hb⟩ : Fin 64) (⟨s, hs⟩ : Fin 100) := by
    funext a
    apply Fin.ext
    match a with
    | ⟨0, _⟩ => show b + 1 * 0 = b; omega
    | ⟨1, _⟩ => show s + 1 * 0 = s; omega
  exact congrArg (xt0 : S64x100.Idx → BitVec 32) key

/-- A grid coordinate is below 64, so as a 32-bit word read back it is itself. -/
theorem gridRow (i : grid0.Coords) : (Scalar.indexCast (BitVec.ofNat 32 (i 0).val)).toNat = (i 0).val := by
  have hlt : (i 0).val < 64 := (i 0).isLt
  show (BitVec.ofNat 32 (i 0).val).toNat = (i 0).val
  rw [BitVec.toNat_ofNat]
  exact Nat.mod_eq_of_lt (by omega)

/-- The copied row named by a word w, said with w's equal x: position j of the row starting at (w, 0) is the matrix
    entry (min x 9999, j) — the rectangle lies inside the matrix, so w < 10000 and the min does nothing. -/
theorem row_of_word (c : Dev nD) (fh0 : HbBuf0 (F := F) c hbM0_0) (w : BitVec 32) (offr : Fin 2 → ℕ)
    (hr : ∀ a, offr a + S1x10000.size a ≤ S10000x10000.size a) (hoffr : offr = ![w.toNat, 0])
    (x : BitVec 32) (hwx : w = x) (j : S10000.Idx) :
    ReadAs.apply .same ((((Memref.whole main_arg2).slice (Rect.unit (s := S10000x10000) offr S1x10000.size hr) (fun _ => rfl)).squeeze S10000 squeezes_S1x10000_S10000).view.read (Elt F) fh0) j
      = fh0 (ix2 (⟨min x.toNat 9999, by omega⟩ : Fin 10000) (⟨(j 0).val, (j 0).isLt⟩ : Fin 10000)) := by
  subst hoffr hwx
  have hr0 : w.toNat < 10000 := hr 0
  rw [src_read c fh0 _ hr w.toNat hr0 rfl j]
  have e : (⟨w.toNat, hr0⟩ : Fin 10000) = ⟨min w.toNat 9999, by omega⟩ :=
    Fin.ext (by show w.toNat = min w.toNat 9999; omega)
  rw [e]

/-- Row s of the scratch after its copy at grid point i: the body loads the table word at (i, s) and copies the matrix
    row that word names; position j of the copied row is the matrix entry (min w 9999, j), w the table's entry (i, s). -/
theorem row_payload (c : Dev nD) (i : grid0.Coords) (xt0 : TbBuf0 (F := F) c tbM0_0) (fh0 : HbBuf0 (F := F) c hbM0_0) (s : ℕ) (hs : s < 100)
    (offw : Fin 2 → ℕ) (hw : ∀ a, offw a + S1x1.size a ≤ S64x100.size a) (hoffw : offw = ![(Scalar.indexCast (BitVec.ofNat 32 (i 0).val)).toNat, s]) (h1 : 0 < S1x1.numel)
    (offr : Fin 2 → ℕ) (hr : ∀ a, offr a + S1x10000.size a ≤ S10000x10000.size a)
    (hoffr : offr = ![(tbM0_0.view.readAt (Elt F) (Rect.unit (s := S64x100) offw S1x1.size hw).toLoadRect xt0 (Shape.Idx.first h1)).toNat, 0])
    (j : S10000.Idx) :
    ReadAs.apply .same ((((Memref.whole main_arg2).slice (Rect.unit (s := S10000x10000) offr S1x10000.size hr) (fun _ => rfl)).squeeze S10000 squeezes_S1x10000_S10000).view.read (Elt F) fh0) j
      = fh0 (ix2 (⟨min ((xt0 : S64x100.Idx → BitVec 32) (ix2 (⟨(i 0).val, (i 0).isLt⟩ : Fin 64) (⟨s, hs⟩ : Fin 100))).toNat 9999, by omega⟩ : Fin 10000) (⟨(j 0).val, (j 0).isLt⟩ : Fin 10000)) := by
  subst hoffw
  exact row_of_word c fh0 _ offr hr hoffr _
    (word_read c xt0 _ hw (i 0).val s (i 0).isLt hs (by rw [gridRow]) h1) j

/-- The form it is used in: the offsets are the body's own offset functions, which unfold to the vectors above. -/
example (c : Dev nD) (i : grid0.Coords) (xt0 : TbBuf0 (F := F) c tbM0_0) (fh0 : HbBuf0 (F := F) c hbM0_0)
    (hw2 : k0_chk2 (tbM0_0.view.readAt (Elt F) (Rect.unit (s := S64x100) (k0_off3 i) S1x1.size (k0_off3_inb i)).toLoadRect xt0 (Shape.Idx.first (numel1_S1x1.symm ▸ Nat.one_pos))))
    (j : S10000.Idx) :
    ReadAs.apply .same ((((Memref.whole main_arg2).slice (Rect.unit (s := S10000x10000) (k0_off4 (tbM0_0.view.readAt (Elt F) (Rect.unit (s := S64x100) (k0_off3 i) S1x1.size (k0_off3_inb i)).toLoadRect xt0 (Shape.Idx.first (numel1_S1x1.symm ▸ Nat.one_pos)))) S1x10000.size (k0_off4_inb (tbM0_0.view.readAt (Elt F) (Rect.unit (s := S64x100) (k0_off3 i) S1x1.size (k0_off3_inb i)).toLoadRect xt0 (Shape.Idx.first (numel1_S1x1.symm ▸ Nat.one_pos))) hw2)) (fun _ => rfl)).squeeze S10000 squeezes_S1x10000_S10000).view.read (Elt F) fh0) j
      = fh0 (ix2 (⟨min ((xt0 : S64x100.Idx → BitVec 32) (ix2 (⟨(i 0).val, (i 0).isLt⟩ : Fin 64) (⟨1, by decide⟩ : Fin 100))).toNat 9999, by omega⟩ : Fin 10000) (⟨(j 0).val, (j 0).isLt⟩ : Fin 10000)) := by
  exact row_payload c i xt0 fh0 1 (by decide) _ _ rfl _ _ _ rfl _

end Cert.KernelIdeal.SrcRow

end
-- ==== Proof.KIPay.lean ====
/-
  The store payloads of the body, entry by entry. Each payload takes a 20 × 10000 tile x of gathered matrix rows to
  1 / (if x = 0 then 10⁷ else x), computed entrywise, and re-lays it as 1 × 20 × 10000: entry (u, i, j) of the result
  is the entry (i, j) of the tile, the two having the same row-major position. So each payload at (u, i, j) is the
  masked reciprocal of x (i, j).
-/
import proofs.«403682_j71090298683716_2_alg».proof.Proof.Gen.KernelIdeal.Skeleton
import proofs.«403682_j71090298683716_2_alg».proof.Proof.Spec
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

noncomputable section

namespace Cert.KernelIdeal.Pay

open Cert.KernelIdeal Cert.KernelIdeal.Gen
open Idealize.ShloMosaic Idealize.ShloMosaic.ValueIdx

/-- A 20 × 10000 array re-laid as 1 × 20 × 10000 reads, at (u, i, j), the array at (i, j). -/
theorem relay_apply {α : Type} (x : S20x10000.Idx → α) (h : S20x10000.ShapeCasts S1x20x10000) (y : S1x20x10000.Idx) :
    shapeCast S1x20x10000 x h y
      = x (ix2 (⟨(y 1).val, (y 1).isLt⟩ : Fin 20) (⟨(y 2).val, (y 2).isLt⟩ : Fin 10000)) :=
  shapeCast_apply x h y _ (by
    have h0 : (y 0).val < 1 := (y 0).isLt
    rw [Shape.rowMajor_val_three, Shape.rowMajor_val_two]
    show (y 1).val * 10000 + (y 2).val = ((y 0).val * 20 + (y 1).val) * 10000 + (y 2).val
    omega)

/-- The entrywise computation at one entry is the masked reciprocal. -/
theorem recip_entry (v : Vec Ideal S20x10000 .f32) (k : S20x10000.Idx) :
    divf (broadcast S20x10000 (Scalar.ofBits (F := Ideal) .f32 0x3F800000#32))
        (select (cmpf .oeq v (broadcast S20x10000 (Scalar.ofBits (F := Ideal) .f32 0x00000000#32)))
          (broadcast S20x10000 (Scalar.ofBits (F := Ideal) .f32 0x4B189680#32)) v) k
      = Cert.Spec.mrecip (v k) := rfl

theorem pay2_apply (v : Vec Ideal S20x10000 .f32) (y : S1x20x10000.Idx) :
    k0_pay2 (F := Ideal) v y
      = Cert.Spec.mrecip (v (ix2 (⟨(y 1).val, (y 1).isLt⟩ : Fin 20) (⟨(y 2).val, (y 2).isLt⟩ : Fin 10000))) := by
  unfold k0_pay2
  rw [relay_apply, recip_entry]

theorem pay3_apply (v : Vec Ideal S20x10000 .f32) (y : S1x20x10000.Idx) :
    k0_pay3 (F := Ideal) v y
      = Cert.Spec.mrecip (v (ix2 (⟨(y 1).val, (y 1).isLt⟩ : Fin 20) (⟨(y 2).val, (y 2).isLt⟩ : Fin 10000))) := by
  unfold k0_pay3
  rw [relay_apply, recip_entry]

theorem pay4_apply (v : Vec Ideal S20x10000 .f32) (y : S1x20x10000.Idx) :
    k0_pay4 (F := Ideal) v y
      = Cert.Spec.mrecip (v (ix2 (⟨(y 1).val, (y 1).isLt⟩ : Fin 20) (⟨(y 2).val, (y 2).isLt⟩ : Fin 10000))) := by
  unfold k0_pay4
  rw [relay_apply, recip_entry]

theorem pay5_apply (v : Vec Ideal S20x10000 .f32) (y : S1x20x10000.Idx) :
    k0_pay5 (F := Ideal) v y
      = Cert.Spec.mrecip (v (ix2 (⟨(y 1).val, (y 1).isLt⟩ : Fin 20) (⟨(y 2).val, (y 2).isLt⟩ : Fin 10000))) := by
  unfold k0_pay5
  rw [relay_apply, recip_entry]

theorem pay16_apply (v : Vec Ideal S20x10000 .f32) (y : S1x20x10000.Idx) :
    k0_pay1 (F := Ideal) (k0_pay6 (F := Ideal) v) y
      = Cert.Spec.mrecip (v (ix2 (⟨(y 1).val, (y 1).isLt⟩ : Fin 20) (⟨(y 2).val, (y 2).isLt⟩ : Fin 10000))) := by
  unfold k0_pay1 k0_pay6
  rw [relay_apply, recip_entry]

end Cert.KernelIdeal.Pay

end
-- ==== Proof.KIPoint.lean ====
/-
  What the kernel's block of the result holds after the body at a grid point i: entry (0, s, j) is the masked
  reciprocal 1 / (if x = 0 then 10⁷ else x) of the matrix entry x = D (min w_s 9999, j), where w_s is the table word at
  (i, s). The body copies, for each s < 100, row w_s of the matrix into row s of a scratch (w_s < 10000 is the side
  condition it assumes, so the min does nothing), then in five pieces of twenty rows loads the scratch, takes the masked
  reciprocal entrywise and stores the piece at rows 20k … 20k + 19 of the block. Piece k at (0, a, b) is therefore the
  masked reciprocal of the scratch at (20k + a, b), which is the copied row 20k + a at position b.
-/
import proofs.«403682_j71090298683716_2_alg».proof.Proof.KIFrame
import proofs.«403682_j71090298683716_2_alg».proof.Proof.KISrc
import proofs.«403682_j71090298683716_2_alg».proof.Proof.KIPay
import proofs.«403682_j71090298683716_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.PointValue

open Cert.KernelIdeal Cert.KernelIdeal.Gen Cert.KernelIdeal.GenP
open Idealize.ShloMosaic Idealize.ShloMosaic.TcCoe Idealize.ShloMosaic.Tactic Idealize.ShloMosaic.ValueIdx Idealize.SL.Sem
open Cert.KernelIdeal.SrcRow

/-- The block of the result at grid point i, as a function of the table words and the matrix. -/
def blockVal (c : Dev nD) (i : grid0.Coords) (xt0 : TbBuf0 (F := Ideal) c tbM0_0) (fh0 : HbBuf0 (F := Ideal) c hbM0_0) : Vec Ideal S1x100x10000 .f32 :=
  fun y => Cert.Spec.mrecip (fh0 (ix2 (⟨min ((xt0 : S64x100.Idx → BitVec 32) (ix2 (⟨(i 0).val, (i 0).isLt⟩ : Fin 64) (⟨(y 1).val, (y 1).isLt⟩ : Fin 100))).toNat 9999, by omega⟩ : Fin 10000) (⟨(y 2).val, (y 2).isLt⟩ : Fin 10000)))

/-- The block at an index whose row and column are known. -/
theorem blockVal_at (c : Dev nD) (i : grid0.Coords) (xt0 : TbBuf0 (F := Ideal) c tbM0_0) (fh0 : HbBuf0 (F := Ideal) c hbM0_0)
    (y : S1x100x10000.Idx) (s j : ℕ) (hs : s < 100) (hj : j < 10000) (e1 : (y 1).val = s) (e2 : (y 2).val = j) :
    blockVal c i xt0 fh0 y
      = Cert.Spec.mrecip (fh0 (ix2 (⟨min ((xt0 : S64x100.Idx → BitVec 32) (ix2 (⟨(i 0).val, (i 0).isLt⟩ : Fin 64) (⟨s, hs⟩ : Fin 100))).toNat 9999, by omega⟩ : Fin 10000) (⟨j, hj⟩ : Fin 10000))) := by
  subst e1 e2; rfl

/-- A load of twenty rows of the scratch from row r0 on, the scratch holding G: entry (a, b) is G (r0 + a, b). -/
theorem load_rows (arg4 : Memref sig .tc .vmem S100x10000 .f32) (harg4 : arg4.IsWhole) (G : S100x10000.Idx → Ideal .f32)
    (off : Fin 2 → ℕ) (inb : ∀ a, off a + S20x10000.size a ≤ S100x10000.size a) (r0 : ℕ) (hoff : off = ![r0, 0])
    (a : Fin 20) (b : Fin 10000) (hlt : r0 + a.val < 100) :
    View.readAt (Elt Ideal) arg4.view (Rect.unit (s := S100x10000) off S20x10000.size inb).toLoadRect (harg4.unread G) (ix2 a b)
      = G (ix2 (⟨r0 + a.val, hlt⟩ : Fin 100) b) := by
  subst hoff
  have e : (Rect.unit (s := S100x10000) ![r0, 0] S20x10000.size inb).idx (ix2 a b) = ix2 (⟨r0 + a.val, hlt⟩ : Fin 100) b := by
    funext d
    apply Fin.ext
    match d with
    | ⟨0, _⟩ => show r0 + 1 * a.val = r0 + a.val; omega
    | ⟨1, _⟩ => show 0 + 1 * b.val = b.val; omega
  have e0 : View.readAt (Elt Ideal) arg4.view (Rect.unit (s := S100x10000) ![r0, 0] S20x10000.size inb).toLoadRect (harg4.unread G) (ix2 a b)
      = G ((Rect.unit (s := S100x10000) ![r0, 0] S20x10000.size inb).idx (ix2 a b)) :=
    congrFun (Memref.IsWhole.read_unread (Val := Elt Ideal) harg4 G) _
  rw [e0, e]

/-- One piece: the scratch's row s is fam s; twenty of its rows from row r0 on, each the copied matrix row its table
    word names, loaded, taken through the masked reciprocal and laid at rows r0 … r0 + 19 of the block, are the block
    there. -/
theorem piece_eq (c : Dev nD) (i : grid0.Coords) (xt0 : TbBuf0 (F := Ideal) c tbM0_0) (fh0 : HbBuf0 (F := Ideal) c hbM0_0)
    (arg4 : Memref sig .tc .vmem S100x10000 .f32) (harg4 : arg4.IsWhole)
    (fam : Fin 100 → S10000.Idx → Ideal .f32) (G : S100x10000.Idx → Ideal .f32)
    (hGdef : G = fun y => fam ⟨(y 0).val, (y 0).isLt⟩ (ix1 (⟨(y 1).val, (y 1).isLt⟩ : Fin 10000)))
    (r0 : ℕ) (hr0 : r0 + 20 ≤ 100)
    (offL : Fin 2 → ℕ) (inbL : ∀ a, offL a + S20x10000.size a ≤ S100x10000.size a) (hoffL : offL = ![r0, 0])
    (offS : Fin 3 → ℕ) (inbS : ∀ a, offS a + S1x20x10000.size a ≤ S1x100x10000.size a) (hoffS : offS = ![0, r0, 0])
    (hF : ∀ (v : Fin 20) (j : S10000.Idx), fam (⟨r0 + v.val, by omega⟩ : Fin 100) j
      = fh0 (ix2 (⟨min ((xt0 : S64x100.Idx → BitVec 32) (ix2 (⟨(i 0).val, (i 0).isLt⟩ : Fin 64) (⟨r0 + v.val, by omega⟩ : Fin 100))).toNat 9999, by omega⟩ : Fin 10000) (⟨(j 0).val, (j 0).isLt⟩ : Fin 10000)))
    (x : S1x20x10000.Idx) :
    Cert.Spec.mrecip (View.readAt (Elt Ideal) arg4.view (Rect.unit (s := S100x10000) offL S20x10000.size inbL).toLoadRect (harg4.unread G)
        (ix2 (⟨(x 1).val, (x 1).isLt⟩ : Fin 20) (⟨(x 2).val, (x 2).isLt⟩ : Fin 10000)))
      = blockVal c i xt0 fh0 ((Rect.unit (s := S1x100x10000) offS S1x20x10000.size inbS).emb x) := by
  subst hoffS
  have h1 : (x 1).val < 20 := (x 1).isLt
  rw [blockVal_at c i xt0 fh0 _ (r0 + (x 1).val) (x 2).val (by omega) (x 2).isLt
    (by show r0 + 1 * (x 1).val = r0 + (x 1).val; omega) (by show 0 + 1 * (x 2).val = (x 2).val; omega)]
  rw [load_rows arg4 harg4 G offL inbL r0 hoffL _ _ (by show r0 + (x 1).val < 100; omega)]
  subst hGdef
  exact congrArg Cert.Spec.mrecip (hF ⟨(x 1).val, h1⟩ (ix1 (⟨(x 2).val, (x 2).isLt⟩ : Fin 10000)))

/-- The twenty rows of a piece, one by one: row r0 + v of the scratch is the row copy's payload, position j of which is
    the matrix entry (min w 9999, j), w the table word at (i, r0 + v). -/
macro "rows" : tactic =>
  `(tactic| (intro v j
             rcases v with ⟨v, hv⟩
             interval_cases v <;> exact row_payload (F := Ideal) _ _ _ _ _ _ _ _ rfl _ _ _ rfl _))

set_option maxHeartbeats 4000000 in
theorem out_eq (c : Dev nD) (i : grid0.Coords) (arg3 : Memref sig .tc .vmem S1x100x10000 .f32) (harg3 : arg3.IsWhole) (arg4 : Memref sig .tc .vmem S100x10000 .f32) (harg4 : arg4.IsWhole)
    (xt0 : TbBuf0 (F := Ideal) c tbM0_0) (fh0 : HbBuf0 (F := Ideal) c hbM0_0) (k0_hw1 : k0_chk1 (tbM0_0.view.readAt (Elt Ideal) (Rect.unit (s := S64x100) (k0_off1 i) S1x1.size (k0_off1_inb i)).toLoadRect xt0 (Shape.Idx.first (numel1_S1x1.symm ▸ Nat.one_pos)))) (k0_hw2 : k0_chk2 (tbM0_0.view.readAt (Elt Ideal) (Rect.unit (s := S64x100) (k0_off3 i) S1x1.size (k0_off3_inb i)).toLoadRect xt0 (Shape.Idx.first (numel1_S1x1.symm ▸ Nat.one_pos)))) (k0_hw3 : k0_chk3 (tbM0_0.view.readAt (Elt Ideal) (Rect.unit (s := S64x100) (k0_off5 i) S1x1.size (k0_off5_inb i)).toLoadRect xt0 (Shape.Idx.first (numel1_S1x1.symm ▸ Nat.one_pos)))) (k0_hw4 : k0_chk4 (tbM0_0.view.readAt (Elt Ideal) (Rect.unit (s := S64x100) (k0_off7 i) S1x1.size (k0_off7_inb i)).toLoadRect xt0 (Shape.Idx.first (numel1_S1x1.symm ▸ Nat.one_pos)))) (k0_hw5 : k0_chk5 (tbM0_0.view.readAt (Elt Ideal) (Rect.unit (s := S64x100) (k0_off9 i) S1x1.size (k0_off9_inb i)).toLoadRect xt0 (Shape.Idx.first (numel1_S1x1.symm ▸ Nat.one_pos)))) (k0_hw6 : k0_chk6 (tbM0_0.view.readAt (Elt Ideal) (Rect.unit (s := S64x100) (k0_off11 i) S1x1.size (k0_off11_inb i)).toLoadRect xt0 (Shape.Idx.first (numel1_S1x1.symm ▸ Nat.one_pos)))) (k0_hw7 : k0_chk7 (tbM0_0.view.readAt (Elt Ideal) (Rect.unit (s := S64x100) (k0_off13 i) S1x1.size (k0_off13_inb i)).toLoadRect xt0 (Shape.Idx.first (numel1_S1x1.symm ▸ Nat.one_pos)))) (k0_hw8 : k0_chk8 (tbM0_0.view.readAt (Elt Ideal) (Rect.unit (s := S64x100) (k0_off15 i) S1x1.size (k0_off15_inb i)).toLoadRect xt0 (Shape.Idx.first (numel1_S1x1.symm ▸ Nat.one_pos)))) (k0_hw9 : k0_chk9 (tbM0_0.view.readAt (Elt Ideal) (Rect.unit (s := S64x100) (k0_off17 i) S1x1.size (k0_off17_inb i)).toLoadRect xt0 (Shape.Idx.first (numel1_S1x1.symm ▸ Nat.one_pos)))) (k0_hw10 : k0_chk10 (tbM0_0.view.readAt (Elt Ideal) (Rect.unit (s := S64x100) (k0_off19 i) S1x1.size (k0_off19_inb i)).toLoadRect xt0 (Shape.Idx.first (numel1_S1x1.symm ▸ Nat.one_pos)))) (k0_hw11 : k0_chk11 (tbM0_0.view.readAt (Elt Ideal) (Rect.unit (s := S64x100) (k0_off21 i) S1x1.size (k0_off21_inb i)).toLoadRect xt0 (Shape.Idx.first (numel1_S1x1.symm ▸ Nat.one_pos)))) (k0_hw12 : k0_chk12 (tbM0_0.view.readAt (Elt Ideal) (Rect.unit (s := S64x100) (k0_off23 i) S1x1.size (k0_off23_inb i)).toLoadRect xt0 (Shape.Idx.first (numel1_S1x1.symm ▸ Nat.one_pos)))) (k0_hw13 : k0_chk13 (tbM0_0.view.readAt (Elt Ideal) (Rect.unit (s := S64x100) (k0_off25 i) S1x1.size (k0_off25_inb i)).toLoadRect xt0 (Shape.Idx.first (numel1_S1x1.symm ▸ Nat.one_pos)))) (k0_hw14 : k0_chk14 (tbM0_0.view.readAt (Elt Ideal) (Rect.unit (s := S64x100) (k0_off27 i) S1x1.size (k0_off27_inb i)).toLoadRect xt0 (Shape.Idx.first (numel1_S1x1.symm ▸ Nat.one_pos)))) (k0_hw15 : k0_chk15 (tbM0_0.view.readAt (Elt Ideal) (Rect.unit (s := S64x100) (k0_off29 i) S1x1.size (k0_off29_inb i)).toLoadRect xt0 (Shape.Idx.first (numel1_S1x1.symm ▸ Nat.one_pos)))) (k0_hw16 : k0_chk16 (tbM0_0.view.readAt (Elt Ideal) (Rect.unit (s := S64x100) (k0_off31 i) S1x1.size (k0_off31_inb i)).toLoadRect xt0 (Shape.Idx.first (numel1_S1x1.symm ▸ Nat.one_pos)))) (k0_hw17 : k0_chk17 (tbM0_0.view.readAt (Elt Ideal) (Rect.unit (s := S64x100) (k0_off33 i) S1x1.size (k0_off33_inb i)).toLoadRect xt0 (Shape.Idx.first (numel1_S1x1.symm ▸ Nat.one_pos)))) (k0_hw18 : k0_chk18 (tbM0_0.view.readAt (Elt Ideal) (Rect.unit (s := S64x100) (k0_off35 i) S1x1.size (k0_off35_inb i)).toLoadRect xt0 (Shape.Idx.first (numel1_S1x1.symm ▸ Nat.one_pos)))) (k0_hw19 : k0_chk19 (tbM0_0.view.readAt (Elt Ideal) (Rect.unit (s := S64x100) (k0_off37 i) S1x1.size (k0_off37_inb i)).toLoadRect xt0 (Shape.Idx.first (numel1_S1x1.symm ▸ Nat.one_pos)))) (k0_hw20 : k0_chk20 (tbM0_0.view.readAt (Elt Ideal) (Rect.unit (s := S64x100) (k0_off39 i) S1x1.size (k0_off39_inb i)).toLoadRect xt0 (Shape.Idx.first (numel1_S1x1.symm ▸ Nat.one_pos)))) (k0_hw21 : k0_chk21 (tbM0_0.view.readAt (Elt Ideal) (Rect.unit (s := S64x100) (k0_off41 i) S1x1.size (k0_off41_inb i)).toLoadRect xt0 (Shape.Idx.first (numel1_S1x1.symm ▸ Nat.one_pos)))) (k0_hw22 : k0_chk22 (tbM0_0.view.readAt (Elt Ideal) (Rect.unit (s := S64x100) (k0_off43 i) S1x1.size (k0_off43_inb i)).toLoadRect xt0 (Shape.Idx.first (numel1_S1x1.symm ▸ Nat.one_pos)))) (k0_hw23 : k0_chk23 (tbM0_0.view.readAt (Elt Ideal) (Rect.unit (s := S64x100) (k0_off45 i) S1x1.size (k0_off45_inb i)).toLoadRect xt0 (Shape.Idx.first (numel1_S1x1.symm ▸ Nat.one_pos)))) (k0_hw24 : k0_chk24 (tbM0_0.view.readAt (Elt Ideal) (Rect.unit (s := S64x100) (k0_off47 i) S1x1.size (k0_off47_inb i)).toLoadRect xt0 (Shape.Idx.first (numel1_S1x1.symm ▸ Nat.one_pos)))) (k0_hw25 : k0_chk25 (tbM0_0.view.readAt (Elt Ideal) (Rect.unit (s := S64x100) (k0_off49 i) S1x1.size (k0_off49_inb i)).toLoadRect xt0 (Shape.Idx.first (numel1_S1x1.symm ▸ Nat.one_pos)))) (k0_hw26 : k0_chk26 (tbM0_0.view.readAt (Elt Ideal) (Rect.unit (s := S64x100) (k0_off51 i) S1x1.size (k0_off51_inb i)).toLoadRect xt0 (Shape.Idx.first (numel1_S1x1.symm ▸ Nat.one_pos)))) (k0_hw27 : k0_chk27 (tbM0_0.view.readAt (Elt Ideal) (Rect.unit (s := S64x100) (k0_off53 i) S1x1.size (k0_off53_inb i)).toLoadRect xt0 (Shape.Idx.first (numel1_S1x1.symm ▸ Nat.one_pos)))) (k0_hw28 : k0_chk28 (tbM0_0.view.readAt (Elt Ideal) (Rect.unit (s := S64x100) (k0_off55 i) S1x1.size (k0_off55_inb i)).toLoadRect xt0 (Shape.Idx.first (numel1_S1x1.symm ▸ Nat.one_pos)))) (k0_hw29 : k0_chk29 (tbM0_0.view.readAt (Elt Ideal) (Rect.unit (s := S64x100) (k0_off57 i) S1x1.size (k0_off57_inb i)).toLoadRect xt0 (Shape.Idx.first (numel1_S1x1.symm ▸ Nat.one_pos)))) (k0_hw30 : k0_chk30 (tbM0_0.view.readAt (Elt Ideal) (Rect.unit (s := S64x100) (k0_off59 i) S1x1.size (k0_off59_inb i)).toLoadRect xt0 (Shape.Idx.first (numel1_S1x1.symm ▸ Nat.one_pos)))) (k0_hw31 : k0_chk31 (tbM0_0.view.readAt (Elt Ideal) (Rect.unit (s := S64x100) (k0_off61 i) S1x1.size (k0_off61_inb i)).toLoadRect xt0 (Shape.Idx.first (numel1_S1x1.symm ▸ Nat.one_pos)))) (k0_hw32 : k0_chk32 (tbM0_0.view.readAt (Elt Ideal) (Rect.unit (s := S64x100) (k0_off63 i) S1x1.size (k0_off63_inb i)).toLoadRect xt0 (Shape.Idx.first (numel1_S1x1.symm ▸ Nat.one_pos)))) (k0_hw33 : k0_chk33 (tbM0_0.view.readAt (Elt Ideal) (Rect.unit (s := S64x100) (k0_off65 i) S1x1.size (k0_off65_inb i)).toLoadRect xt0 (Shape.Idx.first (numel1_S1x1.symm ▸ Nat.one_pos)))) (k0_hw34 : k0_chk34 (tbM0_0.view.readAt (Elt Ideal) (Rect.unit (s := S64x100) (k0_off67 i) S1x1.size (k0_off67_inb i)).toLoadRect xt0 (Shape.Idx.first (numel1_S1x1.symm ▸ Nat.one_pos)))) (k0_hw35 : k0_chk35 (tbM0_0.view.readAt (Elt Ideal) (Rect.unit (s := S64x100) (k0_off69 i) S1x1.size (k0_off69_inb i)).toLoadRect xt0 (Shape.Idx.first (numel1_S1x1.symm ▸ Nat.one_pos)))) (k0_hw36 : k0_chk36 (tbM0_0.view.readAt (Elt Ideal) (Rect.unit (s := S64x100) (k0_off71 i) S1x1.size (k0_off71_inb i)).toLoadRect xt0 (Shape.Idx.first (numel1_S1x1.symm ▸ Nat.one_pos)))) (k0_hw37 : k0_chk37 (tbM0_0.view.readAt (Elt Ideal) (Rect.unit (s := S64x100) (k0_off73 i) S1x1.size (k0_off73_inb i)).toLoadRect xt0 (Shape.Idx.first (numel1_S1x1.symm ▸ Nat.one_pos)))) (k0_hw38 : k0_chk38 (tbM0_0.view.readAt (Elt Ideal) (Rect.unit (s := S64x100) (k0_off75 i) S1x1.size (k0_off75_inb i)).toLoadRect xt0 (Shape.Idx.first (numel1_S1x1.symm ▸ Nat.one_pos)))) (k0_hw39 : k0_chk39 (tbM0_0.view.readAt (Elt Ideal) (Rect.unit (s := S64x100) (k0_off77 i) S1x1.size (k0_off77_inb i)).toLoadRect xt0 (Shape.Idx.first (numel1_S1x1.symm ▸ Nat.one_pos)))) (k0_hw40 : k0_chk40 (tbM0_0.view.readAt (Elt Ideal) (Rect.unit (s := S64x100) (k0_off79 i) S1x1.size (k0_off79_inb i)).toLoadRect xt0 (Shape.Idx.first (numel1_S1x1.symm ▸ Nat.one_pos)))) (k0_hw41 : k0_chk41 (tbM0_0.view.readAt (Elt Ideal) (Rect.unit (s := S64x100) (k0_off81 i) S1x1.size (k0_off81_inb i)).toLoadRect xt0 (Shape.Idx.first (numel1_S1x1.symm ▸ Nat.one_pos)))) (k0_hw42 : k0_chk42 (tbM0_0.view.readAt (Elt Ideal) (Rect.unit (s := S64x100) (k0_off83 i) S1x1.size (k0_off83_inb i)).toLoadRect xt0 (Shape.Idx.first (numel1_S1x1.symm ▸ Nat.one_pos)))) (k0_hw43 : k0_chk43 (tbM0_0.view.readAt (Elt Ideal) (Rect.unit (s := S64x100) (k0_off85 i) S1x1.size (k0_off85_inb i)).toLoadRect xt0 (Shape.Idx.first (numel1_S1x1.symm ▸ Nat.one_pos)))) (k0_hw44 : k0_chk44 (tbM0_0.view.readAt (Elt Ideal) (Rect.unit (s := S64x100) (k0_off87 i) S1x1.size (k0_off87_inb i)).toLoadRect xt0 (Shape.Idx.first (numel1_S1x1.symm ▸ Nat.one_pos)))) (k0_hw45 : k0_chk45 (tbM0_0.view.readAt (Elt Ideal) (Rect.unit (s := S64x100) (k0_off89 i) S1x1.size (k0_off89_inb i)).toLoadRect xt0 (Shape.Idx.first (numel1_S1x1.symm ▸ Nat.one_pos)))) (k0_hw46 : k0_chk46 (tbM0_0.view.readAt (Elt Ideal) (Rect.unit (s := S64x100) (k0_off91 i) S1x1.size (k0_off91_inb i)).toLoadRect xt0 (Shape.Idx.first (numel1_S1x1.symm ▸ Nat.one_pos)))) (k0_hw47 : k0_chk47 (tbM0_0.view.readAt (Elt Ideal) (Rect.unit (s := S64x100) (k0_off93 i) S1x1.size (k0_off93_inb i)).toLoadRect xt0 (Shape.Idx.first (numel1_S1x1.symm ▸ Nat.one_pos)))) (k0_hw48 : k0_chk48 (tbM0_0.view.readAt (Elt Ideal) (Rect.unit (s := S64x100) (k0_off95 i) S1x1.size (k0_off95_inb i)).toLoadRect xt0 (Shape.Idx.first (numel1_S1x1.symm ▸ Nat.one_pos)))) (k0_hw49 : k0_chk49 (tbM0_0.view.readAt (Elt Ideal) (Rect.unit (s := S64x100) (k0_off97 i) S1x1.size (k0_off97_inb i)).toLoadRect xt0 (Shape.Idx.first (numel1_S1x1.symm ▸ Nat.one_pos)))) (k0_hw50 : k0_chk50 (tbM0_0.view.readAt (Elt Ideal) (Rect.unit (s := S64x100) (k0_off99 i) S1x1.size (k0_off99_inb i)).toLoadRect xt0 (Shape.Idx.first (numel1_S1x1.symm ▸ Nat.one_pos)))) (k0_hw51 : k0_chk51 (tbM0_0.view.readAt (Elt Ideal) (Rect.unit (s := S64x100) (k0_off101 i) S1x1.size (k0_off101_inb i)).toLoadRect xt0 (Shape.Idx.first (numel1_S1x1.symm ▸ Nat.one_pos)))) (k0_hw52 : k0_chk52 (tbM0_0.view.readAt (Elt Ideal) (Rect.unit (s := S64x100) (k0_off103 i) S1x1.size (k0_off103_inb i)).toLoadRect xt0 (Shape.Idx.first (numel1_S1x1.symm ▸ Nat.one_pos)))) (k0_hw53 : k0_chk53 (tbM0_0.view.readAt (Elt Ideal) (Rect.unit (s := S64x100) (k0_off105 i) S1x1.size (k0_off105_inb i)).toLoadRect xt0 (Shape.Idx.first (numel1_S1x1.symm ▸ Nat.one_pos)))) (k0_hw54 : k0_chk54 (tbM0_0.view.readAt (Elt Ideal) (Rect.unit (s := S64x100) (k0_off107 i) S1x1.size (k0_off107_inb i)).toLoadRect xt0 (Shape.Idx.first (numel1_S1x1.symm ▸ Nat.one_pos)))) (k0_hw55 : k0_chk55 (tbM0_0.view.readAt (Elt Ideal) (Rect.unit (s := S64x100) (k0_off109 i) S1x1.size (k0_off109_inb i)).toLoadRect xt0 (Shape.Idx.first (numel1_S1x1.symm ▸ Nat.one_pos)))) (k0_hw56 : k0_chk56 (tbM0_0.view.readAt (Elt Ideal) (Rect.unit (s := S64x100) (k0_off111 i) S1x1.size (k0_off111_inb i)).toLoadRect xt0 (Shape.Idx.first (numel1_S1x1.symm ▸ Nat.one_pos)))) (k0_hw57 : k0_chk57 (tbM0_0.view.readAt (Elt Ideal) (Rect.unit (s := S64x100) (k0_off113 i) S1x1.size (k0_off113_inb i)).toLoadRect xt0 (Shape.Idx.first (numel1_S1x1.symm ▸ Nat.one_pos)))) (k0_hw58 : k0_chk58 (tbM0_0.view.readAt (Elt Ideal) (Rect.unit (s := S64x100) (k0_off115 i) S1x1.size (k0_off115_inb i)).toLoadRect xt0 (Shape.Idx.first (numel1_S1x1.symm ▸ Nat.one_pos)))) (k0_hw59 : k0_chk59 (tbM0_0.view.readAt (Elt Ideal) (Rect.unit (s := S64x100) (k0_off117 i) S1x1.size (k0_off117_inb i)).toLoadRect xt0 (Shape.Idx.first (numel1_S1x1.symm ▸ Nat.one_pos)))) (k0_hw60 : k0_chk60 (tbM0_0.view.readAt (Elt Ideal) (Rect.unit (s := S64x100) (k0_off119 i) S1x1.size (k0_off119_inb i)).toLoadRect xt0 (Shape.Idx.first (numel1_S1x1.symm ▸ Nat.one_pos)))) (k0_hw61 : k0_chk61 (tbM0_0.view.readAt (Elt Ideal) (Rect.unit (s := S64x100) (k0_off121 i) S1x1.size (k0_off121_inb i)).toLoadRect xt0 (Shape.Idx.first (numel1_S1x1.symm ▸ Nat.one_pos)))) (k0_hw62 : k0_chk62 (tbM0_0.view.readAt (Elt Ideal) (Rect.unit (s := S64x100) (k0_off123 i) S1x1.size (k0_off123_inb i)).toLoadRect xt0 (Shape.Idx.first (numel1_S1x1.symm ▸ Nat.one_pos)))) (k0_hw63 : k0_chk63 (tbM0_0.view.readAt (Elt Ideal) (Rect.unit (s := S64x100) (k0_off125 i) S1x1.size (k0_off125_inb i)).toLoadRect xt0 (Shape.Idx.first (numel1_S1x1.symm ▸ Nat.one_pos)))) (k0_hw64 : k0_chk64 (tbM0_0.view.readAt (Elt Ideal) (Rect.unit (s := S64x100) (k0_off127 i) S1x1.size (k0_off127_inb i)).toLoadRect xt0 (Shape.Idx.first (numel1_S1x1.symm ▸ Nat.one_pos)))) (k0_hw65 : k0_chk65 (tbM0_0.view.readAt (Elt Ideal) (Rect.unit (s := S64x100) (k0_off129 i) S1x1.size (k0_off129_inb i)).toLoadRect xt0 (Shape.Idx.first (numel1_S1x1.symm ▸ Nat.one_pos)))) (k0_hw66 : k0_chk66 (tbM0_0.view.readAt (Elt Ideal) (Rect.unit (s := S64x100) (k0_off131 i) S1x1.size (k0_off131_inb i)).toLoadRect xt0 (Shape.Idx.first (numel1_S1x1.symm ▸ Nat.one_pos)))) (k0_hw67 : k0_chk67 (tbM0_0.view.readAt (Elt Ideal) (Rect.unit (s := S64x100) (k0_off133 i) S1x1.size (k0_off133_inb i)).toLoadRect xt0 (Shape.Idx.first (numel1_S1x1.symm ▸ Nat.one_pos)))) (k0_hw68 : k0_chk68 (tbM0_0.view.readAt (Elt Ideal) (Rect.unit (s := S64x100) (k0_off135 i) S1x1.size (k0_off135_inb i)).toLoadRect xt0 (Shape.Idx.first (numel1_S1x1.symm ▸ Nat.one_pos)))) (k0_hw69 : k0_chk69 (tbM0_0.view.readAt (Elt Ideal) (Rect.unit (s := S64x100) (k0_off137 i) S1x1.size (k0_off137_inb i)).toLoadRect xt0 (Shape.Idx.first (numel1_S1x1.symm ▸ Nat.one_pos)))) (k0_hw70 : k0_chk70 (tbM0_0.view.readAt (Elt Ideal) (Rect.unit (s := S64x100) (k0_off139 i) S1x1.size (k0_off139_inb i)).toLoadRect xt0 (Shape.Idx.first (numel1_S1x1.symm ▸ Nat.one_pos)))) (k0_hw71 : k0_chk71 (tbM0_0.view.readAt (Elt Ideal) (Rect.unit (s := S64x100) (k0_off141 i) S1x1.size (k0_off141_inb i)).toLoadRect xt0 (Shape.Idx.first (numel1_S1x1.symm ▸ Nat.one_pos)))) (k0_hw72 : k0_chk72 (tbM0_0.view.readAt (Elt Ideal) (Rect.unit (s := S64x100) (k0_off143 i) S1x1.size (k0_off143_inb i)).toLoadRect xt0 (Shape.Idx.first (numel1_S1x1.symm ▸ Nat.one_pos)))) (k0_hw73 : k0_chk73 (tbM0_0.view.readAt (Elt Ideal) (Rect.unit (s := S64x100) (k0_off145 i) S1x1.size (k0_off145_inb i)).toLoadRect xt0 (Shape.Idx.first (numel1_S1x1.symm ▸ Nat.one_pos)))) (k0_hw74 : k0_chk74 (tbM0_0.view.readAt (Elt Ideal) (Rect.unit (s := S64x100) (k0_off147 i) S1x1.size (k0_off147_inb i)).toLoadRect xt0 (Shape.Idx.first (numel1_S1x1.symm ▸ Nat.one_pos)))) (k0_hw75 : k0_chk75 (tbM0_0.view.readAt (Elt Ideal) (Rect.unit (s := S64x100) (k0_off149 i) S1x1.size (k0_off149_inb i)).toLoadRect xt0 (Shape.Idx.first (numel1_S1x1.symm ▸ Nat.one_pos)))) (k0_hw76 : k0_chk76 (tbM0_0.view.readAt (Elt Ideal) (Rect.unit (s := S64x100) (k0_off151 i) S1x1.size (k0_off151_inb i)).toLoadRect xt0 (Shape.Idx.first (numel1_S1x1.symm ▸ Nat.one_pos)))) (k0_hw77 : k0_chk77 (tbM0_0.view.readAt (Elt Ideal) (Rect.unit (s := S64x100) (k0_off153 i) S1x1.size (k0_off153_inb i)).toLoadRect xt0 (Shape.Idx.first (numel1_S1x1.symm ▸ Nat.one_pos)))) (k0_hw78 : k0_chk78 (tbM0_0.view.readAt (Elt Ideal) (Rect.unit (s := S64x100) (k0_off155 i) S1x1.size (k0_off155_inb i)).toLoadRect xt0 (Shape.Idx.first (numel1_S1x1.symm ▸ Nat.one_pos)))) (k0_hw79 : k0_chk79 (tbM0_0.view.readAt (Elt Ideal) (Rect.unit (s := S64x100) (k0_off157 i) S1x1.size (k0_off157_inb i)).toLoadRect xt0 (Shape.Idx.first (numel1_S1x1.symm ▸ Nat.one_pos)))) (k0_hw80 : k0_chk80 (tbM0_0.view.readAt (Elt Ideal) (Rect.unit (s := S64x100) (k0_off159 i) S1x1.size (k0_off159_inb i)).toLoadRect xt0 (Shape.Idx.first (numel1_S1x1.symm ▸ Nat.one_pos)))) (k0_hw81 : k0_chk81 (tbM0_0.view.readAt (Elt Ideal) (Rect.unit (s := S64x100) (k0_off161 i) S1x1.size (k0_off161_inb i)).toLoadRect xt0 (Shape.Idx.first (numel1_S1x1.symm ▸ Nat.one_pos)))) (k0_hw82 : k0_chk82 (tbM0_0.view.readAt (Elt Ideal) (Rect.unit (s := S64x100) (k0_off163 i) S1x1.size (k0_off163_inb i)).toLoadRect xt0 (Shape.Idx.first (numel1_S1x1.symm ▸ Nat.one_pos)))) (k0_hw83 : k0_chk83 (tbM0_0.view.readAt (Elt Ideal) (Rect.unit (s := S64x100) (k0_off165 i) S1x1.size (k0_off165_inb i)).toLoadRect xt0 (Shape.Idx.first (numel1_S1x1.symm ▸ Nat.one_pos)))) (k0_hw84 : k0_chk84 (tbM0_0.view.readAt (Elt Ideal) (Rect.unit (s := S64x100) (k0_off167 i) S1x1.size (k0_off167_inb i)).toLoadRect xt0 (Shape.Idx.first (numel1_S1x1.symm ▸ Nat.one_pos)))) (k0_hw85 : k0_chk85 (tbM0_0.view.readAt (Elt Ideal) (Rect.unit (s := S64x100) (k0_off169 i) S1x1.size (k0_off169_inb i)).toLoadRect xt0 (Shape.Idx.first (numel1_S1x1.symm ▸ Nat.one_pos)))) (k0_hw86 : k0_chk86 (tbM0_0.view.readAt (Elt Ideal) (Rect.unit (s := S64x100) (k0_off171 i) S1x1.size (k0_off171_inb i)).toLoadRect xt0 (Shape.Idx.first (numel1_S1x1.symm ▸ Nat.one_pos)))) (k0_hw87 : k0_chk87 (tbM0_0.view.readAt (Elt Ideal) (Rect.unit (s := S64x100) (k0_off173 i) S1x1.size (k0_off173_inb i)).toLoadRect xt0 (Shape.Idx.first (numel1_S1x1.symm ▸ Nat.one_pos)))) (k0_hw88 : k0_chk88 (tbM0_0.view.readAt (Elt Ideal) (Rect.unit (s := S64x100) (k0_off175 i) S1x1.size (k0_off175_inb i)).toLoadRect xt0 (Shape.Idx.first (numel1_S1x1.symm ▸ Nat.one_pos)))) (k0_hw89 : k0_chk89 (tbM0_0.view.readAt (Elt Ideal) (Rect.unit (s := S64x100) (k0_off177 i) S1x1.size (k0_off177_inb i)).toLoadRect xt0 (Shape.Idx.first (numel1_S1x1.symm ▸ Nat.one_pos)))) (k0_hw90 : k0_chk90 (tbM0_0.view.readAt (Elt Ideal) (Rect.unit (s := S64x100) (k0_off179 i) S1x1.size (k0_off179_inb i)).toLoadRect xt0 (Shape.Idx.first (numel1_S1x1.symm ▸ Nat.one_pos)))) (k0_hw91 : k0_chk91 (tbM0_0.view.readAt (Elt Ideal) (Rect.unit (s := S64x100) (k0_off181 i) S1x1.size (k0_off181_inb i)).toLoadRect xt0 (Shape.Idx.first (numel1_S1x1.symm ▸ Nat.one_pos)))) (k0_hw92 : k0_chk92 (tbM0_0.view.readAt (Elt Ideal) (Rect.unit (s := S64x100) (k0_off183 i) S1x1.size (k0_off183_inb i)).toLoadRect xt0 (Shape.Idx.first (numel1_S1x1.symm ▸ Nat.one_pos)))) (k0_hw93 : k0_chk93 (tbM0_0.view.readAt (Elt Ideal) (Rect.unit (s := S64x100) (k0_off185 i) S1x1.size (k0_off185_inb i)).toLoadRect xt0 (Shape.Idx.first (numel1_S1x1.symm ▸ Nat.one_pos)))) (k0_hw94 : k0_chk94 (tbM0_0.view.readAt (Elt Ideal) (Rect.unit (s := S64x100) (k0_off187 i) S1x1.size (k0_off187_inb i)).toLoadRect xt0 (Shape.Idx.first (numel1_S1x1.symm ▸ Nat.one_pos)))) (k0_hw95 : k0_chk95 (tbM0_0.view.readAt (Elt Ideal) (Rect.unit (s := S64x100) (k0_off189 i) S1x1.size (k0_off189_inb i)).toLoadRect xt0 (Shape.Idx.first (numel1_S1x1.symm ▸ Nat.one_pos)))) (k0_hw96 : k0_chk96 (tbM0_0.view.readAt (Elt Ideal) (Rect.unit (s := S64x100) (k0_off191 i) S1x1.size (k0_off191_inb i)).toLoadRect xt0 (Shape.Idx.first (numel1_S1x1.symm ▸ Nat.one_pos)))) (k0_hw97 : k0_chk97 (tbM0_0.view.readAt (Elt Ideal) (Rect.unit (s := S64x100) (k0_off193 i) S1x1.size (k0_off193_inb i)).toLoadRect xt0 (Shape.Idx.first (numel1_S1x1.symm ▸ Nat.one_pos)))) (k0_hw98 : k0_chk98 (tbM0_0.view.readAt (Elt Ideal) (Rect.unit (s := S64x100) (k0_off195 i) S1x1.size (k0_off195_inb i)).toLoadRect xt0 (Shape.Idx.first (numel1_S1x1.symm ▸ Nat.one_pos)))) (k0_hw99 : k0_chk99 (tbM0_0.view.readAt (Elt Ideal) (Rect.unit (s := S64x100) (k0_off197 i) S1x1.size (k0_off197_inb i)).toLoadRect xt0 (Shape.Idx.first (numel1_S1x1.symm ▸ Nat.one_pos)))) (k0_hw100 : k0_chk100 (tbM0_0.view.readAt (Elt Ideal) (Rect.unit (s := S64x100) (k0_off199 i) S1x1.size (k0_off199_inb i)).toLoadRect xt0 (Shape.Idx.first (numel1_S1x1.symm ▸ Nat.one_pos)))) :
    out0_A_0 (F := Ideal) c i arg3 harg3 arg4 harg4 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 = blockVal c i xt0 fh0 := by
  funext y
  unfold out0_A_0
  rw [View.read_writes_eq_canon _ _ _ (cover0_A_0 c i arg3 harg3 arg4 harg4 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100)]
  refine View.canon_apply_of_pieces (blockVal c i xt0 fh0) _ ?_ y (cover0_A_0 c i arg3 harg3 arg4 harg4 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 y)
  unfold kernelRun0_A
  dsimp only
  intro p hp
  simp only [List.mem_cons, List.mem_singleton, List.not_mem_nil, or_false] at hp
  rcases hp with rfl | rfl | rfl | rfl | rfl
  · intro x
    dsimp only
    sl_unfold_run_names
    rw [Cert.KernelIdeal.Pay.pay3_apply]
    exact piece_eq c i xt0 fh0 arg4 harg4 _ _ rfl 80 (by decide) _ _ rfl _ _ rfl (by rows) x
  · intro x
    dsimp only
    sl_unfold_run_names
    rw [Cert.KernelIdeal.Pay.pay2_apply]
    exact piece_eq c i xt0 fh0 arg4 harg4 _ _ rfl 60 (by decide) _ _ rfl _ _ rfl (by rows) x
  · intro x
    dsimp only
    sl_unfold_run_names
    rw [Cert.KernelIdeal.Pay.pay16_apply]
    exact piece_eq c i xt0 fh0 arg4 harg4 _ _ rfl 40 (by decide) _ _ rfl _ _ rfl (by rows) x
  · intro x
    dsimp only
    sl_unfold_run_names
    rw [Cert.KernelIdeal.Pay.pay5_apply]
    exact piece_eq c i xt0 fh0 arg4 harg4 _ _ rfl 20 (by decide) _ _ rfl _ _ rfl (by rows) x
  · intro x
    dsimp only
    sl_unfold_run_names
    rw [Cert.KernelIdeal.Pay.pay4_apply]
    exact piece_eq c i xt0 fh0 arg4 harg4 _ _ rfl 0 (by decide) _ _ rfl _ _ rfl (by rows) x

end Cert.KernelIdeal.PointValue

end
-- ==== Proof.KIBlocks.lean ====
/-
  From the blocks to the array, on the kernel's side. The pipeline has one output window: the array [64, 100, 10000] is
  written back in 64 blocks of sizes (1, 100, 10000), the block of grid point t at block index (t, 0, 0), so that element
  (0, s, j) of point t's block is element (t, s, j) of the array. Every point writes its block back and the 64 blocks
  tile the array (index (b, s, j) lies in the block of point b and in no other). Hence, if what the body leaves at every
  point t is the restriction to batch entry t of ONE function G of the array's indices, the array ends holding G; and the
  kernel's run ends with its result at G and its three arguments as launched.
-/
import proofs.«403682_j71090298683716_2_alg».proof.Proof.KIFrame
import Idealize.ShloMosaic.Lib.Pipeline.Value
import Idealize.ShloMosaic.Lib.ValueIdx

noncomputable section

namespace Cert.KernelIdeal.Blocks

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The output window's block index at grid point `t` is `(t, 0, 0)`, whatever the prefetched table holds (the index
    map does not read it): decided over the 64 points. -/
theorem index_eq (a : (pcfg0 (F := F)).Adm) : ∀ t : Fin (cfg0 a).N,
    ((cfg0 a).win 0).index t (0 : Fin 3) = t.val ∧ ((cfg0 a).win 0).index t (1 : Fin 3) = 0 ∧ ((cfg0 a).win 0).index t (2 : Fin 3) = 0 :=
  (by decide +kernel : ∀ t : Fin grid0.N,
    cc0_transform_1 (grid0.coords t) (0 : Fin 3) = t.val ∧ cc0_transform_1 (grid0.coords t) (1 : Fin 3) = 0
      ∧ cc0_transform_1 (grid0.coords t) (2 : Fin 3) = 0)

/-- An index of the array is in point `t`'s block iff each coordinate is in the block's range on its axis. -/
theorem mem_blk (a : (pcfg0 (F := F)).Adm) (t : Fin (cfg0 a).N) (i : S64x100x10000.Idx) :
    i ∈ (((cfg0 a).win 0).blk t).view.set ↔ ∀ ax : Fin 3, ((cfg0 a).win 0).index t ax * S1x100x10000.size ax ≤ (i ax).val
      ∧ (i ax).val < ((cfg0 a).win 0).index t ax * S1x100x10000.size ax + S1x100x10000.size ax := by
  have h : (((cfg0 a).win 0).blk t).view.set = (((cfg0 a).win 0).rect t).set := View.set_slice_whole main_v8 _
  exact (Eq.to_iff (congrArg (fun S => i ∈ S) h)).trans Rect.mem_set_unit

/-- THE ARRAY FROM ITS POINTS. For proof data of the pipeline whose output window holds `outs t` after the body at grid
    point `t`, if at every point that block is the restriction of ONE function `G` of the array's indices to the rows of
    batch entry `t` (block `(t, 0, 0)` of sizes `(1, 100, 10000)`: element `(0, s, j)` of the block is element `(t, s, j)`
    of the array), then the array ends holding `G`: every point writes its block back, and index `(b, s, j)` lies in
    the block of point `b`. -/
theorem arr_of_points (hO : Ok m) (c : Dev nD)
    (dat : Dat τ (Elt F) Unit ℕ (Pipeline.UD sig nD τ) ℕ (cfgM m hO) c)
    (outs : Fin (cfgM m hO).N → Vec F S1x100x10000 .f32)
    (hafter : ∀ t, dat.after 0 t = outs t)
    (G : S64x100x10000.Idx → Elt F .f32)
    (hpt : ∀ (t : Fin (cfgM m hO).N) (y : S1x100x10000.Idx),
      outs t y = G (ix3 (⟨t.val, Nat.lt_of_lt_of_eq t.isLt N_0⟩ : Fin 64) (⟨(y 1).val, (y 1).isLt⟩ : Fin 100)
        (⟨(y 2).val, (y 2).isLt⟩ : Fin 10000))) :
    dat.arrAt 0 (cfgM m hO).N = G := by
  refine dat.arrAt_eq_of_cover 0 G (fun t _ => ?_) (fun (i : S64x100x10000.Idx) => ?_)
  · -- what point `t` writes back is block `t` of `G`
    show ((cfgM m hO).win 0).cut (grid0.coords t) (dat.after 0 t) = _
    rw [hafter]
    refine funext fun (j : S1x100x10000.Idx) => ?_
    have e0 : ((cfgM m hO).win 0).index t (0 : Fin 3) = t.val := (index_eq (adm m hO) t).1
    have e1 : ((cfgM m hO).win 0).index t (1 : Fin 3) = 0 := (index_eq (adm m hO) t).2.1
    have e2 : ((cfgM m hO).win 0).index t (2 : Fin 3) = 0 := (index_eq (adm m hO) t).2.2
    have hj0 : (j 0).val < 1 := (j 0).isLt
    show outs t (((cfgM m hO).win 0).xinj (grid0.coords t) j) = G ((((cfgM m hO).win 0).blk t).view.emb j)
    refine (hpt t _).trans (congrArg G (funext fun ax => Fin.ext ?_))
    match ax with
    | ⟨0, _⟩ => show t.val = ((cfgM m hO).win 0).index t (0 : Fin 3) * 1 + 1 * (j 0).val; omega
    | ⟨1, _⟩ => show (j 1).val = ((cfgM m hO).win 0).index t (1 : Fin 3) * 100 + 1 * (j 1).val; omega
    | ⟨2, _⟩ => show (j 2).val = ((cfgM m hO).win 0).index t (2 : Fin 3) * 10000 + 1 * (j 2).val; omega
  · -- index `(b, s, j)` is in the block of point `b`
    have hi0 : (i 0).val < 64 := (i 0).isLt
    have hi1 : (i 1).val < 100 := (i 1).isLt
    have hi2 : (i 2).val < 10000 := (i 2).isLt
    have hN : (i 0).val < (cfgM m hO).N := Nat.lt_of_lt_of_eq hi0 N_0.symm
    refine ⟨⟨(i 0).val, hN⟩, flush0_0 (adm m hO) _, (mem_blk (adm m hO) ⟨(i 0).val, hN⟩ i).mpr ?_⟩
    have e0 : ((cfgM m hO).win 0).index ⟨(i 0).val, hN⟩ (0 : Fin 3) = (i 0).val := (index_eq (adm m hO) ⟨(i 0).val, hN⟩).1
    have e1 : ((cfgM m hO).win 0).index ⟨(i 0).val, hN⟩ (1 : Fin 3) = 0 := (index_eq (adm m hO) ⟨(i 0).val, hN⟩).2.1
    have e2 : ((cfgM m hO).win 0).index ⟨(i 0).val, hN⟩ (2 : Fin 3) = 0 := (index_eq (adm m hO) ⟨(i 0).val, hN⟩).2.2
    intro ax
    match ax with
    | ⟨0, _⟩ =>
      show ((cfgM m hO).win 0).index ⟨(i 0).val, hN⟩ (0 : Fin 3) * 1 ≤ (i 0).val
        ∧ (i 0).val < ((cfgM m hO).win 0).index ⟨(i 0).val, hN⟩ (0 : Fin 3) * 1 + 1
      omega
    | ⟨1, _⟩ =>
      show ((cfgM m hO).win 0).index ⟨(i 0).val, hN⟩ (1 : Fin 3) * 100 ≤ (i 1).val
        ∧ (i 1).val < ((cfgM m hO).win 0).index ⟨(i 0).val, hN⟩ (1 : Fin 3) * 100 + 100
      omega
    | ⟨2, _⟩ =>
      show ((cfgM m hO).win 0).index ⟨(i 0).val, hN⟩ (2 : Fin 3) * 10000 ≤ (i 2).val
        ∧ (i 2).val < ((cfgM m hO).win 0).index ⟨(i 0).val, hN⟩ (2 : Fin 3) * 10000 + 10000
      omega

/-- THE KERNEL'S RESULT ARRAY: if what the body leaves at every grid point `t` is `G` restricted to batch entry `t`,
    the output array after the run's 64 write-backs is `G`. -/
theorem final_of_points (hO : Ok m) (hH : Hyps m hO) (c : Dev nD) (G : S64x100x10000.Idx → Elt F .f32)
    (hpt : ∀ (t : Fin (cfgM m hO).N) (y : S1x100x10000.Idx),
      outsAt0 m hO hH c t y = G (ix3 (⟨t.val, Nat.lt_of_lt_of_eq t.isLt N_0⟩ : Fin 64) (⟨(y 1).val, (y 1).isLt⟩ : Fin 100)
        (⟨(y 2).val, (y 2).isLt⟩ : Fin 10000))) :
    (dats m hO hH 0 c).arrAt 0 (cfgM m hO).N = G :=
  arr_of_points m hO c (dats m hO hH 0 c) (outsAt0 m hO hH c) (after0_0 m hO hH c) G hpt

/-- THE KERNEL'S RUN, its result named: every weakly fair execution terminates with the result array at `G c` and the
    three argument arrays as launched, given that the body leaves `G c` restricted to batch entry `t` at every point. -/
theorem run_of_points (hO : Ok m) (hH : Hyps m hO) (G : Dev nD → S64x100x10000.Idx → Elt F .f32)
    (hpt : ∀ (c : Dev nD) (t : Fin (cfgM m hO).N) (y : S1x100x10000.Idx),
      outsAt0 m hO hH c t y = G c (ix3 (⟨t.val, Nat.lt_of_lt_of_eq t.isLt N_0⟩ : Fin 64) (⟨(y 1).val, (y 1).isLt⟩ : Fin 100)
        (⟨(y 2).val, (y 2).isLt⟩ : Fin 10000))) :
    θ_run defs (onTc (τ := τ) (main (F := F))) ⟨m, fun _ => 0, ρ⟩ (fun r => ∀ c : Dev nD,
      r.2.mem ((c.tc : Thread nD τ).loc main_v8) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (final_of_points m hO hH c (G c) (hpt c)),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO hH)

end Cert.KernelIdeal.Blocks

end
-- ==== Proof.KIValue.lean ====
/-
  The kernel's value. At a grid point t the body leaves in the output block the masked reciprocal of the matrix rows
  that the point's hundred table words select; the table word at (t, s) is the first lookup's word clipped into
  [0, 9999], which read unsigned is the kernel's row rule of that word. So the block at point t is the specification,
  at the kernel's row rule, restricted to batch entry t, and the 64 blocks assemble to the whole result array.
-/
import proofs.«403682_j71090298683716_2_alg».proof.Proof.KIPoint
import proofs.«403682_j71090298683716_2_alg».proof.Proof.KIBlocks
import proofs.«403682_j71090298683716_2_alg».proof.Proof.KIHyps
import proofs.«403682_j71090298683716_2_alg».proof.Proof.Spec

set_option maxRecDepth 16384

noncomputable section

namespace Cert.KernelIdeal.PointValue

open Cert.KernelIdeal Cert.KernelIdeal.Gen Cert.KernelIdeal.GenP
open Idealize.ShloMosaic Idealize.ShloMosaic.TcCoe Idealize.ShloMosaic.Tactic Idealize.ShloMosaic.ValueIdx Idealize.SL.Sem

/-- The grid has one axis: the coordinate of point t on it is t. -/
theorem coord_eq : ∀ t : Fin grid0.N, ((grid0.coords t) 0).val = t.val := by decide +kernel

/-- The table word of grid point t at column s, as a row number: what the host's clip leaves of the looked-up word. -/
theorem tbl_row (m : (ℓ : Loc nD τ sig) → Buf (Elt Ideal) ℓ) (p : S64x100.Idx) :
    min (tbl m 0 p).toNat 9999 = Cert.Spec.rowK (Cert.KernelIdeal.HypsOfPre.look m p) := by
  rw [Cert.KernelIdeal.HypsOfPre.tbl_apply]
  have := Cert.Spec.rowK_lt (Cert.KernelIdeal.HypsOfPre.look m p)
  unfold Cert.Spec.rowK at this ⊢
  omega

/-- What the body leaves at grid point t is the specification, at the kernel's row rule, restricted to batch entry t:
    entry (0, s, j) of the block is the masked reciprocal of the matrix at (row of the word looked up at (t, s), j). -/
theorem point_eq (m : (ℓ : Loc nD τ sig) → Buf (Elt Ideal) ℓ) (hO : Ok m) (hH : Hyps m hO) (c : Dev nD)
    (t : Fin (cfgM m hO).N) (y : S1x100x10000.Idx) :
    outsAt0 m hO hH c t y
      = Cert.Spec.out Cert.Spec.rowK Cert.Spec.rowK_lt (Cert.KernelIdeal.HypsOfPre.look m) (m ((c.tc : Thread nD τ).loc main_arg2))
          (ix3 (⟨t.val, Nat.lt_of_lt_of_eq t.isLt N_0⟩ : Fin 64) (⟨(y 1).val, (y 1).isLt⟩ : Fin 100) (⟨(y 2).val, (y 2).isLt⟩ : Fin 10000)) := by
  refine (congrFun (out_eq c (grid0.coords t) (ms0_0 m hO t) (hs0_0 m hO t) scM0_0 (Memref.isWhole_whole _) (tbl m 0) (V m c main_arg2) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) (Hyps.c48 hH c t) (Hyps.c49 hH c t) (Hyps.c50 hH c t) (Hyps.c51 hH c t) (Hyps.c52 hH c t) (Hyps.c53 hH c t) (Hyps.c54 hH c t) (Hyps.c55 hH c t) (Hyps.c56 hH c t) (Hyps.c57 hH c t) (Hyps.c58 hH c t) (Hyps.c59 hH c t) (Hyps.c60 hH c t) (Hyps.c61 hH c t) (Hyps.c62 hH c t) (Hyps.c63 hH c t) (Hyps.c64 hH c t) (Hyps.c65 hH c t) (Hyps.c66 hH c t) (Hyps.c67 hH c t) (Hyps.c68 hH c t) (Hyps.c69 hH c t) (Hyps.c70 hH c t) (Hyps.c71 hH c t) (Hyps.c72 hH c t) (Hyps.c73 hH c t) (Hyps.c74 hH c t) (Hyps.c75 hH c t) (Hyps.c76 hH c t) (Hyps.c77 hH c t) (Hyps.c78 hH c t) (Hyps.c79 hH c t) (Hyps.c80 hH c t) (Hyps.c81 hH c t) (Hyps.c82 hH c t) (Hyps.c83 hH c t) (Hyps.c84 hH c t) (Hyps.c85 hH c t) (Hyps.c86 hH c t) (Hyps.c87 hH c t) (Hyps.c88 hH c t) (Hyps.c89 hH c t) (Hyps.c90 hH c t) (Hyps.c91 hH c t) (Hyps.c92 hH c t) (Hyps.c93 hH c t) (Hyps.c94 hH c t) (Hyps.c95 hH c t) (Hyps.c96 hH c t) (Hyps.c97 hH c t) (Hyps.c98 hH c t) (Hyps.c99 hH c t)) y).trans ?_
  unfold blockVal Cert.Spec.out
  have hp : (ix2 (⟨((grid0.coords t) 0).val, ((grid0.coords t) 0).isLt⟩ : Fin 64) (⟨(y 1).val, (y 1).isLt⟩ : Fin 100) : S64x100.Idx)
      = ix2 (⟨t.val, Nat.lt_of_lt_of_eq t.isLt N_0⟩ : Fin 64) (⟨(y 1).val, (y 1).isLt⟩ : Fin 100) :=
    congrArg (fun a : Fin 64 => (ix2 a (⟨(y 1).val, (y 1).isLt⟩ : Fin 100) : S64x100.Idx)) (Fin.ext (coord_eq t))
  have hrow : min ((tbl m 0) (ix2 (⟨((grid0.coords t) 0).val, ((grid0.coords t) 0).isLt⟩ : Fin 64) (⟨(y 1).val, (y 1).isLt⟩ : Fin 100))).toNat 9999
      = Cert.Spec.rowK (Cert.KernelIdeal.HypsOfPre.look m (ix2 (⟨t.val, Nat.lt_of_lt_of_eq t.isLt N_0⟩ : Fin 64) (⟨(y 1).val, (y 1).isLt⟩ : Fin 100))) :=
    (congrArg (fun p : S64x100.Idx => min (tbl m 0 p).toNat 9999) hp).trans (tbl_row m _)
  refine congrArg Cert.Spec.mrecip ((congrFun (V_main_arg2 m c) _).trans
    (congrArg (m ((c.tc : Thread nD τ).loc main_arg2)) ?_))
  exact congrArg (fun a : Fin 10000 => (ix2 a (⟨(y 2).val, (y 2).isLt⟩ : Fin 10000) : S10000x10000.Idx)) (Fin.ext hrow)

/-- The kernel's run, read: the result array is the masked reciprocal of the rows the clipped words select. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8)
          = Cert.Spec.out Cert.Spec.rowK Cert.Spec.rowK_lt (Cert.KernelIdeal.HypsOfPre.look m) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Cert.KernelIdeal.Blocks.run_of_points m ρ (Cert.KernelIdeal.HypsOfPre.ok m) (Cert.KernelIdeal.HypsOfPre.hyps m (Cert.KernelIdeal.HypsOfPre.ok m))
    (fun c => Cert.Spec.out Cert.Spec.rowK Cert.Spec.rowK_lt (Cert.KernelIdeal.HypsOfPre.look m) (m ((c.tc : Thread nD τ).loc main_arg2)))
    (fun c t y => point_eq m (Cert.KernelIdeal.HypsOfPre.ok m) (Cert.KernelIdeal.HypsOfPre.hyps m (Cert.KernelIdeal.HypsOfPre.ok m)) c t y)

end Cert.KernelIdeal.PointValue

end
-- ==== Proof.RefValue.lean ====
/-
  The reference's value. Its result is one function of the three inputs: with g the array of words the first gather
  looks up in the venue table (at the batch words, a negative one wrapped by 20000), entry (b, s, j) of the result is the
  masked reciprocal of the distance matrix at (r, j), where r is the word g (b, s), a negative one wrapped by 10000,
  read signed and clamped into [0, 9999] as the second gather clamps its start index. The one real step is the second
  gather read at an index: rows of the matrix selected by a [64, 100, 1] array of start indices, the whole row kept.
-/
import proofs.«403682_j71090298683716_2_alg».proof.Proof.Gen.ReferenceIdeal.Run
import proofs.«403682_j71090298683716_2_alg».proof.Proof.Gen.ReferenceIdeal.Read
import proofs.«403682_j71090298683716_2_alg».proof.Proof.Gen.Pre_finite_inputs
import proofs.«403682_j71090298683716_2_alg».proof.Proof.Spec
import proofs.«403682_j71090298683716_2_alg».proof.Defs

noncomputable section

namespace Cert.ReferenceIdeal.RefValue

open Idealize.ShloMosaic Idealize.ShloMosaic.ValueIdx Idealize.ShloMosaic.TcCoe Idealize.SL.Sem
open Cert.ReferenceIdeal Cert.ReferenceIdeal.Gen

/-- The words the reference looks up in the venue table: the table `a0` at the batch words `a1`, a negative batch word
    wrapped by 20000 first (the first gather then reads it signed and clamps it into [0, 19999]). -/
def look (a0 : IVec S20000 32) (a1 : IVec S64x100 32) : IVec S64x100 32 :=
  Host.gather gather_S20000_S64x100x1_S64x100_n_0_n_n_0_2_1 a0
    (broadcastInDim S64x100x1 ![0, 1] bcast_S64x100_S64x100x1_0_1
      (select (cmpi .slt a1 (broadcastInDim S64x100 ![] bcast_S_S64x100 (constantI S_ 32 0#32)))
        (addi a1 (broadcastInDim S64x100 ![] bcast_S_S64x100 (constantI S_ 32 20000#32))) a1))

/-- THE ROW GATHER READ AT AN INDEX. Result element (b, s, j) is the operand at (r, j): on the row axis the start index
    `idx[b, s, 0]` read signed and clamped into [0, 10000 − 1] (the slice is one row, the axis is collapsed, so neither a
    batch nor an offset coordinate is added); on the column axis the start is 0 (the start index map does not name it)
    and the offset is the result's last coordinate (the slice is the whole row). -/
theorem gather_rows_apply {α : Type} (x : S10000x10000.Idx → α) (idx : IVec S64x100x1 32) (y : S64x100x10000.Idx) :
    Host.gather gather_S10000x10000_S64x100x1_S64x100x10000_2_0_n_n_0_2_110000 x idx y
      = x (ix2 (⟨min (idx (ix3 (⟨(y 0).val, (y 0).isLt⟩ : Fin 64) (⟨(y 1).val, (y 1).isLt⟩ : Fin 100) (0 : Fin 1))).toInt.toNat 9999,
                 Nat.lt_of_le_of_lt (Nat.min_le_right _ _) (by decide)⟩ : Fin 10000) (⟨(y 2).val, (y 2).isLt⟩ : Fin 10000)) := by
  unfold Host.gather
  congr 1
  funext a
  refine Fin.ext ?_
  match a with
  | ⟨0, _⟩ =>
    -- the row axis: collapsed, named by the start index map
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x10000_S64x100x1_S64x100x10000_2_0_n_n_0_2_110000.startIndexMap from
      List.mem_singleton.mpr rfl)]
    have hsi : gather_S10000x10000_S64x100x1_S64x100x10000_2_0_n_n_0_2_110000.siIdx y
        ⟨List.idxOf (0 : Fin 2) gather_S10000x10000_S64x100x1_S64x100x10000_2_0_n_n_0_2_110000.startIndexMap,
          List.idxOf_lt_length_iff.2 (List.mem_singleton.mpr rfl)⟩
        = ix3 (⟨(y 0).val, (y 0).isLt⟩ : Fin 64) (⟨(y 1).val, (y 1).isLt⟩ : Fin 100) (0 : Fin 1) := by
      funext b; refine Fin.ext ?_
      match b with
      | ⟨0, _⟩ => rfl
      | ⟨1, _⟩ => rfl
      | ⟨2, _⟩ => rfl
    rw [hsi]
    rfl
  | ⟨1, _⟩ =>
    -- the column axis: kept whole, not named by the start index map
    show GatherDims.start _ y idx 1 + GatherDims.batchCoord _ y 1 + GatherDims.offCoord _ y 1 = _
    rw [GatherDims.batchCoord_eq_zero _ _ _ List.not_mem_nil]
    unfold GatherDims.start
    rw [dif_neg (show (1 : Fin 2) ∉ gather_S10000x10000_S64x100x1_S64x100x10000_2_0_n_n_0_2_110000.startIndexMap by decide)]
    simp only [Nat.add_zero, Nat.zero_add]
    unfold GatherDims.offCoord
    rw [dif_pos (show (1 : Fin 2) ∈ gather_S10000x10000_S64x100x1_S64x100x10000_2_0_n_n_0_2_110000.sKept by decide)]
    rfl

/-- The start-indices index (b, s, 0) read through the broadcast along the last axis is (b, s). -/
theorem idx_row (a : Fin 64) (b : Fin 100) : Read.idx_main_v12 (ix3 a b (0 : Fin 1)) = ix2 a b := by
  funext d
  match d with
  | ⟨0, _⟩ => rfl
  | ⟨1, _⟩ => rfl

/-- The gathered rows at an index: entry (b, s, j) is the matrix at (rowR (g (b, s)), j), g the looked-up words. -/
theorem rows_apply (a0 : IVec S20000 32) (a1 : IVec S64x100 32) (D : FVec Ideal S10000x10000 .f32) (y : S64x100x10000.Idx) :
    Read.val_main_v13 (F := Ideal) a0 a1 D y
      = D (ix2 (⟨Cert.Spec.rowR (look a0 a1 (ix2 (⟨(y 0).val, (y 0).isLt⟩ : Fin 64) (⟨(y 1).val, (y 1).isLt⟩ : Fin 100))),
                 Cert.Spec.rowR_lt _⟩ : Fin 10000) (⟨(y 2).val, (y 2).isLt⟩ : Fin 10000)) := by
  unfold Read.val_main_v13
  rw [gather_rows_apply, Read.val_main_v12_apply, idx_row, Read.val_main_v11_apply, Read.val_main_v8_apply,
    Read.val_main_v10_apply, Read.val_main_v7_apply, Read.val_main_c_1_apply, Read.val_main_v9_apply,
    Read.val_main_c_2_apply]
  rfl

/-- The reference's result is the shared specification at the reference's row rule and its looked-up words. -/
theorem result_eq (a0 : IVec S20000 32) (a1 : IVec S64x100 32) (D : FVec Ideal S10000x10000 .f32) :
    Host.divf (F := Ideal) (broadcastInDim S64x100x10000 ![] bcast_S_S64x100x10000 (constant (F := Ideal) S_ .f32 0x3F800000#32)) (select (cmpf (F := Ideal) .oeq (Host.gather gather_S10000x10000_S64x100x1_S64x100x10000_2_0_n_n_0_2_110000 D (broadcastInDim S64x100x1 ![0, 1] bcast_S64x100_S64x100x1_0_1 (select (cmpi .slt (Host.gather gather_S20000_S64x100x1_S64x100_n_0_n_n_0_2_1 a0 (broadcastInDim S64x100x1 ![0, 1] bcast_S64x100_S64x100x1_0_1 (select (cmpi .slt a1 (broadcastInDim S64x100 ![] bcast_S_S64x100 (constantI S_ 32 0#32))) (addi a1 (broadcastInDim S64x100 ![] bcast_S_S64x100 (constantI S_ 32 20000#32))) a1))) (broadcastInDim S64x100 ![] bcast_S_S64x100 (constantI S_ 32 0#32))) (addi (Host.gather gather_S20000_S64x100x1_S64x100_n_0_n_n_0_2_1 a0 (broadcastInDim S64x100x1 ![0, 1] bcast_S64x100_S64x100x1_0_1 (select (cmpi .slt a1 (broadcastInDim S64x100 ![] bcast_S_S64x100 (constantI S_ 32 0#32))) (addi a1 (broadcastInDim S64x100 ![] bcast_S_S64x100 (constantI S_ 32 20000#32))) a1))) (broadcastInDim S64x100 ![] bcast_S_S64x100 (constantI S_ 32 10000#32))) (Host.gather gather_S20000_S64x100x1_S64x100_n_0_n_n_0_2_1 a0 (broadcastInDim S64x100x1 ![0, 1] bcast_S64x100_S64x100x1_0_1 (select (cmpi .slt a1 (broadcastInDim S64x100 ![] bcast_S_S64x100 (constantI S_ 32 0#32))) (addi a1 (broadcastInDim S64x100 ![] bcast_S_S64x100 (constantI S_ 32 20000#32))) a1)))))) (broadcastInDim S64x100x10000 ![] bcast_S_S64x100x10000 (constant (F := Ideal) S_ .f32 0x00000000#32))) (broadcastInDim S64x100x10000 ![] bcast_S_S64x100x10000 (constant (F := Ideal) S_ .f32 0x4B189680#32)) (Host.gather gather_S10000x10000_S64x100x1_S64x100x10000_2_0_n_n_0_2_110000 D (broadcastInDim S64x100x1 ![0, 1] bcast_S64x100_S64x100x1_0_1 (select (cmpi .slt (Host.gather gather_S20000_S64x100x1_S64x100_n_0_n_n_0_2_1 a0 (broadcastInDim S64x100x1 ![0, 1] bcast_S64x100_S64x100x1_0_1 (select (cmpi .slt a1 (broadcastInDim S64x100 ![] bcast_S_S64x100 (constantI S_ 32 0#32))) (addi a1 (broadcastInDim S64x100 ![] bcast_S_S64x100 (constantI S_ 32 20000#32))) a1))) (broadcastInDim S64x100 ![] bcast_S_S64x100 (constantI S_ 32 0#32))) (addi (Host.gather gather_S20000_S64x100x1_S64x100_n_0_n_n_0_2_1 a0 (broadcastInDim S64x100x1 ![0, 1] bcast_S64x100_S64x100x1_0_1 (select (cmpi .slt a1 (broadcastInDim S64x100 ![] bcast_S_S64x100 (constantI S_ 32 0#32))) (addi a1 (broadcastInDim S64x100 ![] bcast_S_S64x100 (constantI S_ 32 20000#32))) a1))) (broadcastInDim S64x100 ![] bcast_S_S64x100 (constantI S_ 32 10000#32))) (Host.gather gather_S20000_S64x100x1_S64x100_n_0_n_n_0_2_1 a0 (broadcastInDim S64x100x1 ![0, 1] bcast_S64x100_S64x100x1_0_1 (select (cmpi .slt a1 (broadcastInDim S64x100 ![] bcast_S_S64x100 (constantI S_ 32 0#32))) (addi a1 (broadcastInDim S64x100 ![] bcast_S_S64x100 (constantI S_ 32 20000#32))) a1)))))))
      = Cert.Spec.out Cert.Spec.rowR Cert.Spec.rowR_lt (look a0 a1) D := by
  refine (Read.val_main_v18_eq (F := Ideal) a0 a1 D).trans ?_
  funext y
  rw [Read.val_main_v18_apply, Read.val_main_v17_apply, Read.val_main_cst_4_apply, Read.val_main_v16_apply,
    Read.val_main_v15_apply, Read.val_main_call0_v0_apply, Read.val_main_cst_3_apply, Read.val_main_v14_apply,
    Read.val_main_cst_apply, rows_apply]
  rfl

/-- The reference runs, its result the specification at its own row rule, its arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v18)
          = Cert.Spec.out Cert.Spec.rowR Cert.Spec.rowR_lt
              (look (m ((c.tc : Thread nD τ).loc main_arg0)) (m ((c.tc : Thread nD τ).loc main_arg1)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.ReferenceIdeal.defs _ _).mono (fun _ h c => ⟨(h c).1.trans (result_eq _ _ _), (h c).2⟩)
    (Cert.ReferenceIdeal.Value.run (F := Ideal) m ρ)

/-- The reference runs and leaves its arguments unchanged: its run with the result dropped. -/
theorem frame : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.RowEq.lean ====
/-
  The kernel's row and the reference's row agree on a non-negative word. The kernel clips the word into [0, 9999]
  (max with 0, then min with 9999, signed); the reference wraps a negative word by 10000 and then clamps the signed
  value into [0, 9999]. For 0 ≤ v neither the max nor the wrap changes v, and both rows are min v 9999.
-/
import proofs.«403682_j71090298683716_2_alg».proof.Proof.Spec

noncomputable section

namespace Cert.RowEq

open Idealize.ShloMosaic

/-- On a non-negative word the kernel's clipped row and the reference's wrapped-then-clamped row agree: neither the
    max with 0 nor the wrap fires, and both are min v 9999. -/
theorem rowK_eq_rowR' (v : BitVec 32) (h : IntOp.cmpi .sge v 0#32 = 1#1) : Cert.Spec.rowK v = Cert.Spec.rowR v := by
  have h0 : (0 : Int) ≤ v.toInt := by
    have hb : (0#32).sle v = true := by
      have h' : BitVec.ofBool ((0#32).sle v) = 1#1 := h
      cases hc : (0#32).sle v with
      | true => rfl
      | false => rw [hc] at h'; exact absurd h' (by decide)
    simpa [BitVec.sle] using hb
  have hlt : v.slt 0#32 = false := by
    simp only [BitVec.slt, BitVec.toInt_zero, decide_eq_false_iff_not, not_lt]; exact h0
  have hsel : Scalar.select (IntOp.cmpi .slt v 0#32) (IntOp.addi v 10000#32) v = v := by
    unfold Scalar.select IntOp.cmpi
    simp only [hlt]; rfl
  have hmax : IntOp.maxsi 0#32 v = v := by
    unfold IntOp.maxsi; simp only [hlt]; rfl
  unfold Cert.Spec.rowK Cert.Spec.rowR
  rw [hsel, hmax]
  unfold IntOp.minsi
  have hv := v.isLt
  have hti : v.toInt = (v.toNat : Int) := by
    unfold BitVec.toInt at h0 ⊢
    split <;> omega
  simp only [BitVec.slt]
  split
  · rename_i hc
    simp only [decide_eq_true_eq] at hc
    have : (9999#32).toInt = 9999 := by decide
    rw [this] at hc
    have : (9999#32).toNat = 9999 := by decide
    rw [this]; omega
  · rename_i hc
    simp only [decide_eq_true_eq, not_lt] at hc
    have : (9999#32).toInt = 9999 := by decide
    rw [this] at hc
    omega

end Cert.RowEq

end
-- ==== Proof.Bridge.lean ====
/-
  The two sides meet. Both programs look the row word up the same way (one gather of the venue table at the wrapped
  position indices), so the looked-up words g are ONE array; the kernel then reads row clip(g) and the reference row
  clamp(wrap(g)) of the matrix, which agree where g ≥ 0 — and the precondition makes every table entry, hence every
  looked-up word, non-negative. The masked reciprocal of the selected entries is the same function on both sides.
-/
import proofs.«403682_j71090298683716_2_alg».proof.Proof.KIHyps
import proofs.«403682_j71090298683716_2_alg».proof.Proof.KIPre
import proofs.«403682_j71090298683716_2_alg».proof.Proof.RefValue
import proofs.«403682_j71090298683716_2_alg».proof.Proof.RowEq
import proofs.«403682_j71090298683716_2_alg».proof.Proof.Spec

noncomputable section

namespace Cert.Bridge

open Idealize.ShloMosaic Idealize.ShloMosaic.TcCoe Idealize.SL.Sem

/-- The kernel's and the reference's first lookups are one array of words. -/
theorem look_eq (m : (ℓ : Loc Cert.KernelIdeal.nD Cert.KernelIdeal.τ Cert.KernelIdeal.sig) → Buf (Elt Ideal) ℓ) :
    Cert.KernelIdeal.HypsOfPre.look (F := Ideal) m
      = Cert.ReferenceIdeal.RefValue.look
          (m (((0 : Dev Cert.KernelIdeal.nD) : Thread Cert.KernelIdeal.nD Cert.KernelIdeal.τ).loc Cert.KernelIdeal.main_arg0))
          (m (((0 : Dev Cert.KernelIdeal.nD) : Thread Cert.KernelIdeal.nD Cert.KernelIdeal.τ).loc Cert.KernelIdeal.main_arg1)) := rfl

/-- Where every looked-up word is non-negative, clipping and wrap-then-clamp select the same rows: the two results
    are one array. -/
theorem out_rows_eq (g : IVec Cert.Spec.STab 32) (hg : ∀ p, IntOp.cmpi .sge (g p) 0#32 = 1#1)
    (D : Cert.Spec.SMat.Idx → Ideal .f32) :
    Cert.Spec.out Cert.Spec.rowK Cert.Spec.rowK_lt g D = Cert.Spec.out Cert.Spec.rowR Cert.Spec.rowR_lt g D := by
  funext y
  unfold Cert.Spec.out
  congr 2
  exact congrArg (fun (k : Fin 10000) => ValueIdx.ix2 k (⟨(y 2).val, (y 2).isLt⟩ : Fin 10000))
    (Fin.ext (Cert.RowEq.rowK_eq_rowR' _ (hg _)))

end Cert.Bridge

end
-- ==== Proof.lean ====
/-
  The kernel gathers, for each of 64 × 100 positions, one row of the 10000 × 10000 distance matrix — the row named by
  the venue table at the position's id, clipped into [0, 9999] — and stores the masked reciprocal 1 / (if d = 0 then 10⁷
  else d) of its entries; the reference indexes the matrix with the same looked-up words (a negative word wrapped by
  10000, then clamped) and applies the same masked reciprocal. Under the precondition (finite matrix entries, every
  table entry non-negative) the looked-up words are non-negative, the two row choices coincide, and the two results are
  one array at the extended reals. The frames: the reference's from its run; the kernel's from the frame certificate,
  whose side conditions (every table word below 10000) hold because the host clips the words.
-/
import proofs.«403682_j71090298683716_2_alg».proof.Defs
import proofs.«403682_j71090298683716_2_alg».proof.Proof.Gen.Kernel
import proofs.«403682_j71090298683716_2_alg».proof.Proof.Gen.KernelIdeal
import proofs.«403682_j71090298683716_2_alg».proof.Proof.Gen.ReferenceIdeal
import proofs.«403682_j71090298683716_2_alg».proof.Proof.Gen.Pre_finite_inputs
import proofs.«403682_j71090298683716_2_alg».proof.Proof.KFrame
import proofs.«403682_j71090298683716_2_alg».proof.Proof.KIFrame
import proofs.«403682_j71090298683716_2_alg».proof.Proof.KHyps
import proofs.«403682_j71090298683716_2_alg».proof.Proof.KIHyps
import proofs.«403682_j71090298683716_2_alg».proof.Proof.KIPre
import proofs.«403682_j71090298683716_2_alg».proof.Proof.KIValue
import proofs.«403682_j71090298683716_2_alg».proof.Proof.RefValue
import proofs.«403682_j71090298683716_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the table words are clipped, so every row copy is in range. -/
theorem frame_k : Cert.frame_Kernel := fun m ρ _ =>
  Cert.Kernel.GenP.frame m ρ (Cert.Kernel.HypsOfPre.ok m) (Cert.Kernel.HypsOfPre.hyps m _)

/-- The same at the extended reals. -/
theorem frame_ki : Cert.frame_KernelIdeal := fun m ρ _ =>
  Cert.KernelIdeal.GenP.frame m ρ (Cert.KernelIdeal.HypsOfPre.ok m) (Cert.KernelIdeal.HypsOfPre.hyps m _)

/-- Both programs end at the masked reciprocal of the rows the looked-up words select; the words are non-negative
    under the precondition, where clipping and wrap-then-clamp agree. -/
theorem algebraic : Cert.algebraic_KernelIdeal_ReferenceIdeal := by
  intro m ρ m' ρ' hpre hagree
  refine ⟨_, Cert.KernelIdeal.PointValue.run m ρ, ?_⟩
  refine (θ_run Cert.ReferenceIdeal.defs _ _).mono (fun _ h c => ⟨(h c).1.trans ?_, (h c).2⟩)
    (Cert.ReferenceIdeal.RefValue.run m' ρ')
  obtain rfl : c = 0 := Subsingleton.elim _ _
  rw [(hagree 0).1, (hagree 0).2.1, (hagree 0).2.2]
  exact ((congrArg (fun g => Cert.Spec.out Cert.Spec.rowK Cert.Spec.rowK_lt g _) (Cert.Bridge.look_eq m)).trans
    (Cert.Bridge.out_rows_eq _ (fun p => by rw [← Cert.Bridge.look_eq m]; exact Cert.KernelIdeal.PreDecode.look_nonneg m hpre p) _)).symm

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame, trivial, algebraic⟩

end Cert.Proof

end
